-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x12000x64 : Shape := ⟨3, ![1, 12000, 64]⟩
abbrev S12000x12000 : Shape := ⟨2, ![12000, 12000]⟩
abbrev S12000x32 : Shape := ⟨2, ![12000, 32]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S1x12000x64 : S_.BroadcastsInDim S1x12000x64 (![] : Fin 0 → Fin S1x12000x64.rank)
  reducesTo_S1x12000x64_S_d0_1_2 : S1x12000x64.ReducesTo [0, 1, 2] S_
  h_S_ : 0 < S_.numel
  bcast_S_S12000x12000 : S_.BroadcastsInDim S12000x12000 (![] : Fin 0 → Fin S12000x12000.rank)
  reducesTo_S12000x12000_S_d0_1 : S12000x12000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S64 .f32) (main_arg9 : FVec F S128x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S64x64 .f32) (main_arg8 : FVec F S64 .f32) (main_arg9 : FVec F S128x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S1x12000x64 .f32) (main_arg1 : FVec F S12000x12000 .f32) (main_arg2 : IVec S12000x32 32) (main_arg3 : FVec F S64x64 .f32) (main_arg4 : FVec F S64 .f32) (main_arg5 : FVec F S128x64 .f32) (main_arg6 : FVec F S64 .f32) (main_arg7 : FVec F S64x64 .f32) (main_arg8 : FVec F S64 .f32) (main_arg9 : FVec F S128x64 .f32) (main_arg10 : FVec F S64 .f32) : IVec S_ 1 :=
  let main_v0 : FVec F S1x12000x64 .f32 := Host.absf main_arg0
  let main_cst : FVec F S_ .f32 := constant S_ .f32 0x7F800000#32
  let main_v1 : FVec F S1x12000x64 .f32 := broadcastInDim S1x12000x64 ![] bcast_S_S1x12000x64 main_cst
  let main_v2 : IVec S1x12000x64 1 := cmpf .olt main_v0 main_v1
  let main_c : IVec S_ 1 := constantI S_ 1 1#1
  let main_v3 : IVec S_ 1 := (fun x v => Host.reduce IntOp.andi x v reducesTo_S1x12000x64_S_d0_1_2 h_S_) main_v2 main_c
  let main_v4 : FVec F S12000x12000 .f32 := Host.absf main_arg1
  let main_cst_0 : FVec F S_ .f32 := constant S_ .f32 0x7F800000#32
  let main_v5 : FVec F S12000x12000 .f32 := broadcastInDim S12000x12000 ![] bcast_S_S12000x12000 main_cst_0
  let main_v6 : IVec S12000x12000 1 := cmpf .olt main_v4 main_v5
  let main_c_1 : IVec S_ 1 := constantI S_ 1 1#1
  let main_v7 : IVec S_ 1 := (fun x v => Host.reduce IntOp.andi x v reducesTo_S12000x12000_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S1x12000x64 : Shape := ⟨3, ![1, 12000, 64]⟩
abbrev S12000x12000 : Shape := ⟨2, ![12000, 12000]⟩
abbrev S12000x32 : Shape := ⟨2, ![12000, 32]⟩
abbrev S64x64 : Shape := ⟨2, ![64, 64]⟩
abbrev S64 : Shape := ⟨1, ![64]⟩
abbrev S128x64 : Shape := ⟨2, ![128, 64]⟩
abbrev S12000x64 : Shape := ⟨2, ![12000, 64]⟩
abbrev S3000x64 : Shape := ⟨2, ![3000, 64]⟩
abbrev S1x64 : Shape := ⟨2, ![1, 64]⟩
abbrev S_ : Shape := ⟨0, ![]⟩
abbrev S12000x32x1 : Shape := ⟨3, ![12000, 32, 1]⟩
abbrev S12000x32x64 : Shape := ⟨3, ![12000, 32, 64]⟩
abbrev S12000 : Shape := ⟨1, ![12000]⟩
abbrev S12000x1 : Shape := ⟨2, ![12000, 1]⟩
abbrev S12000x32x2 : Shape := ⟨3, ![12000, 32, 2]⟩
abbrev S600x32x64 : Shape := ⟨3, ![600, 32, 64]⟩
abbrev S600x32 : Shape := ⟨2, ![600, 32]⟩
abbrev S600x64 : Shape := ⟨2, ![600, 64]⟩
abbrev S600x32x1 : Shape := ⟨3, ![600, 32, 1]⟩
abbrev S600 : Shape := ⟨1, ![600]⟩
abbrev S600x1 : Shape := ⟨2, ![600, 1]⟩
abbrev S600x128 : Shape := ⟨2, ![600, 128]⟩

abbrev nBuf : Space → Nat
  | .hbm => 79
  | .vmem => 32
  | .smem => 0
  | _ => 0

abbrev bufTy : (tb : Table) → Fin (tcTables nBuf tb) → BufTy
  | .hbm, ⟨0, _⟩ => ⟨S1x12000x64, .f32⟩
  | .hbm, ⟨1, _⟩ => ⟨S12000x12000, .f32⟩
  | .hbm, ⟨2, _⟩ => ⟨S12000x32, .i32⟩
  | .hbm, ⟨3, _⟩ => ⟨S64x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S64, .f32⟩
  | .hbm, ⟨11, _⟩ => ⟨S12000x64, .f32⟩
  | .hbm, ⟨12, _⟩ => ⟨S12000x64, .f32⟩
  | .hbm, ⟨13, _⟩ => ⟨S_, .i32⟩
  | .hbm, ⟨14, _⟩ => ⟨S12000x32, .i32⟩
  | .hbm, ⟨15, _⟩ => ⟨S12000x32, .i1⟩
  | .hbm, ⟨16, _⟩ => ⟨S_, .i32⟩
  | .hbm, ⟨17, _⟩ => ⟨S12000x32, .i32⟩
  | .hbm, ⟨18, _⟩ => ⟨S12000x32, .i32⟩
  | .hbm, ⟨19, _⟩ => ⟨S12000x32, .i32⟩
  | .hbm, ⟨20, _⟩ => ⟨S12000x32x1, .i32⟩
  | .hbm, ⟨21, _⟩ => ⟨S12000x32x64, .f32⟩
  | .hbm, ⟨22, _⟩ => ⟨S12000, .i32⟩
  | .hbm, ⟨23, _⟩ => ⟨S12000x1, .i32⟩
  | .hbm, ⟨24, _⟩ => ⟨S_, .i32⟩
  | .hbm, ⟨25, _⟩ => ⟨S12000x1, .i32⟩
  | .hbm, ⟨26, _⟩ => ⟨S12000x1, .i1⟩
  | .hbm, ⟨27, _⟩ => ⟨S_, .i32⟩
  | .hbm, ⟨28, _⟩ => ⟨S12000x1, .i32⟩
  | .hbm, ⟨29, _⟩ => ⟨S12000x1, .i32⟩
  | .hbm, ⟨30, _⟩ => ⟨S12000x1, .i32⟩
  | .hbm, ⟨31, _⟩ => ⟨S_, .i32⟩
  | .hbm, ⟨32, _⟩ => ⟨S12000x32, .i32⟩
  | .hbm, ⟨33, _⟩ => ⟨S12000x32, .i1⟩
  | .hbm, ⟨34, _⟩ => ⟨S_, .i32⟩
  | .hbm, ⟨35, _⟩ => ⟨S12000x32, .i32⟩
  | .hbm, ⟨36, _⟩ => ⟨S12000x32, .i32⟩
  | .hbm, ⟨37, _⟩ => ⟨S12000x32, .i32⟩
  | .hbm, ⟨38, _⟩ => ⟨S12000x32, .i32⟩
  | .hbm, ⟨39, _⟩ => ⟨S12000x32x1, .i32⟩
  | .hbm, ⟨40, _⟩ => ⟨S12000x32x1, .i32⟩
  | .hbm, ⟨41, _⟩ => ⟨S12000x32x2, .i32⟩
  | .hbm, ⟨42, _⟩ => ⟨S12000x32, .f32⟩
  | .hbm, ⟨43, _⟩ => ⟨S12000x64, .f32⟩
  | .hbm, ⟨44, _⟩ => ⟨S1x12000x64, .f32⟩
  | .hbm, ⟨45, _⟩ => ⟨S12000x64, .f32⟩
  | .hbm, ⟨46, _⟩ => ⟨S12000x64, .f32⟩
  | .hbm, ⟨47, _⟩ => ⟨S_, .i32⟩
  | .hbm, ⟨48, _⟩ => ⟨S12000x32, .i32⟩
  | .hbm, ⟨49, _⟩ => ⟨S12000x32, .i1⟩
  | .hbm, ⟨50, _⟩ => ⟨S_, .i32⟩
  | .hbm, ⟨51, _⟩ => ⟨S12000x32, .i32⟩
  | .hbm, ⟨52, _⟩ => ⟨S12000x32, .i32⟩
  | .hbm, ⟨53, _⟩ => ⟨S12000x32, .i32⟩
  | .hbm, ⟨54, _⟩ => ⟨S12000x32x1, .i32⟩
  | .hbm, ⟨55, _⟩ => ⟨S12000x32x64, .f32⟩
  | .hbm, ⟨56, _⟩ => ⟨S12000, .i32⟩
  | .hbm, ⟨57, _⟩ => ⟨S12000x1, .i32⟩
  | .hbm, ⟨58, _⟩ => ⟨S_, .i32⟩
  | .hbm, ⟨59, _⟩ => ⟨S12000x1, .i32⟩
  | .hbm, ⟨60, _⟩ => ⟨S12000x1, .i1⟩
  | .hbm, ⟨61, _⟩ => ⟨S_, .i32⟩
  | .hbm, ⟨62, _⟩ => ⟨S12000x1, .i32⟩
  | .hbm, ⟨63, _⟩ => ⟨S12000x1, .i32⟩
  | .hbm, ⟨64, _⟩ => ⟨S12000x1, .i32⟩
  | .hbm, ⟨65, _⟩ => ⟨S_, .i32⟩
  | .hbm, ⟨66, _⟩ => ⟨S12000x32, .i32⟩
  | .hbm, ⟨67, _⟩ => ⟨S12000x32, .i1⟩
  | .hbm, ⟨68, _⟩ => ⟨S_, .i32⟩
  | .hbm, ⟨69, _⟩ => ⟨S12000x32, .i32⟩
  | .hbm, ⟨70, _⟩ => ⟨S12000x32, .i32⟩
  | .hbm, ⟨71, _⟩ => ⟨S12000x32, .i32⟩
  | .hbm, ⟨72, _⟩ => ⟨S12000x32, .i32⟩
  | .hbm, ⟨73, _⟩ => ⟨S12000x32x1, .i32⟩
  | .hbm, ⟨74, _⟩ => ⟨S12000x32x1, .i32⟩
  | .hbm, ⟨75, _⟩ => ⟨S12000x32x2, .i32⟩
  | .hbm, ⟨76, _⟩ => ⟨S12000x32, .f32⟩
  | .hbm, ⟨77, _⟩ => ⟨S12000x64, .f32⟩
  | .hbm, ⟨78, _⟩ => ⟨S1x12000x64, .f32⟩
  | .local _ .vmem, ⟨0, _⟩ => ⟨S3000x64, .f32⟩
  | .local _ .vmem, ⟨1, _⟩ => ⟨S3000x64, .f32⟩
  | .local _ .vmem, ⟨2, _⟩ => ⟨S64x64, .f32⟩
  | .local _ .vmem, ⟨3, _⟩ => ⟨S64, .f32⟩
  | .local _ .vmem, ⟨4, _⟩ => ⟨S3000x64, .f32⟩
  | .local _ .vmem, ⟨5, _⟩ => ⟨S3000x64, .f32⟩
  | .local _ .vmem, ⟨6, _⟩ => ⟨S600x32x64, .f32⟩
  | .local _ .vmem, ⟨7, _⟩ => ⟨S600x32x64, .f32⟩
  | .local _ .vmem, ⟨8, _⟩ => ⟨S600x32, .f32⟩
  | .local _ .vmem, ⟨9, _⟩ => ⟨S600x32, .f32⟩
  | .local _ .vmem, ⟨10, _⟩ => ⟨S600x64, .f32⟩
  | .local _ .vmem, ⟨11, _⟩ => ⟨S600x64, .f32⟩
  | .local _ .vmem, ⟨12, _⟩ => ⟨S128x64, .f32⟩
  | .local _ .vmem, ⟨13, _⟩ => ⟨S64, .f32⟩
  | .local _ .vmem, ⟨14, _⟩ => ⟨S600x64, .f32⟩
  | .local _ .vmem, ⟨15, _⟩ => ⟨S600x64, .f32⟩
  | .local _ .vmem, ⟨16, _⟩ => ⟨S3000x64, .f32⟩
  | .local _ .vmem, ⟨17, _⟩ => ⟨S3000x64, .f32⟩
  | .local _ .vmem, ⟨18, _⟩ => ⟨S64x64, .f32⟩
  | .local _ .vmem, ⟨19, _⟩ => ⟨S64, .f32⟩
  | .local _ .vmem, ⟨20, _⟩ => ⟨S3000x64, .f32⟩
  | .local _ .vmem, ⟨21, _⟩ => ⟨S3000x64, .f32⟩
  | .local _ .vmem, ⟨22, _⟩ => ⟨S600x32x64, .f32⟩
  | .local _ .vmem, ⟨23, _⟩ => ⟨S600x32x64, .f32⟩
  | .local _ .vmem, ⟨24, _⟩ => ⟨S600x32, .f32⟩
  | .local _ .vmem, ⟨25, _⟩ => ⟨S600x32, .f32⟩
  | .local _ .vmem, ⟨26, _⟩ => ⟨S600x64, .f32⟩
  | .local _ .vmem, ⟨27, _⟩ => ⟨S600x64, .f32⟩
  | .local _ .vmem, ⟨28, _⟩ => ⟨S128x64, .f32⟩
  | .local _ .vmem, ⟨29, _⟩ => ⟨S64, .f32⟩
  | .local _ .vmem, ⟨30, _⟩ => ⟨S600x64, .f32⟩
  | .local _ .vmem, ⟨31, _⟩ => ⟨S600x64, .f32⟩
  | _, _ => ⟨S1x12000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S600x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S600x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S600x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S600x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S600x32x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S600x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S600x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S600x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S1x12000x64_S12000x64 : S1x12000x64.ShapeCasts S12000x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S3000x64 : S1x64.Broadcasts S3000x64
  bcast_S_S12000x32 : S_.BroadcastsInDim S12000x32 (![] : Fin 0 → Fin S12000x32.rank)
  bcast_S12000x32_S12000x32x1_0_1 : S12000x32.BroadcastsInDim S12000x32x1 (![0, 1] : Fin 2 → Fin S12000x32x1.rank)
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x32_0_1 : S12000x1.BroadcastsInDim S12000x32 (![0, 1] : Fin 2 → Fin S12000x32.rank)
  concatenates_S12000x32x1_S12000x32x1_S12000x32x2_d2 : Shape.Concatenates [S12000x32x1, S12000x32x1] S12000x32x2 2
  inb_S600x32x64_S600x32x64_0_0_0 : ∀ a, (![0, 0, 0] : Fin 3 → Nat) a + S600x32x64.size a ≤ S600x32x64.size a
  h_S600x32x64 : 0 < S600x32x64.numel
  shapeCasts_S600x32x64_S600x32x64 : S600x32x64.ShapeCasts S600x32x64
  inb_S600x32_S600x32_0_0 : ∀ a, (![0, 0] : Fin 2 → Nat) a + S600x32.size a ≤ S600x32.size a
  h_S600x32 : 0 < S600x32.numel
  shapeCasts_S600x32_S600x32 : S600x32.ShapeCasts S600x32
  shapeCasts_S600x32_S600x32x1 : S600x32.ShapeCasts S600x32x1
  broadcasts_S600x32x1_S600x32x64 : S600x32x1.Broadcasts S600x32x64
  reduces_S600x32x64_S600x64 : S600x32x64.Reduces [1] S600x64
  reduces_S600x32_S600 : S600x32.Reduces [1] S600
  shapeCasts_S600_S600x1 : S600.ShapeCasts S600x1
  broadcasts_S600x1_S600x64 : S600x1.Broadcasts S600x64
  inb_S600x64_S600x64_0_0 : ∀ a, (![0, 0] : Fin 2 → Nat) a + S600x64.size a ≤ S600x64.size a
  h_S600x64 : 0 < S600x64.numel
  shapeCasts_S600x64_S600x64 : S600x64.ShapeCasts S600x64
  concatenates_S600x64_S600x64_S600x128_d1 : Shape.Concatenates [S600x64, S600x64] S600x128 1
  inb_S128x64_S128x64_0_0 : ∀ a, (![0, 0] : Fin 2 → Nat) a + S128x64.size a ≤ S128x64.size a
  h_S128x64 : 0 < S128x64.numel
  broadcasts_S1x64_S600x64 : S1x64.Broadcasts S600x64
  reduces_S600x64_S600 : S600x64.Reduces [1] S600
  shapeCasts_S12000x64_S1x12000x64 : S12000x64.ShapeCasts S1x12000x64
  dot_S3000x64_S64x64_S3000x64_1_0_0_1_n_n_wf : DotDims.WF S3000x64 S64x64 S3000x64 [1] [0] [0] [1] [] []
  gather_S12000x64_S12000x32x1_S12000x32x64_2_0_n_n_0_2_164_wf : GatherDims.WF S12000x64 S12000x32x1 S12000x32x64 [2] [0] [] [0] [] 2 ![1, 64]
  gather_S12000x12000_S12000x32x2_S12000x32_n_01_n_n_01_2_11_wf : GatherDims.WF S12000x12000 S12000x32x2 S12000x32 [] [0, 1] [] [0, 1] [] 2 ![1, 1]
  dot_S600x128_S128x64_S600x64_1_0_0_1_n_n_wf : DotDims.WF S600x128 S128x64 S600x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S12000x64.size a
  hwx0_0 : ∀ i : grid0.Coords, EltTy.bits .f32 = 32 ∨ (Rect.block (s := S12000x64) S3000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S12000x64.size a
  hwx0_3 : ∀ i : grid0.Coords, EltTy.bits .f32 = 32 ∨ (Rect.block (s := S12000x64) S3000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S600x32x64.size a ≤ S12000x32x64.size a
  hwx1_0 : ∀ i : grid1.Coords, EltTy.bits .f32 = 32 ∨ (Rect.block (s := S12000x32x64) S600x32x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S600x32.size a ≤ S12000x32.size a
  hwx1_1 : ∀ i : grid1.Coords, EltTy.bits .f32 = 32 ∨ (Rect.block (s := S12000x32) S600x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S600x64.size a ≤ S12000x64.size a
  hwx1_2 : ∀ i : grid1.Coords, EltTy.bits .f32 = 32 ∨ (Rect.block (s := S12000x64) S600x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S600x64.size a ≤ S12000x64.size a
  hwx1_5 : ∀ i : grid1.Coords, EltTy.bits .f32 = 32 ∨ (Rect.block (s := S12000x64) S600x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S12000x64.size a
  hwx2_0 : ∀ i : grid2.Coords, EltTy.bits .f32 = 32 ∨ (Rect.block (s := S12000x64) S3000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S12000x64.size a
  hwx2_3 : ∀ i : grid2.Coords, EltTy.bits .f32 = 32 ∨ (Rect.block (s := S12000x64) S3000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S600x32x64.size a ≤ S12000x32x64.size a
  hwx3_0 : ∀ i : grid3.Coords, EltTy.bits .f32 = 32 ∨ (Rect.block (s := S12000x32x64) S600x32x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S600x32.size a ≤ S12000x32.size a
  hwx3_1 : ∀ i : grid3.Coords, EltTy.bits .f32 = 32 ∨ (Rect.block (s := S12000x32) S600x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S600x64.size a ≤ S12000x64.size a
  hwx3_2 : ∀ i : grid3.Coords, EltTy.bits .f32 = 32 ∨ (Rect.block (s := S12000x64) S600x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S600x64.size a ≤ S12000x64.size a
  hwx3_5 : ∀ i : grid3.Coords, EltTy.bits .f32 = 32 ∨ (Rect.block (s := S12000x64) S600x64.size (cc3_transform_5 i) (hinb3_5 i)).WholeWords (EltTy.packing .f32)

variable [Facts₀]

def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def gather_S12000x64_S12000x32x1_S12000x32x64_2_0_n_n_0_2_164 : GatherDims S12000x64 S12000x32x1 S12000x32x64 where
  offsetDims := [2]
  collapsedSliceDims := [0]
  operandBatchingDims := []
  startIndicesBatchingDims := []
  startIndexMap := [0]
  indexVectorDim := 2
  sliceSizes := ![1, 64]
  wf := gather_S12000x64_S12000x32x1_S12000x32x64_2_0_n_n_0_2_164_wf
def gather_S12000x12000_S12000x32x2_S12000x32_n_01_n_n_01_2_11 : GatherDims S12000x12000 S12000x32x2 S12000x32 where
  offsetDims := []
  collapsedSliceDims := [0, 1]
  operandBatchingDims := []
  startIndicesBatchingDims := []
  startIndexMap := [0, 1]
  indexVectorDim := 2
  sliceSizes := ![1, 1]
  wf := gather_S12000x12000_S12000x32x2_S12000x32_n_01_n_n_01_2_11_wf
def dot_S600x128_S128x64_S600x64_1_0_0_1_n_n : DotDims S600x128 S128x64 S600x64 where
  lhsContracting := [1]
  rhsContracting := [0]
  lhsNonContracting := [0]
  rhsNonContracting := [1]
  lhsBatch := []
  rhsBatch := []
  wf := dot_S600x128_S128x64_S600x64_1_0_0_1_n_n_wf

abbrev win0_0 : Pipeline.Window sig grid0 :=
  Pipeline.Window.ofSpec (Memref.whole main_v0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S600x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S600x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S600x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S600x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S3000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S600x32x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S600x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S600x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S600x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1x12000x64 : Shape := ⟨3, ![1, 12000, 64]⟩
abbrev S12000x12000 : Shape := ⟨2, ![12000, 12000]⟩
abbrev S12000x32 : Shape := ⟨2, ![12000, 32]⟩
abbrev S64x64 : Shape := ⟨2, ![64, 64]⟩
abbrev S64 : Shape := ⟨1, ![64]⟩
abbrev S128x64 : Shape := ⟨2, ![128, 64]⟩
abbrev S_ : Shape := ⟨0, ![]⟩
abbrev S12000x32x1 : Shape := ⟨3, ![12000, 32, 1]⟩
abbrev S1x12000x32x64 : Shape := ⟨4, ![1, 12000, 32, 64]⟩
abbrev S1x1x1x64 : Shape := ⟨4, ![1, 1, 1, 64]⟩
abbrev S12000 : Shape := ⟨1, ![12000]⟩
abbrev S12000x1 : Shape := ⟨2, ![12000, 1]⟩
abbrev S12000x32x2 : Shape := ⟨3, ![12000, 32, 2]⟩
abbrev S1x12000x32x1 : Shape := ⟨4, ![1, 12000, 32, 1]⟩
abbrev S1x12000x1 : Shape := ⟨3, ![1, 12000, 1]⟩
abbrev S1x12000x128 : Shape := ⟨3, ![1, 12000, 128]⟩
abbrev S1x1x64 : Shape := ⟨3, ![1, 1, 64]⟩
abbrev S1x12000 : Shape := ⟨2, ![1, 12000]⟩

abbrev nBuf : Space → Nat
  | .hbm => 161
  | .vmem => 0
  | .smem => 0
  | _ => 0

abbrev hbmTy0_0 (i : Nat) : BufTy := match i % 128 with
  | 0 => ⟨S1x12000x64, .f32⟩
  | 1 => ⟨S12000x12000, .f32⟩
  | 2 => ⟨S12000x32, .i32⟩
  | 3 => ⟨S64x64, .f32⟩
  | 4 => ⟨S64, .f32⟩
  | 5 => ⟨S128x64, .f32⟩
  | 6 => ⟨S64, .f32⟩
  | 7 => ⟨S64x64, .f32⟩
  | 8 => ⟨S64, .f32⟩
  | 9 => ⟨S128x64, .f32⟩
  | 10 => ⟨S64, .f32⟩
  | 11 => ⟨S_, .i32⟩
  | 12 => ⟨S12000x32, .i32⟩
  | 13 => ⟨S12000x32, .i1⟩
  | 14 => ⟨S_, .i32⟩
  | 15 => ⟨S12000x32, .i32⟩
  | 16 => ⟨S12000x32, .i32⟩
  | 17 => ⟨S12000x32, .i32⟩
  | 18 => ⟨S12000x32x1, .i32⟩
  | 19 => ⟨S1x12000x32x64, .f32⟩
  | 20 => ⟨S1x12000x32x64, .f32⟩
  | 21 => ⟨S1x1x1x64, .f32⟩
  | 22 => ⟨S1x12000x32x64, .f32⟩
  | 23 => ⟨S1x12000x32x64, .f32⟩
  | 24 => ⟨S_, .f32⟩
  | 25 => ⟨S1x12000x32x64, .f32⟩
  | 26 => ⟨S1x12000x32x64, .i1⟩
  | 27 => ⟨S_, .f32⟩
  | 28 => ⟨S1x12000x32x64, .f32⟩
  | 29 => ⟨S1x12000x32x64, .f32⟩
  | 30 => ⟨S1x12000x32x64, .f32⟩
  | 31 => ⟨S12000, .i32⟩
  | 32 => ⟨S12000x1, .i32⟩
  | 33 => ⟨S_, .i32⟩
  | 34 => ⟨S12000x1, .i32⟩
  | 35 => ⟨S12000x1, .i1⟩
  | 36 => ⟨S_, .i32⟩
  | 37 => ⟨S12000x1, .i32⟩
  | 38 => ⟨S12000x1, .i32⟩
  | 39 => ⟨S12000x1, .i32⟩
  | 40 => ⟨S_, .i32⟩
  | 41 => ⟨S12000x32, .i32⟩
  | 42 => ⟨S12000x32, .i1⟩
  | 43 => ⟨S_, .i32⟩
  | 44 => ⟨S12000x32, .i32⟩
  | 45 => ⟨S12000x32, .i32⟩
  | 46 => ⟨S12000x32, .i32⟩
  | 47 => ⟨S12000x32, .i32⟩
  | 48 => ⟨S12000x32x1, .i32⟩
  | 49 => ⟨S12000x32x1, .i32⟩
  | 50 => ⟨S12000x32x2, .i32⟩
  | 51 => ⟨S12000x32, .f32⟩
  | 52 => ⟨S1x12000x32x1, .f32⟩
  | 53 => ⟨S1x12000x32x64, .f32⟩
  | 54 => ⟨S1x12000x32x64, .f32⟩
  | 55 => ⟨S_, .f32⟩
  | 56 => ⟨S1x12000x64, .f32⟩
  | 57 => ⟨S_, .f32⟩
  | 58 => ⟨S1x12000x1, .f32⟩
  | 59 => ⟨S_, .f32⟩
  | 60 => ⟨S1x12000x1, .f32⟩
  | 61 => ⟨S1x12000x1, .f32⟩
  | 62 => ⟨S1x12000x64, .f32⟩
  | 63 => ⟨S1x12000x64, .f32⟩
  | 64 => ⟨S1x12000x128, .f32⟩
  | 65 => ⟨S1x12000x64, .f32⟩
  | 66 => ⟨S1x1x64, .f32⟩
  | 67 => ⟨S1x12000x64, .f32⟩
  | 68 => ⟨S1x12000x64, .f32⟩
  | 69 => ⟨S_, .f32⟩
  | 70 => ⟨S1x12000x64, .f32⟩
  | 71 => ⟨S1x12000x64, .i1⟩
  | 72 => ⟨S_, .f32⟩
  | 73 => ⟨S1x12000x64, .f32⟩
  | 74 => ⟨S1x12000x64, .f32⟩
  | 75 => ⟨S1x12000x64, .f32⟩
  | 76 => ⟨S1x12000x64, .f32⟩
  | 77 => ⟨S_, .f32⟩
  | 78 => ⟨S1x12000, .f32⟩
  | 79 => ⟨S1x12000x1, .f32⟩
  | 80 => ⟨S1x12000x1, .f32⟩
  | 81 => ⟨S_, .f32⟩
  | 82 => ⟨S1x12000x1, .f32⟩
  | 83 => ⟨S1x12000x1, .f32⟩
  | 84 => ⟨S1x12000x64, .f32⟩
  | 85 => ⟨S1x12000x64, .f32⟩
  | 86 => ⟨S_, .i32⟩
  | 87 => ⟨S12000x32, .i32⟩
  | 88 => ⟨S12000x32, .i1⟩
  | 89 => ⟨S_, .i32⟩
  | 90 => ⟨S12000x32, .i32⟩
  | 91 => ⟨S12000x32, .i32⟩
  | 92 => ⟨S12000x32, .i32⟩
  | 93 => ⟨S12000x32x1, .i32⟩
  | 94 => ⟨S1x12000x32x64, .f32⟩
  | 95 => ⟨S1x12000x32x64, .f32⟩
  | 96 => ⟨S1x1x1x64, .f32⟩
  | 97 => ⟨S1x12000x32x64, .f32⟩
  | 98 => ⟨S1x12000x32x64, .f32⟩
  | 99 => ⟨S_, .f32⟩
  | 100 => ⟨S1x12000x32x64, .f32⟩
  | 101 => ⟨S1x12000x32x64, .i1⟩
  | 102 => ⟨S_, .f32⟩
  | 103 => ⟨S1x12000x32x64, .f32⟩
  | 104 => ⟨S1x12000x32x64, .f32⟩
  | 105 => ⟨S1x12000x32x64, .f32⟩
  | 106 => ⟨S12000, .i32⟩
  | 107 => ⟨S12000x1, .i32⟩
  | 108 => ⟨S_, .i32⟩
  | 109 => ⟨S12000x1, .i32⟩
  | 110 => ⟨S12000x1, .i1⟩
  | 111 => ⟨S_, .i32⟩
  | 112 => ⟨S12000x1, .i32⟩
  | 113 => ⟨S12000x1, .i32⟩
  | 114 => ⟨S12000x1, .i32⟩
  | 115 => ⟨S_, .i32⟩
  | 116 => ⟨S12000x32, .i32⟩
  | 117 => ⟨S12000x32, .i1⟩
  | 118 => ⟨S_, .i32⟩
  | 119 => ⟨S12000x32, .i32⟩
  | 120 => ⟨S12000x32, .i32⟩
  | 121 => ⟨S12000x32, .i32⟩
  | 122 => ⟨S12000x32, .i32⟩
  | 123 => ⟨S12000x32x1, .i32⟩
  | 124 => ⟨S12000x32x1, .i32⟩
  | 125 => ⟨S12000x32x2, .i32⟩
  | 126 => ⟨S12000x32, .f32⟩
  | 127 => ⟨S1x12000x32x1, .f32⟩
  | _ => ⟨S1x12000x64, .f32⟩

abbrev hbmTy0_1 (i : Nat) : BufTy := match i % 128 with
  | 0 => ⟨S1x12000x32x64, .f32⟩
  | 1 => ⟨S1x12000x32x64, .f32⟩
  | 2 => ⟨S_, .f32⟩
  | 3 => ⟨S1x12000x64, .f32⟩
  | 4 => ⟨S_, .f32⟩
  | 5 => ⟨S1x12000x1, .f32⟩
  | 6 => ⟨S_, .f32⟩
  | 7 => ⟨S1x12000x1, .f32⟩
  | 8 => ⟨S1x12000x1, .f32⟩
  | 9 => ⟨S1x12000x64, .f32⟩
  | 10 => ⟨S1x12000x64, .f32⟩
  | 11 => ⟨S1x12000x128, .f32⟩
  | 12 => ⟨S1x12000x64, .f32⟩
  | 13 => ⟨S1x1x64, .f32⟩
  | 14 => ⟨S1x12000x64, .f32⟩
  | 15 => ⟨S1x12000x64, .f32⟩
  | 16 => ⟨S_, .f32⟩
  | 17 => ⟨S1x12000x64, .f32⟩
  | 18 => ⟨S1x12000x64, .i1⟩
  | 19 => ⟨S_, .f32⟩
  | 20 => ⟨S1x12000x64, .f32⟩
  | 21 => ⟨S1x12000x64, .f32⟩
  | 22 => ⟨S1x12000x64, .f32⟩
  | 23 => ⟨S1x12000x64, .f32⟩
  | 24 => ⟨S_, .f32⟩
  | 25 => ⟨S1x12000, .f32⟩
  | 26 => ⟨S1x12000x1, .f32⟩
  | 27 => ⟨S1x12000x1, .f32⟩
  | 28 => ⟨S_, .f32⟩
  | 29 => ⟨S1x12000x1, .f32⟩
  | 30 => ⟨S1x12000x1, .f32⟩
  | 31 => ⟨S1x12000x64, .f32⟩
  | 32 => ⟨S1x12000x64, .f32⟩
  | _ => ⟨S1x12000x64, .f32⟩

abbrev hbmTy (i : Nat) : BufTy := match i / 128 with
  | 0 => hbmTy0_0 i
  | 1 => hbmTy0_1 i
  | _ => ⟨S1x12000x64, .f32⟩

abbrev bufTy : (tb : Table) → Fin (tcTables nBuf tb) → BufTy
  | .hbm, ⟨i, _⟩ => hbmTy i
  | _, _ => ⟨S1x12000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call2_v0 : Ref sig .tc := ⟨.hbm, 76, rfl⟩
abbrev main_call2_cst : Ref sig .tc := ⟨.hbm, 77, rfl⟩
abbrev main_call2_v1 : Ref sig .tc := ⟨.hbm, 78, rfl⟩
abbrev main_call2_v2 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_c_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_18 : Ref sig .tc := ⟨.hbm, 115, rfl⟩
abbrev main_v80 : Ref sig .tc := ⟨.hbm, 116, rfl⟩
abbrev main_v81 : Ref sig .tc := ⟨.hbm, 117, rfl⟩
abbrev main_c_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_cst_24 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_call5_v0 : Ref sig .tc := ⟨.hbm, 151, rfl⟩
abbrev main_call5_cst : Ref sig .tc := ⟨.hbm, 152, rfl⟩
abbrev main_call5_v1 : Ref sig .tc := ⟨.hbm, 153, rfl⟩
abbrev main_call5_v2 : Ref sig .tc := ⟨.hbm, 154, rfl⟩
abbrev main_v109 : Ref sig .tc := ⟨.hbm, 155, rfl⟩
abbrev main_cst_25 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩

abbrev nD : Nat := 1
abbrev τ : Topo := Topo.v7x

variable {F : FTy → Type} [FloatOps F]

class Facts₀ : Prop where
  bcast_S_S12000x32 : S_.BroadcastsInDim S12000x32 (![] : Fin 0 → Fin S12000x32.rank)
  bcast_S12000x32_S12000x32x1_0_1 : S12000x32.BroadcastsInDim S12000x32x1 (![0, 1] : Fin 2 → Fin S12000x32x1.rank)
  bcast_S64_S1x1x1x64_3 : S64.BroadcastsInDim S1x1x1x64 (![3] : Fin 1 → Fin S1x1x1x64.rank)
  bcast_S1x1x1x64_S1x12000x32x64_0_1_2_3 : S1x1x1x64.BroadcastsInDim S1x12000x32x64 (![0, 1, 2, 3] : Fin 4 → Fin S1x12000x32x64.rank)
  bcast_S_S1x12000x32x64 : S_.BroadcastsInDim S1x12000x32x64 (![] : Fin 0 → Fin S1x12000x32x64.rank)
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x32_0_1 : S12000x1.BroadcastsInDim S12000x32 (![0, 1] : Fin 2 → Fin S12000x32.rank)
  concatenates_S12000x32x1_S12000x32x1_S12000x32x2_d2 : Shape.Concatenates [S12000x32x1, S12000x32x1] S12000x32x2 2
  bcast_S12000x32_S1x12000x32x1_1_2 : S12000x32.BroadcastsInDim S1x12000x32x1 (![1, 2] : Fin 2 → Fin S1x12000x32x1.rank)
  bcast_S1x12000x32x1_S1x12000x32x64_0_1_2_3 : S1x12000x32x1.BroadcastsInDim S1x12000x32x64 (![0, 1, 2, 3] : Fin 4 → Fin S1x12000x32x64.rank)
  reducesTo_S1x12000x32x64_S1x12000x64_d2 : S1x12000x32x64.ReducesTo [2] S1x12000x64
  h_S_ : 0 < S_.numel
  reducesTo_S1x12000x32x1_S1x12000x1_d2 : S1x12000x32x1.ReducesTo [2] S1x12000x1
  bcast_S_S1x12000x1 : S_.BroadcastsInDim S1x12000x1 (![] : Fin 0 → Fin S1x12000x1.rank)
  bcast_S1x12000x1_S1x12000x64_0_1_2 : S1x12000x1.BroadcastsInDim S1x12000x64 (![0, 1, 2] : Fin 3 → Fin S1x12000x64.rank)
  concatenates_S1x12000x64_S1x12000x64_S1x12000x128_d2 : Shape.Concatenates [S1x12000x64, S1x12000x64] S1x12000x128 2
  bcast_S64_S1x1x64_2 : S64.BroadcastsInDim S1x1x64 (![2] : Fin 1 → Fin S1x1x64.rank)
  bcast_S1x1x64_S1x12000x64_0_1_2 : S1x1x64.BroadcastsInDim S1x12000x64 (![0, 1, 2] : Fin 3 → Fin S1x12000x64.rank)
  bcast_S_S1x12000x64 : S_.BroadcastsInDim S1x12000x64 (![] : Fin 0 → Fin S1x12000x64.rank)
  reducesTo_S1x12000x64_S1x12000_d2 : S1x12000x64.ReducesTo [2] S1x12000
  bcast_S1x12000_S1x12000x1_0_1 : S1x12000.BroadcastsInDim S1x12000x1 (![0, 1] : Fin 2 → Fin S1x12000x1.rank)
  gather_S1x12000x64_S12000x32x1_S1x12000x32x64_03_1_n_n_1_2_1164_wf : GatherDims.WF S1x12000x64 S12000x32x1 S1x12000x32x64 [0, 3] [1] [] [1] [] 2 ![1, 1, 64]
  dot_S1x12000x32x64_S64x64_S1x12000x32x64_3_0_012_1_n_n_wf : DotDims.WF S1x12000x32x64 S64x64 S1x12000x32x64 [3] [0] [0, 1, 2] [1] [] []
  gather_S12000x12000_S12000x32x2_S12000x32_n_01_n_n_01_2_11_wf : GatherDims.WF S12000x12000 S12000x32x2 S12000x32 [] [0, 1] [] [0, 1] [] 2 ![1, 1]
  dot_S1x12000x128_S128x64_S1x12000x64_2_0_01_1_n_n_wf : DotDims.WF S1x12000x128 S128x64 S1x12000x64 [2] [0] [0, 1] [1] [] []

variable [Facts₀]

def gather_S1x12000x64_S12000x32x1_S1x12000x32x64_03_1_n_n_1_2_1164 : GatherDims S1x12000x64 S12000x32x1 S1x12000x32x64 where
  offsetDims := [0, 3]
  collapsedSliceDims := [1]
  operandBatchingDims := []
  startIndicesBatchingDims := []
  startIndexMap := [1]
  indexVectorDim := 2
  sliceSizes := ![1, 1, 64]
  wf := gather_S1x12000x64_S12000x32x1_S1x12000x32x64_03_1_n_n_1_2_1164_wf
def dot_S1x12000x32x64_S64x64_S1x12000x32x64_3_0_012_1_n_n : DotDims S1x12000x32x64 S64x64 S1x12000x32x64 where
  lhsContracting := [3]
  rhsContracting := [0]
  lhsNonContracting := [0, 1, 2]
  rhsNonContracting := [1]
  lhsBatch := []
  rhsBatch := []
  wf := dot_S1x12000x32x64_S64x64_S1x12000x32x64_3_0_012_1_n_n_wf
def gather_S12000x12000_S12000x32x2_S12000x32_n_01_n_n_01_2_11 : GatherDims S12000x12000 S12000x32x2 S12000x32 where
  offsetDims := []
  collapsedSliceDims := [0, 1]
  operandBatchingDims := []
  startIndicesBatchingDims := []
  startIndexMap := [0, 1]
  indexVectorDim := 2
  sliceSizes := ![1, 1]
  wf := gather_S12000x12000_S12000x32x2_S12000x32_n_01_n_n_01_2_11_wf
def dot_S1x12000x128_S128x64_S1x12000x64_2_0_01_1_n_n : DotDims S1x12000x128 S128x64 S1x12000x64 where
  lhsContracting := [2]
  rhsContracting := [0]
  lhsNonContracting := [0, 1]
  rhsNonContracting := [1]
  lhsBatch := []
  rhsBatch := []
  wf := dot_S1x12000x128_S128x64_S1x12000x64_2_0_01_1_n_n_wf

class Facts : Prop extends Facts₀ where

variable [Facts]
-- ==== Proof.LayerSpec.lean ====
/-
  One PinSage-style convolution layer over a table of nodes with 32 neighbours each, as ONE function of its arrays,
  read on the extended reals. Every node's 64 features go through a dense map and a leaky rectifier (`hid`); a
  node's neighbour rows are averaged with the edge weights, the divisor being the weights' sum plus a small constant
  (`aggG`); the node's own features and that average are joined into 128 columns (`cat`), go through a second dense
  map and the rectifier (`dense2`), and each row is divided by its Euclidean norm plus the same constant
  (`normalize`). All of these act row by row, so they are stated for any number `N` of rows: the whole table has
  12000, a block of it 3000 or 600. Which rows a node's neighbours are is a function `ρ` of the node and the slot
  (`rowOf`: a start index read signed and clamped into the table); the edge weights arrive as an array over node and
  slot. Nothing here mentions a program: both programs' results are shown equal to `layer` applied twice.
-/
import Idealize.ShloMosaic.PureOps.Ideal
import Idealize.ShloMosaic.Lib.ValueIdx

noncomputable section

namespace Cert.LayerSpec

open Idealize.ShloMosaic Idealize.ShloMosaic.ValueIdx

/-- Arrays of extended reals over literal shapes of rank 1 to 3. -/
abbrev T1 (a : Nat) : Type := (⟨1, ![a]⟩ : Shape).Idx → EReal
abbrev T2 (a b : Nat) : Type := (⟨2, ![a, b]⟩ : Shape).Idx → EReal
abbrev T3 (a b c : Nat) : Type := (⟨3, ![a, b, c]⟩ : Shape).Idx → EReal

/-- The leaky rectifier with the slope the programs write as the f32 word of 0.3: `y` where `0 ≤ y`, the slope times `y`
    elsewhere. -/
def leaky (y : EReal) : EReal :=
  Scalar.select (Ideal.cmp .oge y (Ideal.ofBits .f32 0x00000000#32)) y (Ideal.ofBits .f32 0x3E99999A#32 * y)

/-- The constant both divisors carry: the f32 word of 1e-6, the same word in both programs. -/
def eps : EReal := Ideal.ofBits .f32 0x358637BD#32

variable {N : Nat}

/-- The first dense map and the rectifier, row by row: entry `(j, h)` is `leaky (∑ c, X[j, c] · Qw[c, h] + Qb[h])`. -/
def hid (X : T2 N 64) (Qw : T2 64 64) (Qb : T1 64) : T2 N 64 := fun i =>
  leaky ((∑ c : Fin 64, X (ix2 (i 0) c) * Qw (ix2 c (i 1))) + Qb (ix1 (i 1)))

/-- The weighted neighbour average of gathered rows `NB[n, k, h]` with weights `NW[n, k]`:
    `(∑ k, NB[n, k, h] · NW[n, k]) / (∑ k, NW[n, k] + eps)`. -/
def aggG (NB : T3 N 32 64) (NW : T2 N 32) : T2 N 64 := fun i =>
  Ideal.div (∑ k : Fin 32, NB (ix3 (i 0) k (i 1)) * NW (ix2 (i 0) k)) ((∑ k : Fin 32, NW (ix2 (i 0) k)) + eps)

/-- A node's own 64 features followed by its 64 averaged ones. -/
def cat (X A : T2 N 64) : T2 N 128 := fun i =>
  if h : (i 1).val < 64 then X (ix2 (i 0) ⟨(i 1).val, h⟩) else A (ix2 (i 0) ⟨(i 1).val - 64, by have := idx2_lt1 i; omega⟩)

/-- The second dense map and the rectifier: entry `(n, h)` is `leaky (∑ d, C[n, d] · Ww[d, h] + Wb[h])`. -/
def dense2 (C : T2 N 128) (Ww : T2 128 64) (Wb : T1 64) : T2 N 64 := fun i =>
  leaky ((∑ d : Fin 128, C (ix2 (i 0) d) * Ww (ix2 d (i 1))) + Wb (ix1 (i 1)))

/-- Each row divided by its Euclidean norm plus `eps`. -/
def normalize (Y : T2 N 64) : T2 N 64 := fun i =>
  Ideal.div (Y i) (Ideal.sqrt (∑ h : Fin 64, Y (ix2 (i 0) h) * Y (ix2 (i 0) h)) + eps)

/-- What follows the gathers: average, join, second dense map, rectifier, row normalisation, from already gathered rows. -/
def tail (NB : T3 N 32 64) (NW : T2 N 32) (X : T2 N 64) (Ww : T2 128 64) (Wb : T1 64) : T2 N 64 :=
  normalize (dense2 (cat X (aggG NB NW)) Ww Wb)

/-- The rows of a table `H` the nodes' neighbours name: `(n, k, h) ↦ H[ρ n k, h]`. -/
def rowsOf (H : T2 12000 64) (ρ : Fin 12000 → Fin 32 → Fin 12000) : T3 12000 32 64 := fun j => H (ix2 (ρ (j 0) (j 1)) (j 2))

/-- One layer over the whole table. -/
def layer (X : T2 12000 64) (Qw : T2 64 64) (Qb : T1 64) (Ww : T2 128 64) (Wb : T1 64)
    (ρ : Fin 12000 → Fin 32 → Fin 12000) (NW : T2 12000 32) : T2 12000 64 :=
  tail (rowsOf (hid X Qw Qb) ρ) NW X Ww Wb

/-- The row a start index names: the 32-bit word at `(n, k, 0)` read signed and clamped into `[0, 11999]`. -/
def rowOf (I : IVec ⟨3, ![12000, 32, 1]⟩ 32) (n : Fin 12000) (k : Fin 32) : Fin 12000 :=
  ⟨min (I (ix3 n k (0 : Fin 1))).toInt.toNat 11999, by omega⟩

/-- A `[1, 12000, 64]` array read as `[12000, 64]`, and back. -/
def drop1 (Y : T3 1 12000 64) : T2 12000 64 := fun i => Y (ix3 (0 : Fin 1) (i 0) (i 1))
def add1 (Y : T2 12000 64) : T3 1 12000 64 := fun j => Y (ix2 (j 1) (j 2))

theorem drop1_add1 (Y : T2 12000 64) : drop1 (add1 Y) = Y := by
  funext i
  exact congrArg Y (eq_ix2 i).symm

end Cert.LayerSpec

end
-- ==== Proof.DensePayload.lean ====
/-
  What the dense-and-rectify kernel body stores, read on the extended reals: of a `[3000, 64]` block of rows, the
  `[64, 64]` matrix and the bias it is `LayerSpec.hid` of them, entry by entry (the change of float format before the
  product is the identity, the product into the zero accumulator the plain sum over the 64 columns).
-/
import proofs.«120848_j4509715661236_1_alg».proof.Proof.Gen.KernelIdeal.Skeleton
import proofs.«120848_j4509715661236_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.DensePayload

open Idealize.ShloMosaic Idealize.ShloMosaic.ValueIdx Cert.LayerSpec Cert.KernelIdeal Cert.KernelIdeal.Gen

/-! ## The product's two operand indices, axis by axis

The product contracts the rows' column axis against the matrix's row axis: at result entry `(p, h)` and contraction
position `q` the left operand is read at `(p, q)` and the right at `(q, h)`. -/

theorem lhs_dense_0 (i : S3000x64.Idx) (q : dot_S3000x64_S64x64_S3000x64_1_0_0_1_n_n.contr.Idx) :
    (dot_S3000x64_S64x64_S3000x64_1_0_0_1_n_n.lhsIdx i q 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
theorem lhs_dense_1 (i : S3000x64.Idx) (q : dot_S3000x64_S64x64_S3000x64_1_0_0_1_n_n.contr.Idx) :
    (dot_S3000x64_S64x64_S3000x64_1_0_0_1_n_n.lhsIdx i q 1).val = (q ⟨0, by decide⟩).val :=
  dot_S3000x64_S64x64_S3000x64_1_0_0_1_n_n.lhsIdx_val_of_single rfl i q
theorem rhs_dense_0 (i : S3000x64.Idx) (q : dot_S3000x64_S64x64_S3000x64_1_0_0_1_n_n.contr.Idx) :
    (dot_S3000x64_S64x64_S3000x64_1_0_0_1_n_n.rhsIdx i q 0).val = (q ⟨0, by decide⟩).val :=
  dot_S3000x64_S64x64_S3000x64_1_0_0_1_n_n.rhsIdx_val_of_single rfl i q
theorem rhs_dense_1 (i : S3000x64.Idx) (q : dot_S3000x64_S64x64_S3000x64_1_0_0_1_n_n.contr.Idx) :
    (dot_S3000x64_S64x64_S3000x64_1_0_0_1_n_n.rhsIdx i q 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- The product into the zero accumulator, read at `(p, h)`: the sum over the 64 columns of row entry times matrix entry. -/
theorem matmul_at (a : FVec Ideal S3000x64 .bf16) (b : FVec Ideal S64x64 .bf16) (p : Fin 3000) (h : Fin 64) :
    matmul dot_S3000x64_S64x64_S3000x64_1_0_0_1_n_n none a b (constant (F := Ideal) S3000x64 .f32 0x00000000#32) (ix2 p h)
      = ∑ c : Fin 64, a (ix2 p c) * b (ix2 c h) := by
  refine (Ideal.matmul_constant_zero_apply dot_S3000x64_S64x64_S3000x64_1_0_0_1_n_n none a b (ix2 p h)).trans ?_
  rw [← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p h) ((contrEquiv1 dot_S3000x64_S64x64_S3000x64_1_0_0_1_n_n 64 rfl rfl).symm k) = ix2 p k := funext fun a => Fin.ext (by
    match a with
    | ⟨0, _⟩ => exact lhs_dense_0 _ _
    | ⟨1, _⟩ => exact (lhs_dense_1 _ _).trans hk)
  have er : dot_S3000x64_S64x64_S3000x64_1_0_0_1_n_n.rhsIdx (ix2 p h) ((contrEquiv1 dot_S3000x64_S64x64_S3000x64_1_0_0_1_n_n 64 rfl rfl).symm k) = ix2 k h := funext fun a => Fin.ext (by
    match a with
    | ⟨0, _⟩ => exact (rhs_dense_0 _ _).trans hk
    | ⟨1, _⟩ => exact rhs_dense_1 _ _)
  rw [el, er]

/-- What the rectifier is applied to, read at `(p, h)`: the change of float format is the identity, the cast to the same
    shape is the identity, the bias's one row is repeated over the 3000 rows. -/
theorem pre_at (x0 : Vec Ideal S3000x64 .f32) (x1 : Vec Ideal S64x64 .f32) (x2 : Vec Ideal S64 .f32) (p : Fin 3000) (h : Fin 64) :
    addf (matmul dot_S3000x64_S64x64_S3000x64_1_0_0_1_n_n none
            (truncf .bf16 (shapeCast S3000x64 x0 shapeCasts_S3000x64_S3000x64 : FVec Ideal S3000x64 .f32) bitsLt_bf16_f32)
            (truncf .bf16 (x1 : FVec Ideal S64x64 .f32) bitsLt_bf16_f32)
            (constant (F := Ideal) S3000x64 .f32 0x00000000#32))
         (broadcastTo S3000x64 (shapeCast S1x64 x2 shapeCasts_S64_S1x64 : FVec Ideal S1x64 .f32) broadcasts_S1x64_S3000x64) (ix2 p h)
      = (∑ c : Fin 64, x0 (ix2 p c) * x1 (ix2 c h)) + x2 (ix1 h) := by
  rw [addf_apply, matmul_at, broadcastTo_1b_ab_apply, shapeCast_a_1a_apply, shapeCast_self]
  rfl

/-- The first layer's dense body. -/
theorem pay0 (x0 : Vec Ideal S3000x64 .f32) (x1 : Vec Ideal S64x64 .f32) (x2 : Vec Ideal S64 .f32) :
    k0_pay1 (F := Ideal) x0 x1 x2 = hid (N := 3000) x0 x1 x2 := by
  funext j
  obtain ⟨p, h, rfl⟩ : ∃ (p : Fin 3000) (h : Fin 64), j = ix2 p h := ⟨j 0, j 1, eq_ix2 j⟩
  unfold k0_pay1 hid leaky
  simp only [select_apply, cmpf_apply, mulf_apply, broadcast_apply]
  rw [pre_at]
  rfl

/-- The second layer's dense body is the same text. -/
theorem pay2 (x0 : Vec Ideal S3000x64 .f32) (x1 : Vec Ideal S64x64 .f32) (x2 : Vec Ideal S64 .f32) :
    k2_pay1 (F := Ideal) x0 x1 x2 = hid (N := 3000) x0 x1 x2 := by
  exact pay0 x0 x1 x2

end Cert.DensePayload

end
-- ==== Proof.DenseRegion.lean ====
/-
  The two dense-and-rectify regions, read as whole arrays on the extended reals. Each runs over four blocks of 3000
  rows; at block `t` the body stores `LayerSpec.hid` of the block's rows, the matrix and the bias
  (`DensePayload`), and `hid` acts row by row, so what block `t` writes back is block `t` of `hid` of the whole
  `[12000, 64]` table. The four blocks tile the table, so after the region the output array IS `hid` of the arrays the
  region found, whatever they are (`V`).
-/
import proofs.«120848_j4509715661236_1_alg».proof.Proof.PatchedKernelIdealFrame
import proofs.«120848_j4509715661236_1_alg».proof.Proof.DensePayload
import proofs.«120848_j4509715661236_1_alg».proof.Proof.LayerSpec
import Idealize.ShloMosaic.Lib.Pipeline.Value
import Idealize.ShloMosaic.Lib.ValueIdx

noncomputable section

namespace Cert.DenseRegion

open Idealize.ShloMosaic Idealize.ShloMosaic.TcCoe Idealize.ShloMosaic.ValueIdx Idealize.SL.Sem
open Cert.LayerSpec Cert.KernelIdeal Cert.KernelIdeal.Gen Cert.KernelIdeal.GenP

variable (V : (c : Dev nD) → (b : Ref sig .tc) → Buf (Elt Ideal) ((c : Thread nD τ).loc b))

/-- The bodies' accesses start at the origin of their blocks. -/
theorem hz2 : (![0, 0] : Fin 2 → Nat) = fun _ => 0 := funext fun a => by fin_cases a <;> rfl
theorem hz1 : (![0] : Fin 1 → Nat) = fun _ => 0 := funext fun a => by fin_cases a; rfl

/-- `hid` acts row by row: a block whose row `p` is row `r` of a table, with the same matrix column and bias entry,
    has at `(p, h)` what `hid` of the table has at `(r, h)`. -/
theorem hid_block (X : T2 12000 64) (Qw : T2 64 64) (Qb : T1 64) (B0 : T2 3000 64) (B1 : T2 64 64) (B2 : T1 64)
    (r : Fin 12000) (p : Fin 3000) (h : Fin 64)
    (h0 : ∀ q : Fin 64, B0 (ix2 p q) = X (ix2 r q)) (h1 : ∀ q : Fin 64, B1 (ix2 q h) = Qw (ix2 q h))
    (h2 : B2 (ix1 h) = Qb (ix1 h)) :
    hid (N := 3000) B0 B1 B2 (ix2 p h) = hid (N := 12000) X Qw Qb (ix2 r h) := by
  show leaky ((∑ q : Fin 64, B0 (ix2 p q) * B1 (ix2 q h)) + B2 (ix1 h))
      = leaky ((∑ q : Fin 64, X (ix2 r q) * Qw (ix2 q h)) + Qb (ix1 h))
  simp only [h0, h1, h2]

/-! ## Region 0: four blocks of 3000 rows -/

/-- The block index maps over the four grid points: the rows' window and the output's sit at block `t` of the rows
    and at block 0 of the columns; the matrix's and the bias's windows are whole. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of block `t` is row `3000 t + p` of the table. -/
def row0 (t : Fin cfg0.N) (p : Fin 3000) : Fin 12000 :=
  ⟨t.val * 3000 + p.val, by
    have ht : t.val < grid0.N := t.isLt
    rw [N_0] at ht
    omega⟩

/-- The rows' block at `t` reads entry `(p, q)` at `(3000 t + p, q)` of the table. -/
theorem emb0_0 (t : Fin cfg0.N) (p : Fin 3000) (q : Fin 64) :
    ((cfg0.win 0).blk t).view.emb (ix2 p q) = ix2 (row0 t p) q := by
  obtain ⟨e0, e1, e2, e3, e4, e5, e6⟩ := idx_facts0 t
  funext a; apply Fin.ext
  match a with
  | ⟨0, _⟩ => show win0_0.index t (0 : Fin 2) * 3000 + 1 * p.val = t.val * 3000 + p.val; omega
  | ⟨1, _⟩ => show win0_0.index t (1 : Fin 2) * 64 + 1 * q.val = q.val; omega

/-- The matrix's block is the whole matrix. -/
theorem emb0_1 (t : Fin cfg0.N) (q : Fin 64) (h : Fin 64) :
    ((cfg0.win 1).blk t).view.emb (ix2 q h) = ix2 q h := by
  obtain ⟨e0, e1, e2, e3, e4, e5, e6⟩ := idx_facts0 t
  funext a; apply Fin.ext
  match a with
  | ⟨0, _⟩ => show win0_1.index t (0 : Fin 2) * 64 + 1 * q.val = q.val; omega
  | ⟨1, _⟩ => show win0_1.index t (1 : Fin 2) * 64 + 1 * h.val = h.val; omega

/-- The bias's block is the whole bias. -/
theorem emb0_2 (t : Fin cfg0.N) (h : Fin 64) :
    ((cfg0.win 2).blk t).view.emb (ix1 h) = ix1 h := by
  obtain ⟨e0, e1, e2, e3, e4, e5, e6⟩ := idx_facts0 t
  funext a; apply Fin.ext
  match a with
  | ⟨0, _⟩ => show win0_2.index t (0 : Fin 1) * 64 + 1 * h.val = h.val; omega

/-- The output's block at `t` holds entry `(p, h)` at `(3000 t + p, h)` of the table. -/
theorem emb0_3 (t : Fin cfg0.N) (p : Fin 3000) (h : Fin 64) :
    ((cfg0.win 3).blk t).view.emb (ix2 p h) = ix2 (row0 t p) h := by
  obtain ⟨e0, e1, e2, e3, e4, e5, e6⟩ := idx_facts0 t
  funext a; apply Fin.ext
  match a with
  | ⟨0, _⟩ => show win0_3.index t (0 : Fin 2) * 3000 + 1 * p.val = t.val * 3000 + p.val; omega
  | ⟨1, _⟩ => show win0_3.index t (1 : Fin 2) * 64 + 1 * h.val = h.val; omega

/-- What point `t` writes back is block `t` of `hid` of the whole table: `hid` acts row by row. -/
theorem flushed0_eq (c : Dev nD) (t : Fin cfg0.N) :
    (dat0 (F := Ideal) V c).flushed 3 t
      = ((cfg0.win 3).blk t).view.read (Elt Ideal) (hid (N := 12000) (V c main_v0) (V c main_arg3) (V c main_arg4)) := by
  show (cfg0.win 3).cut (grid0.coords t) ((dat0 V c).after 3 t) = _
  rw [after0_3]
  unfold out0_3
  rw [View.canon_unit_zero hz2]
  simp only [View.ld_unit_zero (S := S3000x64) hz2, View.ld_unit_zero (S := S64x64) hz2, View.ld_unit_zero (S := S64) hz1]
  rw [DensePayload.pay0]
  funext j
  obtain ⟨p, h, rfl⟩ : ∃ (p : Fin 3000) (h : Fin 64), j = ix2 p h := ⟨j 0, j 1, eq_ix2 j⟩
  show hid (N := 3000) (iblk0 V c 0 t) (iblk0 V c 1 t) (iblk0 V c 2 t) (ix2 p h)
      = hid (N := 12000) (V c main_v0) (V c main_arg3) (V c main_arg4) (((cfg0.win 3).blk t).view.emb (ix2 p h))
  rw [emb0_3]
  exact hid_block (V c main_v0) (V c main_arg3) (V c main_arg4) _ _ _ (row0 t p) p h
    (fun q => congrArg (V c main_v0) (emb0_0 t p q))
    (fun q => congrArg (V c main_arg3) (emb0_1 t q h))
    (congrArg (V c main_arg4) (emb0_2 t h))

/-- An index of the table is in point `t`'s block iff each coordinate is in the block's range on its axis. -/
theorem mem_blk0 (t : Fin cfg0.N) (i : S12000x64.Idx) :
    i ∈ ((cfg0.win 3).blk t).view.set ↔ ∀ a : Fin 2, win0_3.index t a * S3000x64.size a ≤ (i a).val ∧ (i a).val < win0_3.index t a * S3000x64.size a + S3000x64.size a := by
  show i ∈ ((View.whole main_v1).slice (win0_3.rect t)).set ↔ _
  rw [View.set_slice_whole, Rect.mem_set_unit]
  exact Iff.rfl

/-- The four blocks tile the table: row `r` is in block `r / 3000`. -/
theorem cover0 (i : S12000x64.Idx) :
    ∃ t : Fin cfg0.N, (cfg0.win 3).flush t = true ∧ i ∈ ((cfg0.win 3).blk t).view.set := by
  have hi0 : (i 0).val < 12000 := (i 0).isLt
  have hi1 : (i 1).val < 64 := (i 1).isLt
  have hN : grid0.N = 4 := N_0
  have hlt : (i 0).val / 3000 < grid0.N := by rw [hN]; omega
  obtain ⟨e0, e1, e2, e3, e4, e5, e6⟩ := idx_facts0 ⟨(i 0).val / 3000, hlt⟩
  have e5' : win0_3.index ⟨(i 0).val / 3000, hlt⟩ (0 : Fin 2) = (i 0).val / 3000 := e5
  refine ⟨⟨(i 0).val / 3000, hlt⟩, flush0_3 _, ?_⟩
  rw [mem_blk0]
  intro a
  match a with
  | ⟨0, _⟩ =>
    show win0_3.index ⟨(i 0).val / 3000, hlt⟩ (0 : Fin 2) * 3000 ≤ (i 0).val ∧ (i 0).val < win0_3.index ⟨(i 0).val / 3000, hlt⟩ (0 : Fin 2) * 3000 + 3000
    omega
  | ⟨1, _⟩ =>
    show win0_3.index ⟨(i 0).val / 3000, hlt⟩ (1 : Fin 2) * 64 ≤ (i 1).val ∧ (i 1).val < win0_3.index ⟨(i 0).val / 3000, hlt⟩ (1 : Fin 2) * 64 + 64
    omega

/-! ## Region 2: four blocks of 3000 rows -/

/-- The block index maps over the four grid points: the rows' window and the output's sit at block `t` of the rows
    and at block 0 of the columns; the matrix's and the bias's windows are whole. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of block `t` is row `3000 t + p` of the table. -/
def row2 (t : Fin cfg2.N) (p : Fin 3000) : Fin 12000 :=
  ⟨t.val * 3000 + p.val, by
    have ht : t.val < grid2.N := t.isLt
    rw [N_2] at ht
    omega⟩

/-- The rows' block at `t` reads entry `(p, q)` at `(3000 t + p, q)` of the table. -/
theorem emb2_0 (t : Fin cfg2.N) (p : Fin 3000) (q : Fin 64) :
    ((cfg2.win 0).blk t).view.emb (ix2 p q) = ix2 (row2 t p) q := by
  obtain ⟨e0, e1, e2, e3, e4, e5, e6⟩ := idx_facts2 t
  funext a; apply Fin.ext
  match a with
  | ⟨0, _⟩ => show win2_0.index t (0 : Fin 2) * 3000 + 1 * p.val = t.val * 3000 + p.val; omega
  | ⟨1, _⟩ => show win2_0.index t (1 : Fin 2) * 64 + 1 * q.val = q.val; omega

/-- The matrix's block is the whole matrix. -/
theorem emb2_1 (t : Fin cfg2.N) (q : Fin 64) (h : Fin 64) :
    ((cfg2.win 1).blk t).view.emb (ix2 q h) = ix2 q h := by
  obtain ⟨e0, e1, e2, e3, e4, e5, e6⟩ := idx_facts2 t
  funext a; apply Fin.ext
  match a with
  | ⟨0, _⟩ => show win2_1.index t (0 : Fin 2) * 64 + 1 * q.val = q.val; omega
  | ⟨1, _⟩ => show win2_1.index t (1 : Fin 2) * 64 + 1 * h.val = h.val; omega

/-- The bias's block is the whole bias. -/
theorem emb2_2 (t : Fin cfg2.N) (h : Fin 64) :
    ((cfg2.win 2).blk t).view.emb (ix1 h) = ix1 h := by
  obtain ⟨e0, e1, e2, e3, e4, e5, e6⟩ := idx_facts2 t
  funext a; apply Fin.ext
  match a with
  | ⟨0, _⟩ => show win2_2.index t (0 : Fin 1) * 64 + 1 * h.val = h.val; omega

/-- The output's block at `t` holds entry `(p, h)` at `(3000 t + p, h)` of the table. -/
theorem emb2_3 (t : Fin cfg2.N) (p : Fin 3000) (h : Fin 64) :
    ((cfg2.win 3).blk t).view.emb (ix2 p h) = ix2 (row2 t p) h := by
  obtain ⟨e0, e1, e2, e3, e4, e5, e6⟩ := idx_facts2 t
  funext a; apply Fin.ext
  match a with
  | ⟨0, _⟩ => show win2_3.index t (0 : Fin 2) * 3000 + 1 * p.val = t.val * 3000 + p.val; omega
  | ⟨1, _⟩ => show win2_3.index t (1 : Fin 2) * 64 + 1 * h.val = h.val; omega

/-- What point `t` writes back is block `t` of `hid` of the whole table: `hid` acts row by row. -/
theorem flushed2_eq (c : Dev nD) (t : Fin cfg2.N) :
    (dat2 (F := Ideal) V c).flushed 3 t
      = ((cfg2.win 3).blk t).view.read (Elt Ideal) (hid (N := 12000) (V c main_v28) (V c main_arg7) (V c main_arg8)) := by
  show (cfg2.win 3).cut (grid2.coords t) ((dat2 V c).after 3 t) = _
  rw [after2_3]
  unfold out2_3
  rw [View.canon_unit_zero hz2]
  simp only [View.ld_unit_zero (S := S3000x64) hz2, View.ld_unit_zero (S := S64x64) hz2, View.ld_unit_zero (S := S64) hz1]
  rw [DensePayload.pay2]
  funext j
  obtain ⟨p, h, rfl⟩ : ∃ (p : Fin 3000) (h : Fin 64), j = ix2 p h := ⟨j 0, j 1, eq_ix2 j⟩
  show hid (N := 3000) (iblk2 V c 0 t) (iblk2 V c 1 t) (iblk2 V c 2 t) (ix2 p h)
      = hid (N := 12000) (V c main_v28) (V c main_arg7) (V c main_arg8) (((cfg2.win 3).blk t).view.emb (ix2 p h))
  rw [emb2_3]
  exact hid_block (V c main_v28) (V c main_arg7) (V c main_arg8) _ _ _ (row2 t p) p h
    (fun q => congrArg (V c main_v28) (emb2_0 t p q))
    (fun q => congrArg (V c main_arg7) (emb2_1 t q h))
    (congrArg (V c main_arg8) (emb2_2 t h))

/-- An index of the table is in point `t`'s block iff each coordinate is in the block's range on its axis. -/
theorem mem_blk2 (t : Fin cfg2.N) (i : S12000x64.Idx) :
    i ∈ ((cfg2.win 3).blk t).view.set ↔ ∀ a : Fin 2, win2_3.index t a * S3000x64.size a ≤ (i a).val ∧ (i a).val < win2_3.index t a * S3000x64.size a + S3000x64.size a := by
  show i ∈ ((View.whole main_v29).slice (win2_3.rect t)).set ↔ _
  rw [View.set_slice_whole, Rect.mem_set_unit]
  exact Iff.rfl

/-- The four blocks tile the table: row `r` is in block `r / 3000`. -/
theorem cover2 (i : S12000x64.Idx) :
    ∃ t : Fin cfg2.N, (cfg2.win 3).flush t = true ∧ i ∈ ((cfg2.win 3).blk t).view.set := by
  have hi0 : (i 0).val < 12000 := (i 0).isLt
  have hi1 : (i 1).val < 64 := (i 1).isLt
  have hN : grid2.N = 4 := N_2
  have hlt : (i 0).val / 3000 < grid2.N := by rw [hN]; omega
  obtain ⟨e0, e1, e2, e3, e4, e5, e6⟩ := idx_facts2 ⟨(i 0).val / 3000, hlt⟩
  have e5' : win2_3.index ⟨(i 0).val / 3000, hlt⟩ (0 : Fin 2) = (i 0).val / 3000 := e5
  refine ⟨⟨(i 0).val / 3000, hlt⟩, flush2_3 _, ?_⟩
  rw [mem_blk2]
  intro a
  match a with
  | ⟨0, _⟩ =>
    show win2_3.index ⟨(i 0).val / 3000, hlt⟩ (0 : Fin 2) * 3000 ≤ (i 0).val ∧ (i 0).val < win2_3.index ⟨(i 0).val / 3000, hlt⟩ (0 : Fin 2) * 3000 + 3000
    omega
  | ⟨1, _⟩ =>
    show win2_3.index ⟨(i 0).val / 3000, hlt⟩ (1 : Fin 2) * 64 ≤ (i 1).val ∧ (i 1).val < win2_3.index ⟨(i 0).val / 3000, hlt⟩ (1 : Fin 2) * 64 + 64
    omega

/-- Region 0 (the first layer's dense map): its output array after the run. -/
theorem region0 (c : Dev nD) :
    (dat0 (F := Ideal) V c).arrAt 3 cfg0.N = hid (N := 12000) (V c main_v0) (V c main_arg3) (V c main_arg4) := by
  exact (dat0 V c).arrAt_eq_of_cover 3 _ (fun t _ => flushed0_eq V c t) cover0

/-- Region 2 (the second layer's dense map): its output array after the run. -/
theorem region2 (c : Dev nD) :
    (dat2 (F := Ideal) V c).arrAt 3 cfg2.N = hid (N := 12000) (V c main_v28) (V c main_arg7) (V c main_arg8) := by
  exact (dat2 V c).arrAt_eq_of_cover 3 _ (fun t _ => flushed2_eq V c t) cover2

end Cert.DenseRegion

end
-- ==== Proof.AggPayload.lean ====
/-
  What the aggregate kernel body stores, read on the extended reals: of a `[600, 32, 64]` block of gathered rows, the
  `[600, 32]` block of edge weights, the `[600, 64]` block of the nodes' own features, the `[128, 64]` matrix and the
  bias it is `LayerSpec.tail` of them, entry by entry.
-/
import proofs.«120848_j4509715661236_1_alg».proof.Proof.Gen.KernelIdeal.Skeleton
import proofs.«120848_j4509715661236_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.AggPayload

open Idealize.ShloMosaic Idealize.ShloMosaic.ValueIdx Cert.LayerSpec Cert.KernelIdeal Cert.KernelIdeal.Gen

variable {α : Type}

/-- An `[a, b]` array cast to `[a, b, 1]` reads, at `(p, k, u)`, the operand at `(p, k)`. -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_three, Shape.rowMajor_val_two]
    show p.val * b + k.val = (p.val * b + k.val) * 1 + u.val
    rw [hu, Nat.mul_one, Nat.add_zero])

/-- An `[a, b, 1]` array broadcast to `[a, b, c]` reads, at `(p, k, h)`, the operand at `(p, k, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum over the 32 slots of a `[600, 32, 64]` block at `(p, h)`. -/
theorem sum_slots3 (src : FVec Ideal S600x32x64 .f32) (p : Fin 600) (q : Fin 64) :
    multiReduction (F := Ideal) .add [1] S600x64 src 0x00000000#32 reduces_S600x32x64_S600x64 (.inl rfl) rfl (ix2 p q)
      = ∑ k : Fin 32, src (ix3 p k q) := by
  refine (Ideal.multiReduction_add_single src _ reduces_S600x32x64_S600x64 (.inl rfl) rfl (ix2 p q)).trans ?_
  refine Finset.sum_congr rfl fun k _ => congrArg src (funext fun a => ?_)
  match a with
  | ⟨0, _⟩ => rfl
  | ⟨1, _⟩ => rfl
  | ⟨2, _⟩ => rfl

/-- The sum over the 32 slots of a `[600, 32]` block at `p`. -/
theorem sum_slots2 (src : FVec Ideal S600x32 .f32) (p : Fin 600) :
    multiReduction (F := Ideal) .add [1] S600 src 0x00000000#32 reduces_S600x32_S600 (.inl rfl) rfl (ix1 p)
      = ∑ k : Fin 32, src (ix2 p k) := by
  refine (Ideal.multiReduction_add_single src _ reduces_S600x32_S600 (.inl rfl) rfl (ix1 p)).trans ?_
  refine Finset.sum_congr rfl fun k _ => congrArg src (funext fun a => ?_)
  match a with
  | ⟨0, _⟩ => rfl
  | ⟨1, _⟩ => rfl

/-- The sum over the 64 columns of a `[600, 64]` block at `p`. -/
theorem sum_cols (src : FVec Ideal S600x64 .f32) (p : Fin 600) :
    multiReduction (F := Ideal) .add [1] S600 src 0x00000000#32 reduces_S600x64_S600 (.inl rfl) rfl (ix1 p)
      = ∑ k : Fin 64, src (ix2 p k) := by
  refine (Ideal.multiReduction_add_single src _ reduces_S600x64_S600 (.inl rfl) rfl (ix1 p)).trans ?_
  refine Finset.sum_congr rfl fun k _ => congrArg src (funext fun a => ?_)
  match a with
  | ⟨0, _⟩ => rfl
  | ⟨1, _⟩ => rfl

/-- `cat` at explicit coordinates. -/
theorem cat_ix2 (X A : T2 600 64) (p : Fin 600) (d : Fin 128) :
    cat X A (ix2 p d) = if h : d.val < 64 then X (ix2 p ⟨d.val, h⟩) else A (ix2 p ⟨d.val - 64, by have := d.isLt; omega⟩) := rfl

/-- Two `[600, 64]` pieces joined along the columns are `cat` of them. -/
theorem join_eq (X A : FVec Ideal S600x64 .f32) :
    concatenate S600x128 1 [⟨S600x64, X⟩, ⟨S600x64, A⟩] concatenates_S600x64_S600x64_S600x128_d1 = cat (N := 600) X A := by
  funext i
  obtain ⟨p, d, rfl⟩ : ∃ p d, i = ix2 p d := ⟨i 0, i 1, eq_ix2 i⟩
  rw [cat_ix2]
  split
  · next hd =>
    exact concatenate_pair_apply_left (1 : Fin 2) X A concatenates_S600x64_S600x64_S600x128_d1 (ix2 p d) rfl (ix2 p ⟨d.val, hd⟩)
      (fun b => match b with
        | ⟨0, _⟩ => rfl
        | ⟨1, _⟩ => rfl)
  · next hd =>
    exact concatenate_pair_apply_right (1 : Fin 2) X A concatenates_S600x64_S600x64_S600x128_d1 (ix2 p d) rfl rfl
      (ix2 p ⟨d.val - 64, by have := d.isLt; omega⟩)
      (fun b hb => match b, hb with
        | ⟨0, _⟩, _ => rfl
        | ⟨1, _⟩, hb => absurd rfl hb)
      (by show d.val - 64 + 64 = d.val; omega)

/-! The product's operand indices at the output index `i` and the contraction position `q`, one axis at a time: the left
operand is read at `(i 0, q)`, the right one at `(q, i 1)`. -/

theorem lhs_dot_0 (i : S600x64.Idx) (q : dot_S600x128_S128x64_S600x64_1_0_0_1_n_n.contr.Idx) :
    (dot_S600x128_S128x64_S600x64_1_0_0_1_n_n.lhsIdx i q 0).val = (i 0).val := by
  unfold DotDims.lhsIdx
  rw [dif_neg (show ¬(0 : Fin S600x128.rank) ∈ dot_S600x128_S128x64_S600x64_1_0_0_1_n_n.lhsBatch by decide), dif_pos (show (0 : Fin S600x128.rank) ∈ dot_S600x128_S128x64_S600x64_1_0_0_1_n_n.lhsNonContracting by decide)]
  rfl
theorem lhs_dot_1 (i : S600x64.Idx) (q : dot_S600x128_S128x64_S600x64_1_0_0_1_n_n.contr.Idx) :
    (dot_S600x128_S128x64_S600x64_1_0_0_1_n_n.lhsIdx i q 1).val = (q ⟨0, by decide⟩).val :=
  dot_S600x128_S128x64_S600x64_1_0_0_1_n_n.lhsIdx_val_of_single rfl i q
theorem rhs_dot_0 (i : S600x64.Idx) (q : dot_S600x128_S128x64_S600x64_1_0_0_1_n_n.contr.Idx) :
    (dot_S600x128_S128x64_S600x64_1_0_0_1_n_n.rhsIdx i q 0).val = (q ⟨0, by decide⟩).val :=
  dot_S600x128_S128x64_S600x64_1_0_0_1_n_n.rhsIdx_val_of_single rfl i q
theorem rhs_dot_1 (i : S600x64.Idx) (q : dot_S600x128_S128x64_S600x64_1_0_0_1_n_n.contr.Idx) :
    (dot_S600x128_S128x64_S600x64_1_0_0_1_n_n.rhsIdx i q 1).val = (i 1).val := by
  unfold DotDims.rhsIdx
  rw [dif_neg (show ¬(1 : Fin S128x64.rank) ∈ dot_S600x128_S128x64_S600x64_1_0_0_1_n_n.rhsBatch by decide), dif_pos (show (1 : Fin S128x64.rank) ∈ dot_S600x128_S128x64_S600x64_1_0_0_1_n_n.rhsNonContracting by decide)]
  rfl

/-- The `[600, 128] × [128, 64]` product into zeros at `(p, h)`: the sum over the 128 joined columns. -/
theorem dot_apply (L : FVec Ideal S600x128 .bf16) (R : FVec Ideal S128x64 .bf16) (p : Fin 600) (h : Fin 64) :
    matmul (F := Ideal) dot_S600x128_S128x64_S600x64_1_0_0_1_n_n none L R (constant (F := Ideal) S600x64 .f32 0x00000000#32) (ix2 p h)
      = ∑ k : Fin 128, L (ix2 p k) * R (ix2 k h) := by
  refine (Ideal.matmul_constant_zero_apply dot_S600x128_S128x64_S600x64_1_0_0_1_n_n none L R (ix2 p h)).trans ?_
  rw [← Equiv.sum_comp (contrEquiv1 dot_S600x128_S128x64_S600x64_1_0_0_1_n_n 128 rfl rfl).symm]
  refine Finset.sum_congr rfl fun k _ => ?_
  have hk := contrEquiv1_symm_val dot_S600x128_S128x64_S600x64_1_0_0_1_n_n 128 rfl rfl k
  have el : dot_S600x128_S128x64_S600x64_1_0_0_1_n_n.lhsIdx (ix2 p h) ((contrEquiv1 dot_S600x128_S128x64_S600x64_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : dot_S600x128_S128x64_S600x64_1_0_0_1_n_n.rhsIdx (ix2 p h) ((contrEquiv1 dot_S600x128_S128x64_S600x64_1_0_0_1_n_n 128 rfl rfl).symm k) = ix2 k h :=
    funext fun a => Fin.ext (by
      match a with
      | ⟨0, _⟩ => exact (rhs_dot_0 _ _).trans hk
      | ⟨1, _⟩ => exact rhs_dot_1 _ _)
  rw [el, er]

/-! ## The body in four stages -/

/-- The body's weighted neighbour average: the products' sum over the slots, over the weights' sum plus the constant. -/
def aggK (x0 : Vec Ideal S600x32x64 .f32) (x1 : Vec Ideal S600x32 .f32) : FVec Ideal S600x64 .f32 :=
  divf
    (multiReduction (F := Ideal) .add [1] S600x64
      (mulf (shapeCast S600x32x64 x0 shapeCasts_S600x32x64_S600x32x64)
        (broadcastTo S600x32x64
          (shapeCast S600x32x1 (shapeCast S600x32 x1 shapeCasts_S600x32_S600x32) shapeCasts_S600x32_S600x32x1)
          broadcasts_S600x32x1_S600x32x64))
      0x00000000#32 reduces_S600x32x64_S600x64 (.inl rfl) rfl)
    (broadcastTo S600x64
      (addf
        (shapeCast S600x1
          (multiReduction (F := Ideal) .add [1] S600 (shapeCast S600x32 x1 shapeCasts_S600x32_S600x32) 0x00000000#32
            reduces_S600x32_S600 (.inl rfl) rfl)
          shapeCasts_S600_S600x1)
        (broadcast S600x1 (Scalar.ofBits (F := Ideal) .f32 0x358637BD#32)))
      broadcasts_S600x1_S600x64)

/-- The body's join of a node's own features with the average. -/
def joinK (x2 : Vec Ideal S600x64 .f32) (A : FVec Ideal S600x64 .f32) : FVec Ideal S600x128 .f32 :=
  concatenate S600x128 1 [⟨S600x64, shapeCast S600x64 x2 shapeCasts_S600x64_S600x64⟩, ⟨S600x64, A⟩]
    concatenates_S600x64_S600x64_S600x128_d1

/-- The body's second dense map before the rectifier. -/
def preK (C : FVec Ideal S600x128 .f32) (x3 : Vec Ideal S128x64 .f32) (x4 : Vec Ideal S64 .f32) : FVec Ideal S600x64 .f32 :=
  addf
    (matmul (F := Ideal) dot_S600x128_S128x64_S600x64_1_0_0_1_n_n none (truncf .bf16 C bitsLt_bf16_f32)
      (truncf .bf16 x3 bitsLt_bf16_f32) (constant (F := Ideal) S600x64 .f32 0x00000000#32))
    (broadcastTo S600x64 (shapeCast S1x64 x4 shapeCasts_S64_S1x64) broadcasts_S1x64_S600x64)

/-- The body's rectifier. -/
def actK (y : FVec Ideal S600x64 .f32) : FVec Ideal S600x64 .f32 :=
  select (cmpf .oge y (broadcast S600x64 (Scalar.ofBits (F := Ideal) .f32 0x00000000#32))) y
    (mulf (broadcast S600x64 (Scalar.ofBits (F := Ideal) .f32 0x3E99999A#32)) y)

/-- The body's row normalisation. -/
def normK (Y : FVec Ideal S600x64 .f32) : FVec Ideal S600x64 .f32 :=
  divf Y
    (broadcastTo S600x64
      (addf
        (sqrt
          (shapeCast S600x1
            (multiReduction (F := Ideal) .add [1] S600 (mulf Y Y) 0x00000000#32 reduces_S600x64_S600 (.inl rfl) rfl)
            shapeCasts_S600_S600x1))
        (broadcast S600x1 (Scalar.ofBits (F := Ideal) .f32 0x358637BD#32)))
      broadcasts_S600x1_S600x64)

/-- The specification's pieces at explicit coordinates. -/
theorem aggG_ix2 (NB : T3 600 32 64) (NW : T2 600 32) (p : Fin 600) (h : Fin 64) :
    aggG NB NW (ix2 p h)
      = Ideal.div (∑ k : Fin 32, NB (ix3 p k h) * NW (ix2 p k)) ((∑ k : Fin 32, NW (ix2 p k)) + eps) := rfl

theorem dense2_ix2 (C : T2 600 128) (Ww : T2 128 64) (Wb : T1 64) (p : Fin 600) (h : Fin 64) :
    dense2 C Ww Wb (ix2 p h) = leaky ((∑ d : Fin 128, C (ix2 p d) * Ww (ix2 d h)) + Wb (ix1 h)) := rfl

theorem normalize_ix2 (Y : T2 600 64) (p : Fin 600) (h : Fin 64) :
    normalize Y (ix2 p h) = Ideal.div (Y (ix2 p h)) (Ideal.sqrt (∑ q : Fin 64, Y (ix2 p q) * Y (ix2 p q)) + eps) := rfl

theorem aggK_eq (x0 : Vec Ideal S600x32x64 .f32) (x1 : Vec Ideal S600x32 .f32) : aggK x0 x1 = aggG (N := 600) x0 x1 := by
  funext i
  obtain ⟨p, h, rfl⟩ : ∃ p h, i = ix2 p h := ⟨i 0, i 1, eq_ix2 i⟩
  rw [aggG_ix2]
  unfold aggK
  rw [divf_apply, sum_slots3, broadcastTo_a1_ab_apply, addf_apply, shapeCast_a_a1_apply, sum_slots2, broadcast_apply]
  simp only [mulf_apply, shapeCast_self, broadcastTo_ab1_abc_apply, shapeCast_ab_ab1_apply]
  rfl

theorem joinK_eq (x2 : Vec Ideal S600x64 .f32) (A : FVec Ideal S600x64 .f32) : joinK x2 A = cat (N := 600) x2 A := by
  unfold joinK
  rw [shapeCast_self]
  exact join_eq x2 A

theorem denseK_eq (C : FVec Ideal S600x128 .f32) (x3 : Vec Ideal S128x64 .f32) (x4 : Vec Ideal S64 .f32) :
    actK (preK C x3 x4) = dense2 (N := 600) C x3 x4 := by
  funext i
  obtain ⟨p, h, rfl⟩ : ∃ p h, i = ix2 p h := ⟨i 0, i 1, eq_ix2 i⟩
  rw [dense2_ix2]
  have e : preK C x3 x4 (ix2 p h) = (∑ d : Fin 128, C (ix2 p d) * x3 (ix2 d h)) + x4 (ix1 h) := by
    unfold preK
    rw [addf_apply, dot_apply, broadcastTo_1b_ab_apply, shapeCast_a_1a_apply]
    rfl
  unfold actK
  rw [select_apply, cmpf_apply, mulf_apply, broadcast_apply, broadcast_apply, e]
  rfl

theorem normK_eq (Y : FVec Ideal S600x64 .f32) : normK Y = normalize (N := 600) Y := by
  funext i
  obtain ⟨p, h, rfl⟩ : ∃ p h, i = ix2 p h := ⟨i 0, i 1, eq_ix2 i⟩
  rw [normalize_ix2]
  unfold normK
  rw [divf_apply, broadcastTo_a1_ab_apply, addf_apply, broadcast_apply]
  show Ideal.div (Y (ix2 p h)) (Ideal.sqrt (shapeCast S600x1 _ shapeCasts_S600_S600x1 (ix2 p (0 : Fin 1))) + _) = _
  rw [shapeCast_a_a1_apply, sum_cols]
  rfl

/-- The first layer's aggregate body. -/
theorem pay1 (x0 : Vec Ideal S600x32x64 .f32) (x1 : Vec Ideal S600x32 .f32) (x2 : Vec Ideal S600x64 .f32)
    (x3 : Vec Ideal S128x64 .f32) (x4 : Vec Ideal S64 .f32) :
    k1_pay1 (F := Ideal) x0 x1 x2 x3 x4 = tail (N := 600) x0 x1 x2 x3 x4 := by
  have e : k1_pay1 (F := Ideal) x0 x1 x2 x3 x4 = normK (actK (preK (joinK x2 (aggK x0 x1)) x3 x4)) := rfl
  rw [e, aggK_eq, joinK_eq, denseK_eq, normK_eq]
  rfl

/-- The second layer's aggregate body is the same text. -/
theorem pay3 (x0 : Vec Ideal S600x32x64 .f32) (x1 : Vec Ideal S600x32 .f32) (x2 : Vec Ideal S600x64 .f32)
    (x3 : Vec Ideal S128x64 .f32) (x4 : Vec Ideal S64 .f32) :
    k3_pay1 (F := Ideal) x0 x1 x2 x3 x4 = tail (N := 600) x0 x1 x2 x3 x4 := by
  have e : k3_pay1 (F := Ideal) x0 x1 x2 x3 x4 = normK (actK (preK (joinK x2 (aggK x0 x1)) x3 x4)) := rfl
  rw [e, aggK_eq, joinK_eq, denseK_eq, normK_eq]
  rfl

end Cert.AggPayload

end
-- ==== Proof.AggRegion.lean ====
/-
  The two aggregate regions, read as whole arrays on the extended reals. Each runs over twenty blocks of 600 nodes; at
  block `t` the body stores `LayerSpec.tail` of the block's gathered rows, edge weights and own features, the matrix
  and the bias (`AggPayload`), and `tail` acts node by node, so what block `t` writes back is block `t` of `tail` of
  the whole arrays. The twenty blocks tile the `[12000, 64]` output, so after the region it IS `tail` of the arrays
  the region found, whatever they are (`V`).
-/
import proofs.«120848_j4509715661236_1_alg».proof.Proof.PatchedKernelIdealFrame
import proofs.«120848_j4509715661236_1_alg».proof.Proof.AggPayload
import proofs.«120848_j4509715661236_1_alg».proof.Proof.LayerSpec
import Idealize.ShloMosaic.Lib.Pipeline.Value
import Idealize.ShloMosaic.Lib.ValueIdx

noncomputable section

namespace Cert.AggRegion

open Idealize.ShloMosaic Idealize.ShloMosaic.TcCoe Idealize.ShloMosaic.ValueIdx Idealize.SL.Sem
open Cert.LayerSpec Cert.KernelIdeal Cert.KernelIdeal.Gen Cert.KernelIdeal.GenP

variable (V : (c : Dev nD) → (b : Ref sig .tc) → Buf (Elt Ideal) ((c : Thread nD τ).loc b))

/-! ## `tail` acts row by row

If the rows of a second family of arrays are rows `r p` of the first (gathered rows, weights, own features), every
stage of `tail` — the weighted average, the join, the second dense map, the normalisation — reads at row `p` of the
second family what it reads at row `r p` of the first: the sums run over slots and columns only. -/

section Rows

variable {M N : Nat} (r : Fin M → Fin N)

theorem aggG_rows (NB : T3 N 32 64) (NW : T2 N 32) (NB' : T3 M 32 64) (NW' : T2 M 32)
    (hB : ∀ p k h, NB' (ix3 p k h) = NB (ix3 (r p) k h)) (hW : ∀ p k, NW' (ix2 p k) = NW (ix2 (r p) k))
    (p : Fin M) (h : Fin 64) : aggG NB' NW' (ix2 p h) = aggG NB NW (ix2 (r p) h) := by
  show Ideal.div (∑ k : Fin 32, NB' (ix3 p k h) * NW' (ix2 p k)) ((∑ k : Fin 32, NW' (ix2 p k)) + eps)
    = Ideal.div (∑ k : Fin 32, NB (ix3 (r p) k h) * NW (ix2 (r p) k)) ((∑ k : Fin 32, NW (ix2 (r p) k)) + eps)
  simp only [hB, hW]

theorem cat_rows (X A : T2 N 64) (X' A' : T2 M 64)
    (hX : ∀ p h, X' (ix2 p h) = X (ix2 (r p) h)) (hA : ∀ p h, A' (ix2 p h) = A (ix2 (r p) h))
    (p : Fin M) (d : Fin 128) : cat X' A' (ix2 p d) = cat X A (ix2 (r p) d) := by
  show (if h : d.val < 64 then X' (ix2 p ⟨d.val, h⟩) else A' (ix2 p ⟨d.val - 64, _⟩))
    = (if h : d.val < 64 then X (ix2 (r p) ⟨d.val, h⟩) else A (ix2 (r p) ⟨d.val - 64, _⟩))
  by_cases h : d.val < 64
  · rw [dif_pos h, dif_pos h]; exact hX _ _
  · rw [dif_neg h, dif_neg h]; exact hA _ _

theorem dense2_rows (C : T2 N 128) (C' : T2 M 128) (Ww : T2 128 64) (Wb : T1 64)
    (hC : ∀ p d, C' (ix2 p d) = C (ix2 (r p) d))
    (p : Fin M) (h : Fin 64) : dense2 C' Ww Wb (ix2 p h) = dense2 C Ww Wb (ix2 (r p) h) := by
  show leaky ((∑ d : Fin 128, C' (ix2 p d) * Ww (ix2 d h)) + Wb (ix1 h))
    = leaky ((∑ d : Fin 128, C (ix2 (r p) d) * Ww (ix2 d h)) + Wb (ix1 h))
  simp only [hC]

theorem normalize_rows (Y : T2 N 64) (Y' : T2 M 64)
    (hY : ∀ p h, Y' (ix2 p h) = Y (ix2 (r p) h))
    (p : Fin M) (h : Fin 64) : normalize Y' (ix2 p h) = normalize Y (ix2 (r p) h) := by
  show Ideal.div (Y' (ix2 p h)) (Ideal.sqrt (∑ h' : Fin 64, Y' (ix2 p h') * Y' (ix2 p h')) + eps)
    = Ideal.div (Y (ix2 (r p) h)) (Ideal.sqrt (∑ h' : Fin 64, Y (ix2 (r p) h') * Y (ix2 (r p) h')) + eps)
  simp only [hY]

/-- `tail` of the rows `r p` of the arrays is the rows `r p` of `tail` of the arrays. -/
theorem tail_rows (NB : T3 N 32 64) (NW : T2 N 32) (X : T2 N 64) (NB' : T3 M 32 64) (NW' : T2 M 32) (X' : T2 M 64)
    (Ww : T2 128 64) (Wb : T1 64)
    (hB : ∀ p k h, NB' (ix3 p k h) = NB (ix3 (r p) k h)) (hW : ∀ p k, NW' (ix2 p k) = NW (ix2 (r p) k))
    (hX : ∀ p h, X' (ix2 p h) = X (ix2 (r p) h)) (p : Fin M) (h : Fin 64) :
    tail NB' NW' X' Ww Wb (ix2 p h) = tail NB NW X Ww Wb (ix2 (r p) h) :=
  normalize_rows r _ _ (dense2_rows r _ _ Ww Wb (cat_rows r _ _ _ _ hX (aggG_rows r _ _ _ _ hB hW))) p h

end Rows

/-- Block `t` of 600 rows: if the three node-indexed arrays of a block are rows `600·t + p` of the whole arrays, entry
    `j` of `tail` of the block is entry `i` of `tail` of the whole arrays, where `i` is `j` moved `600·t` rows down. -/
theorem tail_block (t : Nat) (ht : t < 20) (NB : T3 12000 32 64) (NW : T2 12000 32) (X : T2 12000 64)
    (NB' : T3 600 32 64) (NW' : T2 600 32) (X' : T2 600 64) (Ww : T2 128 64) (Wb : T1 64)
    (hB : ∀ (p : Fin 600) k h, NB' (ix3 p k h) = NB (ix3 (⟨600 * t + p.val, by omega⟩ : Fin 12000) k h))
    (hW : ∀ (p : Fin 600) k, NW' (ix2 p k) = NW (ix2 (⟨600 * t + p.val, by omega⟩ : Fin 12000) k))
    (hX : ∀ (p : Fin 600) h, X' (ix2 p h) = X (ix2 (⟨600 * t + p.val, by omega⟩ : Fin 12000) h))
    (j : (⟨2, ![600, 64]⟩ : Shape).Idx) (i : (⟨2, ![12000, 64]⟩ : Shape).Idx)
    (hi0 : (i 0).val = 600 * t + (j 0).val) (hi1 : (i 1).val = (j 1).val) :
    tail NB' NW' X' Ww Wb j = tail NB NW X Ww Wb i := by
  rw [eq_ix2 j, eq_ix2 i]
  have e0 : i 0 = (⟨600 * t + (j 0).val, by have := idx2_lt0 j; omega⟩ : Fin 12000) := Fin.ext hi0
  have e1 : i 1 = j 1 := Fin.ext hi1
  rw [e0, e1]
  exact tail_rows (fun p : Fin 600 => (⟨600 * t + p.val, by omega⟩ : Fin 12000)) NB NW X NB' NW' X' Ww Wb hB hW hX (j 0) (j 1)

/-! ## Region 1 -/

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The block indices of region 1's six windows at point `t`: the three node-indexed inputs and the output are at block
    `t` of their first axis, the matrix and the bias at block 0. -/
theorem index1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The matrix window's block at any point is the whole matrix, -/
theorem iblk1_3 (c : Dev nD) (t : Fin cfg1.N) : iblk1 (F := Ideal) V c 3 t = V c main_arg5 := by
  obtain ⟨-, -, -, -, -, -, -, a30, a31, -, -, -⟩ := index1 t
  funext y
  show V c main_arg5 (((cfg1.win 3).blk t).view.emb y) = V c main_arg5 y
  refine congrArg (V c main_arg5) (funext fun a => Fin.ext ?_)
  match a with
  | ⟨0, _⟩ => show win1_3.index t (0 : Fin 2) * 128 + 1 * (y 0).val = (y 0).val; omega
  | ⟨1, _⟩ => show win1_3.index t (1 : Fin 2) * 64 + 1 * (y 1).val = (y 1).val; omega

/-- and the bias window's the whole bias. -/
theorem iblk1_4 (c : Dev nD) (t : Fin cfg1.N) : iblk1 (F := Ideal) V c 4 t = V c main_arg6 := by
  obtain ⟨-, -, -, -, -, -, -, -, -, a40, -, -⟩ := index1 t
  funext y
  show V c main_arg6 (((cfg1.win 4).blk t).view.emb y) = V c main_arg6 y
  refine congrArg (V c main_arg6) (funext fun a => Fin.ext ?_)
  match a with
  | ⟨0, _⟩ => show win1_4.index t (0 : Fin 1) * 64 + 1 * (y 0).val = (y 0).val; omega

/-- WHAT POINT `t` WRITES BACK is block `t` of `tail` of the arrays as the region finds them. -/
theorem flushed1_eq (c : Dev nD) (t : Fin cfg1.N) :
    (dat1 (F := Ideal) V c).flushed 5 t = ((cfg1.win 5).blk t).view.read (Elt Ideal)
      (tail (N := 12000) (V c main_v8) (V c main_v25) (V c main_v0) (V c main_arg5) (V c main_arg6)) := by
  show (cfg1.win 5).cut (grid1.coords t) ((dat1 (F := Ideal) V c).after 5 t) = _
  rw [after1_5]
  unfold out1_5
  rw [View.canon_unit_zero zeros2]
  simp only [View.ld_unit_zero (S := S600x32x64) zeros3, View.ld_unit_zero (S := S600x32) zeros2,
    View.ld_unit_zero (S := S600x64) zeros2, View.ld_unit_zero (S := S128x64) zeros2, View.ld_unit_zero (S := S64) zeros1]
  rw [AggPayload.pay1, iblk1_3, iblk1_4]
  funext j
  have ht : t.val < 20 := t.isLt
  obtain ⟨a00, a01, a02, a10, a11, a20, a21, -, -, -, a50, a51⟩ := index1 t
  show tail (N := 600) _ _ _ _ _ _ = tail (N := 12000) _ _ _ _ _ _
  refine tail_block t.val ht _ _ _ _ _ _ _ _ ?_ ?_ ?_ _ _ ?_ ?_
  · intro p k h
    show V c main_v8 (((cfg1.win 0).blk t).view.emb (ix3 p k h)) = _
    refine congrArg (V c main_v8) (funext fun a => Fin.ext ?_)
    match a with
    | ⟨0, _⟩ => show win1_0.index t (0 : Fin 3) * 600 + 1 * p.val = 600 * t.val + p.val; omega
    | ⟨1, _⟩ => show win1_0.index t (1 : Fin 3) * 32 + 1 * k.val = k.val; omega
    | ⟨2, _⟩ => show win1_0.index t (2 : Fin 3) * 64 + 1 * h.val = h.val; omega
  · intro p k
    show V c main_v25 (((cfg1.win 1).blk t).view.emb (ix2 p k)) = _
    refine congrArg (V c main_v25) (funext fun a => Fin.ext ?_)
    match a with
    | ⟨0, _⟩ => show win1_1.index t (0 : Fin 2) * 600 + 1 * p.val = 600 * t.val + p.val; omega
    | ⟨1, _⟩ => show win1_1.index t (1 : Fin 2) * 32 + 1 * k.val = k.val; omega
  · intro p h
    show V c main_v0 (((cfg1.win 2).blk t).view.emb (ix2 p h)) = _
    refine congrArg (V c main_v0) (funext fun a => Fin.ext ?_)
    match a with
    | ⟨0, _⟩ => show win1_2.index t (0 : Fin 2) * 600 + 1 * p.val = 600 * t.val + p.val; omega
    | ⟨1, _⟩ => show win1_2.index t (1 : Fin 2) * 64 + 1 * h.val = h.val; omega
  · show win1_5.index t (0 : Fin 2) * 600 + 1 * (j 0).val = 600 * t.val + (j 0).val; omega
  · show win1_5.index t (1 : Fin 2) * 64 + 1 * (j 1).val = (j 1).val; omega

/-- An index of the output array is in point `t`'s block iff each coordinate is in the block's range on its axis. -/
theorem mem_blk1 (t : Fin cfg1.N) (i : S12000x64.Idx) :
    i ∈ ((cfg1.win 5).blk t).view.set ↔ ∀ a : Fin 2, win1_5.index t a * S600x64.size a ≤ (i a).val
      ∧ (i a).val < win1_5.index t a * S600x64.size a + S600x64.size a := by
  show i ∈ ((View.whole main_v26).slice (win1_5.rect t)).set ↔ _
  rw [View.set_slice_whole, Rect.mem_set_unit]
  exact Iff.rfl

/-- The twenty blocks tile the output: node `r` is in block `r / 600`. -/
theorem cover1 (i : S12000x64.Idx) :
    ∃ t : Fin cfg1.N, (cfg1.win 5).flush t = true ∧ i ∈ ((cfg1.win 5).blk t).view.set := by
  have hi0 : (i 0).val < 12000 := (i 0).isLt
  have hi1 : (i 1).val < 64 := (i 1).isLt
  obtain ⟨t, htv⟩ : ∃ t : Fin cfg1.N, t.val = (i 0).val / 600 :=
    ⟨⟨(i 0).val / 600, by rw [show cfg1.N = 20 from N_1]; omega⟩, rfl⟩
  obtain ⟨-, -, -, -, -, -, -, -, -, -, a50, a51⟩ := index1 t
  refine ⟨t, flush1_5 t, ?_⟩
  rw [mem_blk1]
  intro a
  match a with
  | ⟨0, _⟩ =>
    show win1_5.index t (0 : Fin 2) * 600 ≤ (i 0).val ∧ (i 0).val < win1_5.index t (0 : Fin 2) * 600 + 600
    omega
  | ⟨1, _⟩ =>
    show win1_5.index t (1 : Fin 2) * 64 ≤ (i 1).val ∧ (i 1).val < win1_5.index t (1 : Fin 2) * 64 + 64
    omega

/-- Region 1 (the first layer's aggregation): its output array after the run. -/
theorem region1 (c : Dev nD) :
    (dat1 (F := Ideal) V c).arrAt 5 cfg1.N
      = tail (N := 12000) (V c main_v8) (V c main_v25) (V c main_v0) (V c main_arg5) (V c main_arg6) :=
  (dat1 (F := Ideal) V c).arrAt_eq_of_cover 5 _ (fun t _ => flushed1_eq V c t) cover1

/-! ## Region 3: the same kernel over the second layer's arrays -/

/-- The block indices of region 3's six windows at point `t`: as in region 1. -/
theorem index3 : ∀ t : Fin cfg3.N,
    win3_0.index t (0 : Fin 3) = t.val ∧ win3_0.index t (1 : Fin 3) = 0 ∧ win3_0.index t (2 : Fin 3) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- The matrix window's block at any point is the whole matrix, -/
theorem iblk3_3 (c : Dev nD) (t : Fin cfg3.N) : iblk3 (F := Ideal) V c 3 t = V c main_arg9 := by
  obtain ⟨-, -, -, -, -, -, -, a30, a31, -, -, -⟩ := index3 t
  funext y
  show V c main_arg9 (((cfg3.win 3).blk t).view.emb y) = V c main_arg9 y
  refine congrArg (V c main_arg9) (funext fun a => Fin.ext ?_)
  match a with
  | ⟨0, _⟩ => show win3_3.index t (0 : Fin 2) * 128 + 1 * (y 0).val = (y 0).val; omega
  | ⟨1, _⟩ => show win3_3.index t (1 : Fin 2) * 64 + 1 * (y 1).val = (y 1).val; omega

/-- and the bias window's the whole bias. -/
theorem iblk3_4 (c : Dev nD) (t : Fin cfg3.N) : iblk3 (F := Ideal) V c 4 t = V c main_arg10 := by
  obtain ⟨-, -, -, -, -, -, -, -, -, a40, -, -⟩ := index3 t
  funext y
  show V c main_arg10 (((cfg3.win 4).blk t).view.emb y) = V c main_arg10 y
  refine congrArg (V c main_arg10) (funext fun a => Fin.ext ?_)
  match a with
  | ⟨0, _⟩ => show win3_4.index t (0 : Fin 1) * 64 + 1 * (y 0).val = (y 0).val; omega

/-- WHAT POINT `t` WRITES BACK is block `t` of `tail` of the arrays as the region finds them. -/
theorem flushed3_eq (c : Dev nD) (t : Fin cfg3.N) :
    (dat3 (F := Ideal) V c).flushed 5 t = ((cfg3.win 5).blk t).view.read (Elt Ideal)
      (tail (N := 12000) (V c main_v36) (V c main_v53) (V c main_v28) (V c main_arg9) (V c main_arg10)) := by
  show (cfg3.win 5).cut (grid3.coords t) ((dat3 (F := Ideal) V c).after 5 t) = _
  rw [after3_5]
  unfold out3_5
  rw [View.canon_unit_zero zeros2]
  simp only [View.ld_unit_zero (S := S600x32x64) zeros3, View.ld_unit_zero (S := S600x32) zeros2,
    View.ld_unit_zero (S := S600x64) zeros2, View.ld_unit_zero (S := S128x64) zeros2, View.ld_unit_zero (S := S64) zeros1]
  rw [AggPayload.pay3, iblk3_3, iblk3_4]
  funext j
  have ht : t.val < 20 := t.isLt
  obtain ⟨a00, a01, a02, a10, a11, a20, a21, -, -, -, a50, a51⟩ := index3 t
  show tail (N := 600) _ _ _ _ _ _ = tail (N := 12000) _ _ _ _ _ _
  refine tail_block t.val ht _ _ _ _ _ _ _ _ ?_ ?_ ?_ _ _ ?_ ?_
  · intro p k h
    show V c main_v36 (((cfg3.win 0).blk t).view.emb (ix3 p k h)) = _
    refine congrArg (V c main_v36) (funext fun a => Fin.ext ?_)
    match a with
    | ⟨0, _⟩ => show win3_0.index t (0 : Fin 3) * 600 + 1 * p.val = 600 * t.val + p.val; omega
    | ⟨1, _⟩ => show win3_0.index t (1 : Fin 3) * 32 + 1 * k.val = k.val; omega
    | ⟨2, _⟩ => show win3_0.index t (2 : Fin 3) * 64 + 1 * h.val = h.val; omega
  · intro p k
    show V c main_v53 (((cfg3.win 1).blk t).view.emb (ix2 p k)) = _
    refine congrArg (V c main_v53) (funext fun a => Fin.ext ?_)
    match a with
    | ⟨0, _⟩ => show win3_1.index t (0 : Fin 2) * 600 + 1 * p.val = 600 * t.val + p.val; omega
    | ⟨1, _⟩ => show win3_1.index t (1 : Fin 2) * 32 + 1 * k.val = k.val; omega
  · intro p h
    show V c main_v28 (((cfg3.win 2).blk t).view.emb (ix2 p h)) = _
    refine congrArg (V c main_v28) (funext fun a => Fin.ext ?_)
    match a with
    | ⟨0, _⟩ => show win3_2.index t (0 : Fin 2) * 600 + 1 * p.val = 600 * t.val + p.val; omega
    | ⟨1, _⟩ => show win3_2.index t (1 : Fin 2) * 64 + 1 * h.val = h.val; omega
  · show win3_5.index t (0 : Fin 2) * 600 + 1 * (j 0).val = 600 * t.val + (j 0).val; omega
  · show win3_5.index t (1 : Fin 2) * 64 + 1 * (j 1).val = (j 1).val; omega

/-- An index of the output array is in point `t`'s block iff each coordinate is in the block's range on its axis. -/
theorem mem_blk3 (t : Fin cfg3.N) (i : S12000x64.Idx) :
    i ∈ ((cfg3.win 5).blk t).view.set ↔ ∀ a : Fin 2, win3_5.index t a * S600x64.size a ≤ (i a).val
      ∧ (i a).val < win3_5.index t a * S600x64.size a + S600x64.size a := by
  show i ∈ ((View.whole main_v54).slice (win3_5.rect t)).set ↔ _
  rw [View.set_slice_whole, Rect.mem_set_unit]
  exact Iff.rfl

/-- The twenty blocks tile the output: node `r` is in block `r / 600`. -/
theorem cover3 (i : S12000x64.Idx) :
    ∃ t : Fin cfg3.N, (cfg3.win 5).flush t = true ∧ i ∈ ((cfg3.win 5).blk t).view.set := by
  have hi0 : (i 0).val < 12000 := (i 0).isLt
  have hi1 : (i 1).val < 64 := (i 1).isLt
  obtain ⟨t, htv⟩ : ∃ t : Fin cfg3.N, t.val = (i 0).val / 600 :=
    ⟨⟨(i 0).val / 600, by rw [show cfg3.N = 20 from N_3]; omega⟩, rfl⟩
  obtain ⟨-, -, -, -, -, -, -, -, -, -, a50, a51⟩ := index3 t
  refine ⟨t, flush3_5 t, ?_⟩
  rw [mem_blk3]
  intro a
  match a with
  | ⟨0, _⟩ =>
    show win3_5.index t (0 : Fin 2) * 600 ≤ (i 0).val ∧ (i 0).val < win3_5.index t (0 : Fin 2) * 600 + 600
    omega
  | ⟨1, _⟩ =>
    show win3_5.index t (1 : Fin 2) * 64 ≤ (i 1).val ∧ (i 1).val < win3_5.index t (1 : Fin 2) * 64 + 64
    omega

/-- Region 3 (the second layer's aggregation): its output array after the run. -/
theorem region3 (c : Dev nD) :
    (dat3 (F := Ideal) V c).arrAt 5 cfg3.N
      = tail (N := 12000) (V c main_v36) (V c main_v53) (V c main_v28) (V c main_arg9) (V c main_arg10) :=
  (dat3 (F := Ideal) V c).arrAt_eq_of_cover 5 _ (fun t _ => flushed3_eq V c t) cover3

end Cert.AggRegion

end
-- ==== Proof.GatherRows.lean ====
/-
  The two row gathers read at an index. The idealized kernel gathers rows of a `[12000, 64]` table, the idealized
  reference rows of a `[1, 12000, 64]` one, both at start indices `[12000, 32, 1]`: entry `(n, k, ·)` of either
  result is the table's row whose number is the start index at `(n, k, 0)` read signed and clamped into the table
  (`LayerSpec.rowOf`), the last coordinate carried along.
-/
import proofs.«120848_j4509715661236_1_alg».proof.Proof.Gen.KernelIdeal
import proofs.«120848_j4509715661236_1_alg».proof.Proof.Gen.ReferenceIdeal
import proofs.«120848_j4509715661236_1_alg».proof.Proof.LayerSpec
import Idealize.ShloMosaic.Lib.ValueIdx

noncomputable section

namespace Cert.GatherRows

open Idealize.ShloMosaic Idealize.ShloMosaic.ValueIdx Cert.LayerSpec

/-- The kernel's gather dimension numbers: operand `[12000, 64]`, axis 0 collapsed and indexed, axis 1 the offset
    axis the result's axis 2 reads. -/
local notation "dK" => Cert.KernelIdeal.gather_S12000x64_S12000x32x1_S12000x32x64_2_0_n_n_0_2_164

/-- The reference's gather dimension numbers: operand `[1, 12000, 64]`, axis 1 collapsed and indexed, axes 0 and 2
    the offset axes the result's axes 0 and 3 read. -/
local notation "dR" => Cert.ReferenceIdeal.gather_S1x12000x64_S12000x32x1_S1x12000x32x64_03_1_n_n_1_2_1164

/-- The kernel's gather of table rows: entry `(n, k, h)` is the table at `(rowOf I n k, h)`. -/
theorem kernel_rows {α : Type} (x : (⟨2, ![12000, 64]⟩ : Shape).Idx → α) (I : IVec ⟨3, ![12000, 32, 1]⟩ 32)
    (n : Fin 12000) (k : Fin 32) (h : Fin 64) :
    Host.gather Cert.KernelIdeal.gather_S12000x64_S12000x32x1_S12000x32x64_2_0_n_n_0_2_164 x I (ix3 n k h)
      = x (ix2 (rowOf I n k) h) := by
  unfold Host.gather
  congr 1
  funext a
  refine Fin.ext ?_
  match a with
  | ⟨0, _⟩ =>
    -- the indexed, collapsed axis: the clamped start index alone
    show GatherDims.start dK (ix3 n k h) I 0 + GatherDims.batchCoord dK (ix3 n k h) 0
      + GatherDims.offCoord dK (ix3 n k h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ GatherDims.startIndexMap dK from List.mem_singleton.mpr rfl)]
    have hsi : GatherDims.siIdx dK (ix3 n k h) ⟨List.idxOf (0 : Fin 2) (GatherDims.startIndexMap dK),
        List.idxOf_lt_length_iff.2 (List.mem_singleton.mpr rfl)⟩ = ix3 n k (0 : Fin 1) := by
      funext b; refine Fin.ext ?_
      match b with
      | ⟨0, _⟩ => rfl
      | ⟨1, _⟩ => rfl
      | ⟨2, _⟩ => rfl
    rw [hsi]
    rfl
  | ⟨1, _⟩ =>
    -- the offset axis: the result's last coordinate alone
    show GatherDims.start dK (ix3 n k h) I 1 + GatherDims.batchCoord dK (ix3 n k h) 1
      + GatherDims.offCoord dK (ix3 n k h) 1 = _
    have hs : GatherDims.start dK (ix3 n k h) I 1 = 0 := by
      unfold GatherDims.start
      rw [dif_neg (show (1 : Fin 2) ∉ GatherDims.startIndexMap dK by decide)]
    have hk : (1 : Fin 2) ∈ GatherDims.sKept dK :=
      (GatherDims.mem_sKept _ _).mpr ⟨by decide, List.not_mem_nil⟩
    have ho : GatherDims.offCoord dK (ix3 n k h) 1 = h.val := by
      unfold GatherDims.offCoord
      rw [dif_pos hk]
      rfl
    rw [hs, GatherDims.batchCoord_eq_zero _ _ _ List.not_mem_nil, ho]
    simp only [Nat.zero_add]

/-- The reference's gather along axis 1: entry `(b, n, k, c)` is the table at `(b, rowOf I n k, c)`. -/
theorem reference_rows {α : Type} (y : (⟨3, ![1, 12000, 64]⟩ : Shape).Idx → α) (I : IVec ⟨3, ![12000, 32, 1]⟩ 32)
    (b : Fin 1) (n : Fin 12000) (k : Fin 32) (c : Fin 64) :
    Host.gather Cert.ReferenceIdeal.gather_S1x12000x64_S12000x32x1_S1x12000x32x64_03_1_n_n_1_2_1164 y I (ix4 b n k c)
      = y (ix3 b (rowOf I n k) c) := by
  unfold Host.gather
  congr 1
  funext a
  refine Fin.ext ?_
  match a with
  | ⟨0, _⟩ =>
    -- the first offset axis: the result's coordinate 0 alone
    show GatherDims.start dR (ix4 b n k c) I 0 + GatherDims.batchCoord dR (ix4 b n k c) 0
      + GatherDims.offCoord dR (ix4 b n k c) 0 = _
    have hs : GatherDims.start dR (ix4 b n k c) I 0 = 0 := by
      unfold GatherDims.start
      rw [dif_neg (show (0 : Fin 3) ∉ GatherDims.startIndexMap dR by decide)]
    have hk : (0 : Fin 3) ∈ GatherDims.sKept dR :=
      (GatherDims.mem_sKept _ _).mpr ⟨by decide, List.not_mem_nil⟩
    have ho : GatherDims.offCoord dR (ix4 b n k c) 0 = b.val := by
      unfold GatherDims.offCoord
      rw [dif_pos hk]
      rfl
    rw [hs, GatherDims.batchCoord_eq_zero _ _ _ List.not_mem_nil, ho]
    simp only [Nat.zero_add]
  | ⟨1, _⟩ =>
    -- the indexed, collapsed axis: the clamped start index alone
    show GatherDims.start dR (ix4 b n k c) I 1 + GatherDims.batchCoord dR (ix4 b n k c) 1
      + GatherDims.offCoord dR (ix4 b n k c) 1 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 3) ∈ GatherDims.startIndexMap dR from List.mem_singleton.mpr rfl)]
    have hsi : GatherDims.siIdx dR (ix4 b n k c) ⟨List.idxOf (1 : Fin 3) (GatherDims.startIndexMap dR),
        List.idxOf_lt_length_iff.2 (List.mem_singleton.mpr rfl)⟩ = ix3 n k (0 : Fin 1) := by
      funext e; refine Fin.ext ?_
      match e with
      | ⟨0, _⟩ => rfl
      | ⟨1, _⟩ => rfl
      | ⟨2, _⟩ => rfl
    rw [hsi]
    rfl
  | ⟨2, _⟩ =>
    -- the second offset axis: the result's last coordinate alone
    show GatherDims.start dR (ix4 b n k c) I 2 + GatherDims.batchCoord dR (ix4 b n k c) 2
      + GatherDims.offCoord dR (ix4 b n k c) 2 = _
    have hs : GatherDims.start dR (ix4 b n k c) I 2 = 0 := by
      unfold GatherDims.start
      rw [dif_neg (show (2 : Fin 3) ∉ GatherDims.startIndexMap dR by decide)]
    have hk : (2 : Fin 3) ∈ GatherDims.sKept dR :=
      (GatherDims.mem_sKept _ _).mpr ⟨by decide, List.not_mem_nil⟩
    have ho : GatherDims.offCoord dR (ix4 b n k c) 2 = c.val := by
      unfold GatherDims.offCoord
      rw [dif_pos hk]
      rfl
    rw [hs, GatherDims.batchCoord_eq_zero _ _ _ List.not_mem_nil, ho]
    simp only [Nat.zero_add]

end Cert.GatherRows

end
-- ==== Proof.HostStretches.lean ====
/-
  The idealized kernel's host operations between its four regions, read on the extended reals: what each region finds
  in the arrays it reads (`V1`, `V3`, `V5`, `V7`: the contents at the region's entry) in terms of what the region
  before left (`V2`, `V4`, `V6`, `V8`) and of the launch memory `m`. The node features enter as the `[1, 12000, 64]`
  argument read as `[12000, 64]`; the start indices are the neighbour table with a negative entry moved up by 12000
  (`startIdx`), the same array for both row gathers; the edge weights are gathered from the `[12000, 12000]` weight
  matrix at (node, neighbour) pairs (`edgeW`), the same array in both layers; a reshape to `[1, 12000, 64]` and back is
  the identity; matrices and biases are the arguments untouched.
-/
import proofs.«120848_j4509715661236_1_alg».proof.Proof.PatchedKernelIdealFrame
import proofs.«120848_j4509715661236_1_alg».proof.Proof.GatherRows
import proofs.«120848_j4509715661236_1_alg».proof.Proof.LayerSpec
import Idealize.ShloMosaic.Lib.Pipeline.Value
import Idealize.ShloMosaic.Lib.ValueIdx
import Idealize.ShloMosaic.Lib.ValueLayout
import Idealize.ShloMosaic.Lib.StableHlo.Run

noncomputable section

namespace Cert.HostStretches

open Idealize.ShloMosaic Idealize.ShloMosaic.TcCoe Idealize.ShloMosaic.ValueIdx Idealize.SL.Sem
open Cert.LayerSpec Cert.KernelIdeal Cert.KernelIdeal.Gen Cert.KernelIdeal.GenP

/-- The start indices both row gathers use: a negative neighbour number moved up by 12000, as `[12000, 32, 1]`. -/
def startIdx (nbr : IVec S12000x32 32) : IVec S12000x32x1 32 :=
  broadcastInDim S12000x32x1 ![0, 1] bcast_S12000x32_S12000x32x1_0_1
    (select (cmpi .slt nbr (broadcastInDim S12000x32 ![] bcast_S_S12000x32 (constantI S_ 32 0#32)))
      (addi nbr (broadcastInDim S12000x32 ![] bcast_S_S12000x32 (constantI S_ 32 12000#32))) nbr)

/-- The node numbers `0 … 11999` as a `[12000, 1]` column, a negative one moved up by 12000 (none is). -/
def nodeCol : IVec S12000x1 32 :=
  select (cmpi .slt (broadcastInDim S12000x1 ![0] bcast_S12000_S12000x1_0 (iotaInDim S12000 32 0))
      (broadcastInDim S12000x1 ![] bcast_S_S12000x1 (constantI S_ 32 0#32)))
    (addi (broadcastInDim S12000x1 ![0] bcast_S12000_S12000x1_0 (iotaInDim S12000 32 0))
      (broadcastInDim S12000x1 ![] bcast_S_S12000x1 (constantI S_ 32 12000#32)))
    (broadcastInDim S12000x1 ![0] bcast_S12000_S12000x1_0 (iotaInDim S12000 32 0))

/-- The edge weights: the weight matrix gathered at the pairs (node, neighbour). -/
def edgeW (Wt : Vec Ideal S12000x12000 .f32) (nbr : IVec S12000x32 32) : Vec Ideal S12000x32 .f32 :=
  Host.gather gather_S12000x12000_S12000x32x2_S12000x32_n_01_n_n_01_2_11 Wt
    (concatenate S12000x32x2 2
      [⟨S12000x32x1, broadcastInDim S12000x32x1 ![0, 1] bcast_S12000x32_S12000x32x1_0_1
          (broadcastInDim S12000x32 ![0, 1] bcast_S12000x1_S12000x32_0_1 nodeCol)⟩,
       ⟨S12000x32x1, startIdx nbr⟩]
      concatenates_S12000x32x1_S12000x32x1_S12000x32x2_d2)

/-! ## Reshapes read at an index -/

/-- A `[1, 12000, 64]` array reshaped to `[12000, 64]`: the leading unit axis dropped. -/
theorem shapeCast_drop1 (Y : T3 1 12000 64) (h : (⟨3, ![1, 12000, 64]⟩ : Shape).ShapeCasts ⟨2, ![12000, 64]⟩) :
    shapeCast ⟨2, ![12000, 64]⟩ Y h = drop1 Y := by
  funext i
  refine shapeCast_apply Y h i (ix3 (0 : Fin 1) (i 0) (i 1)) ?_
  rw [Shape.rowMajor_val_three, Shape.rowMajor_val_two]
  show ((0 : ℕ) * 12000 + (i 0).val) * 64 + (i 1).val = (i 0).val * 64 + (i 1).val
  omega

/-- A `[12000, 64]` array reshaped to `[1, 12000, 64]`: a leading unit axis added. -/
theorem shapeCast_add1 (Y : T2 12000 64) (h : (⟨2, ![12000, 64]⟩ : Shape).ShapeCasts ⟨3, ![1, 12000, 64]⟩) :
    shapeCast ⟨3, ![1, 12000, 64]⟩ Y h = add1 Y := by
  funext j
  refine shapeCast_apply Y h j (ix2 (j 1) (j 2)) ?_
  rw [Shape.rowMajor_val_three, Shape.rowMajor_val_two]
  have h0 : (j 0).val = 0 := by have := (j 0).isLt; simpa using this
  show (j 1).val * 64 + (j 2).val = ((j 0).val * 12000 + (j 1).val) * 64 + (j 2).val
  rw [h0]; omega

/-! ## What each stretch of host operations writes -/

/-- The references the stretch before region 0 writes. -/
abbrev wr0 : List (Ref sig .tc) := [main_v0]
/-- The references the stretch before region 1 writes. -/
abbrev wr1 : List (Ref sig .tc) :=
  [main_c, main_v2, main_v3, main_c_0, main_v4, main_v5, main_v6, main_v7, main_v8, main_v9, main_v10, main_c_1, main_v11,
   main_v12, main_c_2, main_v13, main_v14, main_v15, main_c_3, main_v16, main_v17, main_c_4, main_v18, main_v19, main_v20,
   main_v21, main_v22, main_v23, main_v24, main_v25]
/-- The references the stretch before region 2 writes. -/
abbrev wr2 : List (Ref sig .tc) := [main_v27, main_v28]
/-- The references the stretch before region 3 writes. -/
abbrev wr3 : List (Ref sig .tc) :=
  [main_c_5, main_v30, main_v31, main_c_6, main_v32, main_v33, main_v34, main_v35, main_v36, main_v37, main_v38, main_c_7,
   main_v39, main_v40, main_c_8, main_v41, main_v42, main_v43, main_c_9, main_v44, main_v45, main_c_10, main_v46, main_v47,
   main_v48, main_v49, main_v50, main_v51, main_v52, main_v53]
/-- The references the last stretch writes. -/
abbrev wr4 : List (Ref sig .tc) := [main_v55]

theorem hostOps0_writes : (hostOps0 : List (HloOp τ sig (Elt Ideal))).Forall fun op =>
    op.writes ⊆ (wr0.map (Proc.devRef (τ := τ) .tc)).toFinset := by
  simp only [List.Forall, StableHlo.reshape_writes, Finset.singleton_subset_iff, List.mem_toFinset]
  exact List.mem_map_of_mem (by decide)
theorem hostOps1_writes : (hostOps1 : List (HloOp τ sig (Elt Ideal))).Forall fun op =>
    op.writes ⊆ (wr1.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem hostOps2_writes : (hostOps2 : List (HloOp τ sig (Elt Ideal))).Forall fun op =>
    op.writes ⊆ (wr2.map (Proc.devRef (τ := τ) .tc)).toFinset := by
  simp only [List.Forall, StableHlo.reshape_writes, Finset.singleton_subset_iff, List.mem_toFinset]
  repeat' apply And.intro
  all_goals exact List.mem_map_of_mem (by decide)
theorem hostOps3_writes : (hostOps3 : List (HloOp τ sig (Elt Ideal))).Forall fun op =>
    op.writes ⊆ (wr3.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem hostOps4_writes : (hostOps4 : List (HloOp τ sig (Elt Ideal))).Forall fun op =>
    op.writes ⊆ (wr4.map (Proc.devRef (τ := τ) .tc)).toFinset := by
  simp only [List.Forall, StableHlo.reshape_writes, Finset.singleton_subset_iff, List.mem_toFinset]
  exact List.mem_map_of_mem (by decide)

/-! ## What the two long stretches leave in the buffers the aggregating regions read -/

/-- The stretch before region 1 leaves in `main_v8` the rows of `main_v1` gathered at the start indices. -/
theorem hostOps1_v8 (V : Valuation τ sig (Elt Ideal)) :
    StableHlo.after hostOps1 V (Proc.devRef .tc main_v8)
      = Host.gather gather_S12000x64_S12000x32x1_S12000x32x64_2_0_n_n_0_2_164 (V (Proc.devRef .tc main_v1))
          (startIdx (V (Proc.devRef .tc main_arg2))) := by
  after_results
  rfl
/-- The stretch before region 1 leaves in `main_v25` the edge weights. -/
theorem hostOps1_v25 (V : Valuation τ sig (Elt Ideal)) :
    StableHlo.after hostOps1 V (Proc.devRef .tc main_v25)
      = edgeW (V (Proc.devRef .tc main_arg1)) (V (Proc.devRef .tc main_arg2)) := by
  after_results_simp
  rfl
/-- The stretch before region 3 leaves in `main_v36` the rows of `main_v29` gathered at the start indices. -/
theorem hostOps3_v36 (V : Valuation τ sig (Elt Ideal)) :
    StableHlo.after hostOps3 V (Proc.devRef .tc main_v36)
      = Host.gather gather_S12000x64_S12000x32x1_S12000x32x64_2_0_n_n_0_2_164 (V (Proc.devRef .tc main_v29))
          (startIdx (V (Proc.devRef .tc main_arg2))) := by
  after_results
  rfl
/-- The stretch before region 3 leaves in `main_v53` the edge weights. -/
theorem hostOps3_v53 (V : Valuation τ sig (Elt Ideal)) :
    StableHlo.after hostOps3 V (Proc.devRef .tc main_v53)
      = edgeW (V (Proc.devRef .tc main_arg1)) (V (Proc.devRef .tc main_arg2)) := by
  after_results_simp
  rfl

/-- The gathered rows, entry by entry: the table's row the start index names. -/
theorem gather_rows (H : T2 12000 64) (I : IVec S12000x32x1 32) :
    Host.gather gather_S12000x64_S12000x32x1_S12000x32x64_2_0_n_n_0_2_164 H I = rowsOf H (rowOf I) := by
  funext j
  obtain ⟨n, k, h, rfl⟩ : ∃ n k h, j = ix3 n k h := ⟨j 0, j 1, j 2, eq_ix3 j⟩
  exact Cert.GatherRows.kernel_rows H I n k h
variable (m : (ℓ : Loc nD τ sig) → Buf (Elt Ideal) ℓ) (ρ : Dev nD → PrngReg)

/-! ## A buffer a stretch does not write keeps its contents -/

theorem W1_of (c : Dev nD) (r : Ref sig .tc) (h : r ∉ wr0) :
    W1 m ρ c (Proc.devRef .tc r) = W0 m ρ c (Proc.devRef .tc r) :=
  StableHlo.after_of_writes_sub hostOps0 _ hostOps0_writes h
theorem W3_of (c : Dev nD) (r : Ref sig .tc) (h : r ∉ wr1) :
    W3 m ρ c (Proc.devRef .tc r) = W2 m ρ c (Proc.devRef .tc r) :=
  StableHlo.after_of_writes_sub hostOps1 _ hostOps1_writes h
theorem W5_of (c : Dev nD) (r : Ref sig .tc) (h : r ∉ wr2) :
    W5 m ρ c (Proc.devRef .tc r) = W4 m ρ c (Proc.devRef .tc r) :=
  StableHlo.after_of_writes_sub hostOps2 _ hostOps2_writes h
theorem W7_of (c : Dev nD) (r : Ref sig .tc) (h : r ∉ wr3) :
    W7 m ρ c (Proc.devRef .tc r) = W6 m ρ c (Proc.devRef .tc r) :=
  StableHlo.after_of_writes_sub hostOps3 _ hostOps3_writes h

/-! ## A buffer nothing has written yet holds its launch contents -/

theorem W1_arg (c : Dev nD) (r : Ref sig .tc) (h0 : r ∉ wr0) :
    W1 m ρ c (Proc.devRef .tc r) = m ((c.tc : Thread nD τ).loc r) :=
  (W1_of m ρ c r h0).trans rfl
theorem W2_arg (c : Dev nD) (r : Ref sig .tc) (h0 : r ∉ wr0) (n0 : ∀ w, Pipeline.arrRef spec0 w ≠ r) :
    W2 m ρ c (Proc.devRef .tc r) = m ((c.tc : Thread nD τ).loc r) :=
  (W2_of_ne m ρ c r n0).trans (W1_arg m ρ c r h0)
theorem W3_arg (c : Dev nD) (r : Ref sig .tc) (h0 : r ∉ wr0) (n0 : ∀ w, Pipeline.arrRef spec0 w ≠ r) (h1 : r ∉ wr1) :
    W3 m ρ c (Proc.devRef .tc r) = m ((c.tc : Thread nD τ).loc r) :=
  (W3_of m ρ c r h1).trans (W2_arg m ρ c r h0 n0)
theorem W4_arg (c : Dev nD) (r : Ref sig .tc) (h0 : r ∉ wr0) (n0 : ∀ w, Pipeline.arrRef spec0 w ≠ r) (h1 : r ∉ wr1)
    (n1 : ∀ w, Pipeline.arrRef spec1 w ≠ r) :
    W4 m ρ c (Proc.devRef .tc r) = m ((c.tc : Thread nD τ).loc r) :=
  (W4_of_ne m ρ c r n1).trans (W3_arg m ρ c r h0 n0 h1)
theorem W5_arg (c : Dev nD) (r : Ref sig .tc) (h0 : r ∉ wr0) (n0 : ∀ w, Pipeline.arrRef spec0 w ≠ r) (h1 : r ∉ wr1)
    (n1 : ∀ w, Pipeline.arrRef spec1 w ≠ r) (h2 : r ∉ wr2) :
    W5 m ρ c (Proc.devRef .tc r) = m ((c.tc : Thread nD τ).loc r) :=
  (W5_of m ρ c r h2).trans (W4_arg m ρ c r h0 n0 h1 n1)
theorem W6_arg (c : Dev nD) (r : Ref sig .tc) (h0 : r ∉ wr0) (n0 : ∀ w, Pipeline.arrRef spec0 w ≠ r) (h1 : r ∉ wr1)
    (n1 : ∀ w, Pipeline.arrRef spec1 w ≠ r) (h2 : r ∉ wr2) (n2 : ∀ w, Pipeline.arrRef spec2 w ≠ r) :
    W6 m ρ c (Proc.devRef .tc r) = m ((c.tc : Thread nD τ).loc r) :=
  (W6_of_ne m ρ c r n2).trans (W5_arg m ρ c r h0 n0 h1 n1 h2)
theorem W7_arg (c : Dev nD) (r : Ref sig .tc) (h0 : r ∉ wr0) (n0 : ∀ w, Pipeline.arrRef spec0 w ≠ r) (h1 : r ∉ wr1)
    (n1 : ∀ w, Pipeline.arrRef spec1 w ≠ r) (h2 : r ∉ wr2) (n2 : ∀ w, Pipeline.arrRef spec2 w ≠ r) (h3 : r ∉ wr3) :
    W7 m ρ c (Proc.devRef .tc r) = m ((c.tc : Thread nD τ).loc r) :=
  (W7_of m ρ c r h3).trans (W6_arg m ρ c r h0 n0 h1 n1 h2 n2)

/-! ## Region 0's entry -/

theorem V1_v0 (c : Dev nD) : V1 m ρ c main_v0 = drop1 (m ((c.tc : Thread nD τ).loc main_arg0)) := by
  show StableHlo.after hostOps0 (W0 m ρ c) (Proc.devRef .tc main_v0) = _
  after_results
  exact shapeCast_drop1 _ _
theorem V1_arg3 (c : Dev nD) : V1 m ρ c main_arg3 = m ((c.tc : Thread nD τ).loc main_arg3) := by
  exact W1_arg m ρ c main_arg3 (by decide)
theorem V1_arg4 (c : Dev nD) : V1 m ρ c main_arg4 = m ((c.tc : Thread nD τ).loc main_arg4) := by
  exact W1_arg m ρ c main_arg4 (by decide)

/-! ## Region 1's entry, from region 0's exit -/

theorem V3_v8 (c : Dev nD) :
    V3 m ρ c main_v8 = rowsOf (V2 m ρ c main_v1) (rowOf (startIdx (m ((c.tc : Thread nD τ).loc main_arg2)))) := by
  refine (hostOps1_v8 (W2 m ρ c)).trans ?_
  refine (gather_rows _ _).trans ?_
  exact congrArg (fun I : IVec S12000x32 32 => rowsOf (V2 m ρ c main_v1) (rowOf (startIdx I)))
    (W2_arg m ρ c main_arg2 (by decide) (by decide))
theorem V3_v25 (c : Dev nD) :
    V3 m ρ c main_v25 = edgeW (m ((c.tc : Thread nD τ).loc main_arg1)) (m ((c.tc : Thread nD τ).loc main_arg2)) := by
  refine (hostOps1_v25 (W2 m ρ c)).trans ?_
  exact congrArg₂ edgeW (W2_arg m ρ c main_arg1 (by decide) (by decide)) (W2_arg m ρ c main_arg2 (by decide) (by decide))
theorem V3_v0 (c : Dev nD) : V3 m ρ c main_v0 = drop1 (m ((c.tc : Thread nD τ).loc main_arg0)) := by
  refine (W3_of m ρ c main_v0 (by decide)).trans ?_
  refine ((W2_arr m ρ c 0).trans (((dat0 (V1 m ρ) c).arrAt_in 0 rfl _).trans (A_eq0 (V1 m ρ) c 0))).trans ?_
  exact V1_v0 m ρ c
theorem V3_arg5 (c : Dev nD) : V3 m ρ c main_arg5 = m ((c.tc : Thread nD τ).loc main_arg5) := by
  exact W3_arg m ρ c main_arg5 (by decide) (by decide) (by decide)
theorem V3_arg6 (c : Dev nD) : V3 m ρ c main_arg6 = m ((c.tc : Thread nD τ).loc main_arg6) := by
  exact W3_arg m ρ c main_arg6 (by decide) (by decide) (by decide)

/-! ## Region 2's entry, from region 1's exit -/

theorem V5_v28 (c : Dev nD) : V5 m ρ c main_v28 = V4 m ρ c main_v26 := by
  show StableHlo.after hostOps2 (W4 m ρ c) (Proc.devRef .tc main_v28) = _
  after_results
  exact shapeCast_shapeCast _ _ _
theorem V5_arg7 (c : Dev nD) : V5 m ρ c main_arg7 = m ((c.tc : Thread nD τ).loc main_arg7) := by
  exact W5_arg m ρ c main_arg7 (by decide) (by decide) (by decide) (by decide) (by decide)
theorem V5_arg8 (c : Dev nD) : V5 m ρ c main_arg8 = m ((c.tc : Thread nD τ).loc main_arg8) := by
  exact W5_arg m ρ c main_arg8 (by decide) (by decide) (by decide) (by decide) (by decide)

/-! ## Region 3's entry, from region 2's and region 1's exits -/

theorem V7_v36 (c : Dev nD) :
    V7 m ρ c main_v36 = rowsOf (V6 m ρ c main_v29) (rowOf (startIdx (m ((c.tc : Thread nD τ).loc main_arg2)))) := by
  refine (hostOps3_v36 (W6 m ρ c)).trans ?_
  refine (gather_rows _ _).trans ?_
  exact congrArg (fun I : IVec S12000x32 32 => rowsOf (V6 m ρ c main_v29) (rowOf (startIdx I)))
    (W6_arg m ρ c main_arg2 (by decide) (by decide) (by decide) (by decide) (by decide) (by decide))
theorem V7_v53 (c : Dev nD) :
    V7 m ρ c main_v53 = edgeW (m ((c.tc : Thread nD τ).loc main_arg1)) (m ((c.tc : Thread nD τ).loc main_arg2)) := by
  refine (hostOps3_v53 (W6 m ρ c)).trans ?_
  exact congrArg₂ edgeW
    (W6_arg m ρ c main_arg1 (by decide) (by decide) (by decide) (by decide) (by decide) (by decide))
    (W6_arg m ρ c main_arg2 (by decide) (by decide) (by decide) (by decide) (by decide) (by decide))
theorem V7_v28 (c : Dev nD) : V7 m ρ c main_v28 = V4 m ρ c main_v26 := by
  refine (W7_of m ρ c main_v28 (by decide)).trans ?_
  refine ((W6_arr m ρ c 0).trans (((dat2 (V5 m ρ) c).arrAt_in 0 rfl _).trans (A_eq2 (V5 m ρ) c 0))).trans ?_
  exact V5_v28 m ρ c
theorem V7_arg9 (c : Dev nD) : V7 m ρ c main_arg9 = m ((c.tc : Thread nD τ).loc main_arg9) := by
  exact W7_arg m ρ c main_arg9 (by decide) (by decide) (by decide) (by decide) (by decide) (by decide) (by decide)
theorem V7_arg10 (c : Dev nD) : V7 m ρ c main_arg10 = m ((c.tc : Thread nD τ).loc main_arg10) := by
  exact W7_arg m ρ c main_arg10 (by decide) (by decide) (by decide) (by decide) (by decide) (by decide) (by decide)

/-! ## The result, from region 3's exit -/

theorem W9_v55 (c : Dev nD) : W9 m ρ c (Proc.devRef .tc main_v55) = add1 (V8 m ρ c main_v54) := by
  show StableHlo.after hostOps4 (W8 m ρ c) (Proc.devRef .tc main_v55) = _
  after_results
  exact shapeCast_add1 _ _

end Cert.HostStretches

end
-- ==== Proof.KernelValue.lean ====
/-
  The idealized kernel's result as a function of its arguments, read on the extended reals: the frame's fold of buffer
  contents through the four regions and the host operations between them, walked from the end. Region 0 leaves
  `hid` of the features (`DenseRegion`), the host gathers its rows and the edge weights (`HostStretches`), region 1 leaves
  `tail` of those (`AggRegion`): together one `LayerSpec.layer`; regions 2 and 3 do the same to the first layer's result
  with the second layer's matrices; the result buffer is that array as `[1, 12000, 64]`.
-/
import proofs.«120848_j4509715661236_1_alg».proof.Proof.PatchedKernelIdealFrame
import proofs.«120848_j4509715661236_1_alg».proof.Proof.DenseRegion
import proofs.«120848_j4509715661236_1_alg».proof.Proof.AggRegion
import proofs.«120848_j4509715661236_1_alg».proof.Proof.HostStretches
import proofs.«120848_j4509715661236_1_alg».proof.Proof.LayerSpec

noncomputable section

namespace Cert.KernelValue

open Idealize.ShloMosaic Idealize.ShloMosaic.TcCoe Idealize.ShloMosaic.ValueIdx Idealize.SL.Sem
open Cert.LayerSpec Cert.KernelIdeal Cert.KernelIdeal.Gen Cert.KernelIdeal.GenP Cert.HostStretches Cert.DenseRegion Cert.AggRegion

variable (m : (ℓ : Loc nD τ sig) → Buf (Elt Ideal) ℓ) (ρ : Dev nD → PrngReg)

/-- The neighbours' rows and the edge weights, from the launch memory. -/
abbrev nbrRow (c : Dev nD) : Fin 12000 → Fin 32 → Fin 12000 := rowOf (startIdx (m ((c.tc : Thread nD τ).loc main_arg2)))
abbrev nbrW (c : Dev nD) : T2 12000 32 := edgeW (m ((c.tc : Thread nD τ).loc main_arg1)) (m ((c.tc : Thread nD τ).loc main_arg2))

/-- Region 0 leaves the first layer's hidden table. -/
theorem hid1 (c : Dev nD) :
    V2 m ρ c main_v1 = hid (drop1 (m ((c.tc : Thread nD τ).loc main_arg0))) (m ((c.tc : Thread nD τ).loc main_arg3)) (m ((c.tc : Thread nD τ).loc main_arg4)) := by
  refine ((W2_arr m ρ c 3).trans (region0 (V1 m ρ) c)).trans ?_
  rw [V1_v0, V1_arg3, V1_arg4]

/-- Region 1 leaves the first layer's result. -/
theorem out1 (c : Dev nD) :
    V4 m ρ c main_v26 = layer (drop1 (m ((c.tc : Thread nD τ).loc main_arg0))) (m ((c.tc : Thread nD τ).loc main_arg3)) (m ((c.tc : Thread nD τ).loc main_arg4))
      (m ((c.tc : Thread nD τ).loc main_arg5)) (m ((c.tc : Thread nD τ).loc main_arg6)) (nbrRow m c) (nbrW m c) := by
  refine ((W4_arr m ρ c 5).trans (region1 (V3 m ρ) c)).trans ?_
  rw [V3_v8, V3_v25, V3_v0, V3_arg5, V3_arg6, hid1]
  rfl

/-- Region 2 leaves the second layer's hidden table. -/
theorem hid2 (c : Dev nD) :
    V6 m ρ c main_v29 = hid (V4 m ρ c main_v26) (m ((c.tc : Thread nD τ).loc main_arg7)) (m ((c.tc : Thread nD τ).loc main_arg8)) := by
  refine ((W6_arr m ρ c 3).trans (region2 (V5 m ρ) c)).trans ?_
  rw [V5_v28, V5_arg7, V5_arg8]

/-- Region 3 leaves the second layer's result. -/
theorem out2 (c : Dev nD) :
    V8 m ρ c main_v54 = layer (V4 m ρ c main_v26) (m ((c.tc : Thread nD τ).loc main_arg7)) (m ((c.tc : Thread nD τ).loc main_arg8))
      (m ((c.tc : Thread nD τ).loc main_arg9)) (m ((c.tc : Thread nD τ).loc main_arg10)) (nbrRow m c) (nbrW m c) := by
  refine ((W8_arr m ρ c 5).trans (region3 (V7 m ρ) c)).trans ?_
  rw [V7_v36, V7_v53, V7_v28, V7_arg9, V7_arg10, hid2]
  rfl

/-- The result buffer: two layers of the features, as `[1, 12000, 64]`. -/
theorem result (c : Dev nD) :
    W9 m ρ c (Proc.devRef .tc main_v55)
      = add1 (layer (layer (drop1 (m ((c.tc : Thread nD τ).loc main_arg0))) (m ((c.tc : Thread nD τ).loc main_arg3)) (m ((c.tc : Thread nD τ).loc main_arg4))
            (m ((c.tc : Thread nD τ).loc main_arg5)) (m ((c.tc : Thread nD τ).loc main_arg6)) (nbrRow m c) (nbrW m c))
          (m ((c.tc : Thread nD τ).loc main_arg7)) (m ((c.tc : Thread nD τ).loc main_arg8))
          (m ((c.tc : Thread nD τ).loc main_arg9)) (m ((c.tc : Thread nD τ).loc main_arg10)) (nbrRow m c) (nbrW m c)) := by
  rw [W9_v55, out2, out1]

end Cert.KernelValue

end
-- ==== Proof.RefRun.lean ====
/-
  The idealized reference's run, read back: @main is a straight line of 150 host operations, so every weakly fair
  execution terminates with each buffer at the fold of the operations' results over the launch memory; the result
  buffer's fold is the stage `val_main_v113` of the eleven argument arrays, and no operation writes an argument.
-/
import proofs.«120848_j4509715661236_1_alg».proof.Proof.PatchedRefRead
import Idealize.ShloMosaic.Lib.StableHlo.Run
import Idealize.ShloMosaic.Lib.Pipeline.Frame

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.ReadP

variable {F : FTy → Type} [FloatOps F]

/-- Operations 1 … 39 of @main, in order. -/
abbrev opsA : List (HloOp τ sig (Elt F)) :=
  [ nullary main_c (constantI S_ 32 0#32),
    unary main_c main_v0 (broadcastInDim S12000x32 ![] bcast_S_S12000x32 : (⟨S_, .i32⟩ : BufTy).Contents (Elt F) → (⟨S12000x32, .i32⟩ : BufTy).Contents (Elt F)),
    binary main_arg2 main_v0 main_v1 (cmpi .slt : (⟨S12000x32, .i32⟩ : BufTy).Contents (Elt F) → (⟨S12000x32, .i32⟩ : BufTy).Contents (Elt F) → (⟨S12000x32, .i1⟩ : BufTy).Contents (Elt F)),
    nullary main_c_0 (constantI S_ 32 12000#32),
    unary main_c_0 main_v2 (broadcastInDim S12000x32 ![] bcast_S_S12000x32 : (⟨S_, .i32⟩ : BufTy).Contents (Elt F) → (⟨S12000x32, .i32⟩ : BufTy).Contents (Elt F)),
    binary main_arg2 main_v2 main_v3 (addi : (⟨S12000x32, .i32⟩ : BufTy).Contents (Elt F) → (⟨S12000x32, .i32⟩ : BufTy).Contents (Elt F) → (⟨S12000x32, .i32⟩ : BufTy).Contents (Elt F)),
    ternary main_v1 main_v3 main_arg2 main_v4 (select : (⟨S12000x32, .i1⟩ : BufTy).Contents (Elt F) → (⟨S12000x32, .i32⟩ : BufTy).Contents (Elt F) → (⟨S12000x32, .i32⟩ : BufTy).Contents (Elt F) → (⟨S12000x32, .i32⟩ : BufTy).Contents (Elt F)),
    unary main_v4 main_v5 (broadcastInDim S12000x32x1 ![0, 1] bcast_S12000x32_S12000x32x1_0_1 : (⟨S12000x32, .i32⟩ : BufTy).Contents (Elt F) → (⟨S12000x32x1, .i32⟩ : BufTy).Contents (Elt F)),
    binary main_arg0 main_v5 main_v6 ((fun x i => Host.gather gather_S1x12000x64_S12000x32x1_S1x12000x32x64_03_1_n_n_1_2_1164 x i) : (⟨S1x12000x64, .f32⟩ : BufTy).Contents (Elt F) → (⟨S12000x32x1, .i32⟩ : BufTy).Contents (Elt F) → (⟨S1x12000x32x64, .f32⟩ : BufTy).Contents (Elt F)),
    binary main_v6 main_arg3 main_v7 ((fun l r => Host.dotGeneral dot_S1x12000x32x64_S64x64_S1x12000x32x64_3_0_012_1_n_n none l r) : (⟨S1x12000x32x64, .f32⟩ : BufTy).Contents (Elt F) → (⟨S64x64, .f32⟩ : BufTy).Contents (Elt F) → (⟨S1x12000x32x64, .f32⟩ : BufTy).Contents (Elt F)),
    unary main_arg4 main_v8 (broadcastInDim S1x1x1x64 ![3] bcast_S64_S1x1x1x64_3 : (⟨S64, .f32⟩ : BufTy).Contents (Elt F) → (⟨S1x1x1x64, .f32⟩ : BufTy).Contents (Elt F)),
    unary main_v8 main_v9 (broadcastInDim S1x12000x32x64 ![0, 1, 2, 3] bcast_S1x1x1x64_S1x12000x32x64_0_1_2_3 : (⟨S1x1x1x64, .f32⟩ : BufTy).Contents (Elt F) → (⟨S1x12000x32x64, .f32⟩ : BufTy).Contents (Elt F)),
    binary main_v7 main_v9 main_v10 (addf : (⟨S1x12000x32x64, .f32⟩ : BufTy).Contents (Elt F) → (⟨S1x12000x32x64, .f32⟩ : BufTy).Contents (Elt F) → (⟨S1x12000x32x64, .f32⟩ : BufTy).Contents (Elt F)),
    nullary main_cst (constant S_ .f32 0x00000000#32),
    unary main_cst main_v11 (broadcastInDim S1x12000x32x64 ![] bcast_S_S1x12000x32x64 : (⟨S_, .f32⟩ : BufTy).Contents (Elt F) → (⟨S1x12000x32x64, .f32⟩ : BufTy).Contents (Elt F)),
    binary main_v10 main_v11 main_v12 (cmpf .oge : (⟨S1x12000x32x64, .f32⟩ : BufTy).Contents (Elt F) → (⟨S1x12000x32x64, .f32⟩ : BufTy).Contents (Elt F) → (⟨S1x12000x32x64, .i1⟩ : BufTy).Contents (Elt F)),
    nullary main_cst_1 (constant S_ .f32 0x3E99999A#32),
    unary main_cst_1 main_v13 (broadcastInDim S1x12000x32x64 ![] bcast_S_S1x12000x32x64 : (⟨S_, .f32⟩ : BufTy).Contents (Elt F) → (⟨S1x12000x32x64, .f32⟩ : BufTy).Contents (Elt F)),
    binary main_v13 main_v10 main_v14 (mulf : (⟨S1x12000x32x64, .f32⟩ : BufTy).Contents (Elt F) → (⟨S1x12000x32x64, .f32⟩ : BufTy).Contents (Elt F) → (⟨S1x12000x32x64, .f32⟩ : BufTy).Contents (Elt F)),
    TRef.ternary (TRef.of (T := ⟨S1x12000x32x64, .i1⟩) main_v12) (TRef.of (T := ⟨S1x12000x32x64, .f32⟩) main_v10) (TRef.of (T := ⟨S1x12000x32x64, .f32⟩) main_v14) (TRef.of (T := ⟨S1x12000x32x64, .f32⟩) main_v15) select,
    nullary main_v16 (iotaInDim S12000 32 0),
    unary main_v16 main_v17 (broadcastInDim S12000x1 ![0] bcast_S12000_S12000x1_0 : (⟨S12000, .i32⟩ : BufTy).Contents (Elt F) → (⟨S12000x1, .i32⟩ : BufTy).Contents (Elt F)),
    nullary main_c_2 (constantI S_ 32 0#32),
    unary main_c_2 main_v18 (broadcastInDim S12000x1 ![] bcast_S_S12000x1 : (⟨S_, .i32⟩ : BufTy).Contents (Elt F) → (⟨S12000x1, .i32⟩ : BufTy).Contents (Elt F)),
    binary main_v17 main_v18 main_v19 (cmpi .slt : (⟨S12000x1, .i32⟩ : BufTy).Contents (Elt F) → (⟨S12000x1, .i32⟩ : BufTy).Contents (Elt F) → (⟨S12000x1, .i1⟩ : BufTy).Contents (Elt F)),
    nullary main_c_3 (constantI S_ 32 12000#32),
    unary main_c_3 main_v20 (broadcastInDim S12000x1 ![] bcast_S_S12000x1 : (⟨S_, .i32⟩ : BufTy).Contents (Elt F) → (⟨S12000x1, .i32⟩ : BufTy).Contents (Elt F)),
    binary main_v17 main_v20 main_v21 (addi : (⟨S12000x1, .i32⟩ : BufTy).Contents (Elt F) → (⟨S12000x1, .i32⟩ : BufTy).Contents (Elt F) → (⟨S12000x1, .i32⟩ : BufTy).Contents (Elt F)),
    ternary main_v19 main_v21 main_v17 main_v22 (select : (⟨S12000x1, .i1⟩ : BufTy).Contents (Elt F) → (⟨S12000x1, .i32⟩ : BufTy).Contents (Elt F) → (⟨S12000x1, .i32⟩ : BufTy).Contents (Elt F) → (⟨S12000x1, .i32⟩ : BufTy).Contents (Elt F)),
    nullary main_c_4 (constantI S_ 32 0#32),
    unary main_c_4 main_v23 (broadcastInDim S12000x32 ![] bcast_S_S12000x32 : (⟨S_, .i32⟩ : BufTy).Contents (Elt F) → (⟨S12000x32, .i32⟩ : BufTy).Contents (Elt F)),
    binary main_arg2 main_v23 main_v24 (cmpi .slt : (⟨S12000x32, .i32⟩ : BufTy).Contents (Elt F) → (⟨S12000x32, .i32⟩ : BufTy).Contents (Elt F) → (⟨S12000x32, .i1⟩ : BufTy).Contents (Elt F)),
    nullary main_c_5 (constantI S_ 32 12000#32),
    unary main_c_5 main_v25 (broadcastInDim S12000x32 ![] bcast_S_S12000x32 : (⟨S_, .i32⟩ : BufTy).Contents (Elt F) → (⟨S12000x32, .i32⟩ : BufTy).Contents (Elt F)),
    binary main_arg2 main_v25 main_v26 (addi : (⟨S12000x32, .i32⟩ : BufTy).Contents (Elt F) → (⟨S12000x32, .i32⟩ : BufTy).Contents (Elt F) → (⟨S12000x32, .i32⟩ : BufTy).Contents (Elt F)),
    ternary main_v24 main_v26 main_arg2 main_v27 (select : (⟨S12000x32, .i1⟩ : BufTy).Contents (Elt F) → (⟨S12000x32, .i32⟩ : BufTy).Contents (Elt F) → (⟨S12000x32, .i32⟩ : BufTy).Contents (Elt F) → (⟨S12000x32, .i32⟩ : BufTy).Contents (Elt F)),
    unary main_v22 main_v28 (broadcastInDim S12000x32 ![0, 1] bcast_S12000x1_S12000x32_0_1 : (⟨S12000x1, .i32⟩ : BufTy).Contents (Elt F) → (⟨S12000x32, .i32⟩ : BufTy).Contents (Elt F)),
    unary main_v28 main_v29 (broadcastInDim S12000x32x1 ![0, 1] bcast_S12000x32_S12000x32x1_0_1 : (⟨S12000x32, .i32⟩ : BufTy).Contents (Elt F) → (⟨S12000x32x1, .i32⟩ : BufTy).Contents (Elt F)),
    unary main_v27 main_v30 (broadcastInDim S12000x32x1 ![0, 1] bcast_S12000x32_S12000x32x1_0_1 : (⟨S12000x32, .i32⟩ : BufTy).Contents (Elt F) → (⟨S12000x32x1, .i32⟩ : BufTy).Contents (Elt F)) ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

theorem opsA_fresh : ∀ op ∈ (opsA : List (HloOp τ sig (Elt F))), op.fresh = ∅ := by
  intro _ h; (repeat (cases h with | head => rfl | tail _ h => ?_)); exact nomatch h

/-- Operations 40 … 53 of @main, in order. -/
abbrev opsB : List (HloOp τ sig (Elt F)) :=
  [ binary main_v29 main_v30 main_v31 ((fun a b => concatenate S12000x32x2 2 [⟨S12000x32x1, a⟩, ⟨S12000x32x1, b⟩] concatenates_S12000x32x1_S12000x32x1_S12000x32x2_d2) : (⟨S12000x32x1, .i32⟩ : BufTy).Contents (Elt F) → (⟨S12000x32x1, .i32⟩ : BufTy).Contents (Elt F) → (⟨S12000x32x2, .i32⟩ : BufTy).Contents (Elt F)),
    binary main_arg1 main_v31 main_v32 ((fun x i => Host.gather gather_S12000x12000_S12000x32x2_S12000x32_n_01_n_n_01_2_11 x i) : (⟨S12000x12000, .f32⟩ : BufTy).Contents (Elt F) → (⟨S12000x32x2, .i32⟩ : BufTy).Contents (Elt F) → (⟨S12000x32, .f32⟩ : BufTy).Contents (Elt F)),
    unary main_v32 main_v33 (broadcastInDim S1x12000x32x1 ![1, 2] bcast_S12000x32_S1x12000x32x1_1_2 : (⟨S12000x32, .f32⟩ : BufTy).Contents (Elt F) → (⟨S1x12000x32x1, .f32⟩ : BufTy).Contents (Elt F)),
    unary main_v33 main_v34 (broadcastInDim S1x12000x32x64 ![0, 1, 2, 3] bcast_S1x12000x32x1_S1x12000x32x64_0_1_2_3 : (⟨S1x12000x32x1, .f32⟩ : BufTy).Contents (Elt F) → (⟨S1x12000x32x64, .f32⟩ : BufTy).Contents (Elt F)),
    binary main_v15 main_v34 main_v35 (mulf : (⟨S1x12000x32x64, .f32⟩ : BufTy).Contents (Elt F) → (⟨S1x12000x32x64, .f32⟩ : BufTy).Contents (Elt F) → (⟨S1x12000x32x64, .f32⟩ : BufTy).Contents (Elt F)),
    nullary main_cst_6 (constant S_ .f32 0x00000000#32),
    binary main_v35 main_cst_6 main_v36 ((fun x v => Host.reduceAdd x v reducesTo_S1x12000x32x64_S1x12000x64_d2 h_S_) : (⟨S1x12000x32x64, .f32⟩ : BufTy).Contents (Elt F) → (⟨S_, .f32⟩ : BufTy).Contents (Elt F) → (⟨S1x12000x64, .f32⟩ : BufTy).Contents (Elt F)),
    nullary main_cst_7 (constant S_ .f32 0x00000000#32),
    binary main_v33 main_cst_7 main_v37 ((fun x v => Host.reduceAdd x v reducesTo_S1x12000x32x1_S1x12000x1_d2 h_S_) : (⟨S1x12000x32x1, .f32⟩ : BufTy).Contents (Elt F) → (⟨S_, .f32⟩ : BufTy).Contents (Elt F) → (⟨S1x12000x1, .f32⟩ : BufTy).Contents (Elt F)),
    nullary main_cst_8 (constant S_ .f32 0x358637BD#32),
    unary main_cst_8 main_v38 (broadcastInDim S1x12000x1 ![] bcast_S_S1x12000x1 : (⟨S_, .f32⟩ : BufTy).Contents (Elt F) → (⟨S1x12000x1, .f32⟩ : BufTy).Contents (Elt F)),
    binary main_v37 main_v38 main_v39 (addf : (⟨S1x12000x1, .f32⟩ : BufTy).Contents (Elt F) → (⟨S1x12000x1, .f32⟩ : BufTy).Contents (Elt F) → (⟨S1x12000x1, .f32⟩ : BufTy).Contents (Elt F)),
    unary main_v39 main_v40 (broadcastInDim S1x12000x64 ![0, 1, 2] bcast_S1x12000x1_S1x12000x64_0_1_2 : (⟨S1x12000x1, .f32⟩ : BufTy).Contents (Elt F) → (⟨S1x12000x64, .f32⟩ : BufTy).Contents (Elt F)),
    binary main_v36 main_v40 main_v41 (Host.divf : (⟨S1x12000x64, .f32⟩ : BufTy).Contents (Elt F) → (⟨S1x12000x64, .f32⟩ : BufTy).Contents (Elt F) → (⟨S1x12000x64, .f32⟩ : BufTy).Contents (Elt F)) ]

theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub ..⟩

theorem opsB_fresh : ∀ op ∈ (opsB : List (HloOp τ sig (Elt F))), op.fresh = ∅ := by
  intro _ h; (repeat (cases h with | head => rfl | tail _ h => ?_)); exact nomatch h

/-- Operations 54 … 75 of @main, in order. -/
abbrev opsC : List (HloOp τ sig (Elt F)) :=
  [ binary main_arg0 main_v41 main_v42 ((fun a b => concatenate S1x12000x128 2 [⟨S1x12000x64, a⟩, ⟨S1x12000x64, b⟩] concatenates_S1x12000x64_S1x12000x64_S1x12000x128_d2) : (⟨S1x12000x64, .f32⟩ : BufTy).Contents (Elt F) → (⟨S1x12000x64, .f32⟩ : BufTy).Contents (Elt F) → (⟨S1x12000x128, .f32⟩ : BufTy).Contents (Elt F)),
    binary main_v42 main_arg5 main_v43 ((fun l r => Host.dotGeneral dot_S1x12000x128_S128x64_S1x12000x64_2_0_01_1_n_n none l r) : (⟨S1x12000x128, .f32⟩ : BufTy).Contents (Elt F) → (⟨S128x64, .f32⟩ : BufTy).Contents (Elt F) → (⟨S1x12000x64, .f32⟩ : BufTy).Contents (Elt F)),
    unary main_arg6 main_v44 (broadcastInDim S1x1x64 ![2] bcast_S64_S1x1x64_2 : (⟨S64, .f32⟩ : BufTy).Contents (Elt F) → (⟨S1x1x64, .f32⟩ : BufTy).Contents (Elt F)),
    unary main_v44 main_v45 (broadcastInDim S1x12000x64 ![0, 1, 2] bcast_S1x1x64_S1x12000x64_0_1_2 : (⟨S1x1x64, .f32⟩ : BufTy).Contents (Elt F) → (⟨S1x12000x64, .f32⟩ : BufTy).Contents (Elt F)),
    binary main_v43 main_v45 main_v46 (addf : (⟨S1x12000x64, .f32⟩ : BufTy).Contents (Elt F) → (⟨S1x12000x64, .f32⟩ : BufTy).Contents (Elt F) → (⟨S1x12000x64, .f32⟩ : BufTy).Contents (Elt F)),
    nullary main_cst_9 (constant S_ .f32 0x00000000#32),
    unary main_cst_9 main_v47 (broadcastInDim S1x12000x64 ![] bcast_S_S1x12000x64 : (⟨S_, .f32⟩ : BufTy).Contents (Elt F) → (⟨S1x12000x64, .f32⟩ : BufTy).Contents (Elt F)),
    binary main_v46 main_v47 main_v48 (cmpf .oge : (⟨S1x12000x64, .f32⟩ : BufTy).Contents (Elt F) → (⟨S1x12000x64, .f32⟩ : BufTy).Contents (Elt F) → (⟨S1x12000x64, .i1⟩ : BufTy).Contents (Elt F)),
    nullary main_cst_10 (constant S_ .f32 0x3E99999A#32),
    unary main_cst_10 main_v49 (broadcastInDim S1x12000x64 ![] bcast_S_S1x12000x64 : (⟨S_, .f32⟩ : BufTy).Contents (Elt F) → (⟨S1x12000x64, .f32⟩ : BufTy).Contents (Elt F)),
    binary main_v49 main_v46 main_v50 (mulf : (⟨S1x12000x64, .f32⟩ : BufTy).Contents (Elt F) → (⟨S1x12000x64, .f32⟩ : BufTy).Contents (Elt F) → (⟨S1x12000x64, .f32⟩ : BufTy).Contents (Elt F)),
    TRef.ternary (TRef.of (T := ⟨S1x12000x64, .i1⟩) main_v48) (TRef.of (T := ⟨S1x12000x64, .f32⟩) main_v46) (TRef.of (T := ⟨S1x12000x64, .f32⟩) main_v50) (TRef.of (T := ⟨S1x12000x64, .f32⟩) main_v51) select,
    TRef.binary (TRef.of (T := ⟨S1x12000x64, .f32⟩) main_v51) (TRef.of (T := ⟨S1x12000x64, .f32⟩) main_v51) (TRef.of (T := ⟨S1x12000x64, .f32⟩) main_call2_v0) mulf,
    TRef.nullary (TRef.of (T := ⟨S_, .f32⟩) main_call2_cst) (constant S_ .f32 0x00000000#32),
    TRef.binary (TRef.of (T := ⟨S1x12000x64, .f32⟩) main_call2_v0) (TRef.of (T := ⟨S_, .f32⟩) main_call2_cst) (TRef.of (T := ⟨S1x12000, .f32⟩) main_call2_v1) (fun x v => Host.reduceAdd x v reducesTo_S1x12000x64_S1x12000_d2 h_S_),
    TRef.unary (TRef.of (T := ⟨S1x12000, .f32⟩) main_call2_v1) (TRef.of (T := ⟨S1x12000x1, .f32⟩) main_call2_v2) (broadcastInDim S1x12000x1 ![0, 1] bcast_S1x12000_S1x12000x1_0_1),
    TRef.unary (TRef.of (T := ⟨S1x12000x1, .f32⟩) main_call2_v2) (TRef.of (T := ⟨S1x12000x1, .f32⟩) main_v52) Host.sqrt,
    nullary main_cst_11 (constant S_ .f32 0x358637BD#32),
    unary main_cst_11 main_v53 (broadcastInDim S1x12000x1 ![] bcast_S_S1x12000x1 : (⟨S_, .f32⟩ : BufTy).Contents (Elt F) → (⟨S1x12000x1, .f32⟩ : BufTy).Contents (Elt F)),
    binary main_v52 main_v53 main_v54 (addf : (⟨S1x12000x1, .f32⟩ : BufTy).Contents (Elt F) → (⟨S1x12000x1, .f32⟩ : BufTy).Contents (Elt F) → (⟨S1x12000x1, .f32⟩ : BufTy).Contents (Elt F)),
    unary main_v54 main_v55 (broadcastInDim S1x12000x64 ![0, 1, 2] bcast_S1x12000x1_S1x12000x64_0_1_2 : (⟨S1x12000x1, .f32⟩ : BufTy).Contents (Elt F) → (⟨S1x12000x64, .f32⟩ : BufTy).Contents (Elt F)),
    binary main_v51 main_v55 main_v56 (Host.divf : (⟨S1x12000x64, .f32⟩ : BufTy).Contents (Elt F) → (⟨S1x12000x64, .f32⟩ : BufTy).Contents (Elt F) → (⟨S1x12000x64, .f32⟩ : BufTy).Contents (Elt F)) ]

theorem opsC_sub : (opsC : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem opsC_fresh : ∀ op ∈ (opsC : List (HloOp τ sig (Elt F))), op.fresh = ∅ := by
  intro _ h; (repeat (cases h with | head => rfl | tail _ h => ?_)); exact nomatch h

/-- Operations 76 … 114 of @main, in order. -/
abbrev opsD : List (HloOp τ sig (Elt F)) :=
  [ nullary main_c_12 (constantI S_ 32 0#32),
    unary main_c_12 main_v57 (broadcastInDim S12000x32 ![] bcast_S_S12000x32 : (⟨S_, .i32⟩ : BufTy).Contents (Elt F) → (⟨S12000x32, .i32⟩ : BufTy).Contents (Elt F)),
    binary main_arg2 main_v57 main_v58 (cmpi .slt : (⟨S12000x32, .i32⟩ : BufTy).Contents (Elt F) → (⟨S12000x32, .i32⟩ : BufTy).Contents (Elt F) → (⟨S12000x32, .i1⟩ : BufTy).Contents (Elt F)),
    nullary main_c_13 (constantI S_ 32 12000#32),
    unary main_c_13 main_v59 (broadcastInDim S12000x32 ![] bcast_S_S12000x32 : (⟨S_, .i32⟩ : BufTy).Contents (Elt F) → (⟨S12000x32, .i32⟩ : BufTy).Contents (Elt F)),
    binary main_arg2 main_v59 main_v60 (addi : (⟨S12000x32, .i32⟩ : BufTy).Contents (Elt F) → (⟨S12000x32, .i32⟩ : BufTy).Contents (Elt F) → (⟨S12000x32, .i32⟩ : BufTy).Contents (Elt F)),
    ternary main_v58 main_v60 main_arg2 main_v61 (select : (⟨S12000x32, .i1⟩ : BufTy).Contents (Elt F) → (⟨S12000x32, .i32⟩ : BufTy).Contents (Elt F) → (⟨S12000x32, .i32⟩ : BufTy).Contents (Elt F) → (⟨S12000x32, .i32⟩ : BufTy).Contents (Elt F)),
    unary main_v61 main_v62 (broadcastInDim S12000x32x1 ![0, 1] bcast_S12000x32_S12000x32x1_0_1 : (⟨S12000x32, .i32⟩ : BufTy).Contents (Elt F) → (⟨S12000x32x1, .i32⟩ : BufTy).Contents (Elt F)),
    binary main_v56 main_v62 main_v63 ((fun x i => Host.gather gather_S1x12000x64_S12000x32x1_S1x12000x32x64_03_1_n_n_1_2_1164 x i) : (⟨S1x12000x64, .f32⟩ : BufTy).Contents (Elt F) → (⟨S12000x32x1, .i32⟩ : BufTy).Contents (Elt F) → (⟨S1x12000x32x64, .f32⟩ : BufTy).Contents (Elt F)),
    binary main_v63 main_arg7 main_v64 ((fun l r => Host.dotGeneral dot_S1x12000x32x64_S64x64_S1x12000x32x64_3_0_012_1_n_n none l r) : (⟨S1x12000x32x64, .f32⟩ : BufTy).Contents (Elt F) → (⟨S64x64, .f32⟩ : BufTy).Contents (Elt F) → (⟨S1x12000x32x64, .f32⟩ : BufTy).Contents (Elt F)),
    unary main_arg8 main_v65 (broadcastInDim S1x1x1x64 ![3] bcast_S64_S1x1x1x64_3 : (⟨S64, .f32⟩ : BufTy).Contents (Elt F) → (⟨S1x1x1x64, .f32⟩ : BufTy).Contents (Elt F)),
    unary main_v65 main_v66 (broadcastInDim S1x12000x32x64 ![0, 1, 2, 3] bcast_S1x1x1x64_S1x12000x32x64_0_1_2_3 : (⟨S1x1x1x64, .f32⟩ : BufTy).Contents (Elt F) → (⟨S1x12000x32x64, .f32⟩ : BufTy).Contents (Elt F)),
    binary main_v64 main_v66 main_v67 (addf : (⟨S1x12000x32x64, .f32⟩ : BufTy).Contents (Elt F) → (⟨S1x12000x32x64, .f32⟩ : BufTy).Contents (Elt F) → (⟨S1x12000x32x64, .f32⟩ : BufTy).Contents (Elt F)),
    nullary main_cst_14 (constant S_ .f32 0x00000000#32),
    unary main_cst_14 main_v68 (broadcastInDim S1x12000x32x64 ![] bcast_S_S1x12000x32x64 : (⟨S_, .f32⟩ : BufTy).Contents (Elt F) → (⟨S1x12000x32x64, .f32⟩ : BufTy).Contents (Elt F)),
    binary main_v67 main_v68 main_v69 (cmpf .oge : (⟨S1x12000x32x64, .f32⟩ : BufTy).Contents (Elt F) → (⟨S1x12000x32x64, .f32⟩ : BufTy).Contents (Elt F) → (⟨S1x12000x32x64, .i1⟩ : BufTy).Contents (Elt F)),
    nullary main_cst_15 (constant S_ .f32 0x3E99999A#32),
    unary main_cst_15 main_v70 (broadcastInDim S1x12000x32x64 ![] bcast_S_S1x12000x32x64 : (⟨S_, .f32⟩ : BufTy).Contents (Elt F) → (⟨S1x12000x32x64, .f32⟩ : BufTy).Contents (Elt F)),
    binary main_v70 main_v67 main_v71 (mulf : (⟨S1x12000x32x64, .f32⟩ : BufTy).Contents (Elt F) → (⟨S1x12000x32x64, .f32⟩ : BufTy).Contents (Elt F) → (⟨S1x12000x32x64, .f32⟩ : BufTy).Contents (Elt F)),
    TRef.ternary (TRef.of (T := ⟨S1x12000x32x64, .i1⟩) main_v69) (TRef.of (T := ⟨S1x12000x32x64, .f32⟩) main_v67) (TRef.of (T := ⟨S1x12000x32x64, .f32⟩) main_v71) (TRef.of (T := ⟨S1x12000x32x64, .f32⟩) main_v72) select,
    nullary main_v73 (iotaInDim S12000 32 0),
    unary main_v73 main_v74 (broadcastInDim S12000x1 ![0] bcast_S12000_S12000x1_0 : (⟨S12000, .i32⟩ : BufTy).Contents (Elt F) → (⟨S12000x1, .i32⟩ : BufTy).Contents (Elt F)),
    nullary main_c_16 (constantI S_ 32 0#32),
    unary main_c_16 main_v75 (broadcastInDim S12000x1 ![] bcast_S_S12000x1 : (⟨S_, .i32⟩ : BufTy).Contents (Elt F) → (⟨S12000x1, .i32⟩ : BufTy).Contents (Elt F)),
    binary main_v74 main_v75 main_v76 (cmpi .slt : (⟨S12000x1, .i32⟩ : BufTy).Contents (Elt F) → (⟨S12000x1, .i32⟩ : BufTy).Contents (Elt F) → (⟨S12000x1, .i1⟩ : BufTy).Contents (Elt F)),
    nullary main_c_17 (constantI S_ 32 12000#32),
    unary main_c_17 main_v77 (broadcastInDim S12000x1 ![] bcast_S_S12000x1 : (⟨S_, .i32⟩ : BufTy).Contents (Elt F) → (⟨S12000x1, .i32⟩ : BufTy).Contents (Elt F)),
    binary main_v74 main_v77 main_v78 (addi : (⟨S12000x1, .i32⟩ : BufTy).Contents (Elt F) → (⟨S12000x1, .i32⟩ : BufTy).Contents (Elt F) → (⟨S12000x1, .i32⟩ : BufTy).Contents (Elt F)),
    ternary main_v76 main_v78 main_v74 main_v79 (select : (⟨S12000x1, .i1⟩ : BufTy).Contents (Elt F) → (⟨S12000x1, .i32⟩ : BufTy).Contents (Elt F) → (⟨S12000x1, .i32⟩ : BufTy).Contents (Elt F) → (⟨S12000x1, .i32⟩ : BufTy).Contents (Elt F)),
    nullary main_c_18 (constantI S_ 32 0#32),
    unary main_c_18 main_v80 (broadcastInDim S12000x32 ![] bcast_S_S12000x32 : (⟨S_, .i32⟩ : BufTy).Contents (Elt F) → (⟨S12000x32, .i32⟩ : BufTy).Contents (Elt F)),
    binary main_arg2 main_v80 main_v81 (cmpi .slt : (⟨S12000x32, .i32⟩ : BufTy).Contents (Elt F) → (⟨S12000x32, .i32⟩ : BufTy).Contents (Elt F) → (⟨S12000x32, .i1⟩ : BufTy).Contents (Elt F)),
    nullary main_c_19 (constantI S_ 32 12000#32),
    unary main_c_19 main_v82 (broadcastInDim S12000x32 ![] bcast_S_S12000x32 : (⟨S_, .i32⟩ : BufTy).Contents (Elt F) → (⟨S12000x32, .i32⟩ : BufTy).Contents (Elt F)),
    binary main_arg2 main_v82 main_v83 (addi : (⟨S12000x32, .i32⟩ : BufTy).Contents (Elt F) → (⟨S12000x32, .i32⟩ : BufTy).Contents (Elt F) → (⟨S12000x32, .i32⟩ : BufTy).Contents (Elt F)),
    ternary main_v81 main_v83 main_arg2 main_v84 (select : (⟨S12000x32, .i1⟩ : BufTy).Contents (Elt F) → (⟨S12000x32, .i32⟩ : BufTy).Contents (Elt F) → (⟨S12000x32, .i32⟩ : BufTy).Contents (Elt F) → (⟨S12000x32, .i32⟩ : BufTy).Contents (Elt F)),
    unary main_v79 main_v85 (broadcastInDim S12000x32 ![0, 1] bcast_S12000x1_S12000x32_0_1 : (⟨S12000x1, .i32⟩ : BufTy).Contents (Elt F) → (⟨S12000x32, .i32⟩ : BufTy).Contents (Elt F)),
    unary main_v85 main_v86 (broadcastInDim S12000x32x1 ![0, 1] bcast_S12000x32_S12000x32x1_0_1 : (⟨S12000x32, .i32⟩ : BufTy).Contents (Elt F) → (⟨S12000x32x1, .i32⟩ : BufTy).Contents (Elt F)),
    unary main_v84 main_v87 (broadcastInDim S12000x32x1 ![0, 1] bcast_S12000x32_S12000x32x1_0_1 : (⟨S12000x32, .i32⟩ : BufTy).Contents (Elt F) → (⟨S12000x32x1, .i32⟩ : BufTy).Contents (Elt F)) ]

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩

theorem opsD_fresh : ∀ op ∈ (opsD : List (HloOp τ sig (Elt F))), op.fresh = ∅ := by
  intro _ h; (repeat (cases h with | head => rfl | tail _ h => ?_)); exact nomatch h

/-- Operations 115 … 128 of @main, in order. -/
abbrev opsE : List (HloOp τ sig (Elt F)) :=
  [ binary main_v86 main_v87 main_v88 ((fun a b => concatenate S12000x32x2 2 [⟨S12000x32x1, a⟩, ⟨S12000x32x1, b⟩] concatenates_S12000x32x1_S12000x32x1_S12000x32x2_d2) : (⟨S12000x32x1, .i32⟩ : BufTy).Contents (Elt F) → (⟨S12000x32x1, .i32⟩ : BufTy).Contents (Elt F) → (⟨S12000x32x2, .i32⟩ : BufTy).Contents (Elt F)),
    binary main_arg1 main_v88 main_v89 ((fun x i => Host.gather gather_S12000x12000_S12000x32x2_S12000x32_n_01_n_n_01_2_11 x i) : (⟨S12000x12000, .f32⟩ : BufTy).Contents (Elt F) → (⟨S12000x32x2, .i32⟩ : BufTy).Contents (Elt F) → (⟨S12000x32, .f32⟩ : BufTy).Contents (Elt F)),
    unary main_v89 main_v90 (broadcastInDim S1x12000x32x1 ![1, 2] bcast_S12000x32_S1x12000x32x1_1_2 : (⟨S12000x32, .f32⟩ : BufTy).Contents (Elt F) → (⟨S1x12000x32x1, .f32⟩ : BufTy).Contents (Elt F)),
    unary main_v90 main_v91 (broadcastInDim S1x12000x32x64 ![0, 1, 2, 3] bcast_S1x12000x32x1_S1x12000x32x64_0_1_2_3 : (⟨S1x12000x32x1, .f32⟩ : BufTy).Contents (Elt F) → (⟨S1x12000x32x64, .f32⟩ : BufTy).Contents (Elt F)),
    binary main_v72 main_v91 main_v92 (mulf : (⟨S1x12000x32x64, .f32⟩ : BufTy).Contents (Elt F) → (⟨S1x12000x32x64, .f32⟩ : BufTy).Contents (Elt F) → (⟨S1x12000x32x64, .f32⟩ : BufTy).Contents (Elt F)),
    nullary main_cst_20 (constant S_ .f32 0x00000000#32),
    binary main_v92 main_cst_20 main_v93 ((fun x v => Host.reduceAdd x v reducesTo_S1x12000x32x64_S1x12000x64_d2 h_S_) : (⟨S1x12000x32x64, .f32⟩ : BufTy).Contents (Elt F) → (⟨S_, .f32⟩ : BufTy).Contents (Elt F) → (⟨S1x12000x64, .f32⟩ : BufTy).Contents (Elt F)),
    nullary main_cst_21 (constant S_ .f32 0x00000000#32),
    binary main_v90 main_cst_21 main_v94 ((fun x v => Host.reduceAdd x v reducesTo_S1x12000x32x1_S1x12000x1_d2 h_S_) : (⟨S1x12000x32x1, .f32⟩ : BufTy).Contents (Elt F) → (⟨S_, .f32⟩ : BufTy).Contents (Elt F) → (⟨S1x12000x1, .f32⟩ : BufTy).Contents (Elt F)),
    nullary main_cst_22 (constant S_ .f32 0x358637BD#32),
    unary main_cst_22 main_v95 (broadcastInDim S1x12000x1 ![] bcast_S_S1x12000x1 : (⟨S_, .f32⟩ : BufTy).Contents (Elt F) → (⟨S1x12000x1, .f32⟩ : BufTy).Contents (Elt F)),
    binary main_v94 main_v95 main_v96 (addf : (⟨S1x12000x1, .f32⟩ : BufTy).Contents (Elt F) → (⟨S1x12000x1, .f32⟩ : BufTy).Contents (Elt F) → (⟨S1x12000x1, .f32⟩ : BufTy).Contents (Elt F)),
    unary main_v96 main_v97 (broadcastInDim S1x12000x64 ![0, 1, 2] bcast_S1x12000x1_S1x12000x64_0_1_2 : (⟨S1x12000x1, .f32⟩ : BufTy).Contents (Elt F) → (⟨S1x12000x64, .f32⟩ : BufTy).Contents (Elt F)),
    binary main_v93 main_v97 main_v98 (Host.divf : (⟨S1x12000x64, .f32⟩ : BufTy).Contents (Elt F) → (⟨S1x12000x64, .f32⟩ : BufTy).Contents (Elt F) → (⟨S1x12000x64, .f32⟩ : BufTy).Contents (Elt F)) ]

theorem opsE_sub : (opsE : List (HloOp τ sig (Elt F))).Forall fun op => op.bufs ⊆ tcRefs τ sig :=
  ⟨binary_bufs_sub .., binary_bufs_sub .., unary_bufs_sub .., unary_bufs_sub .., binary_bufs_sub .., nullary_bufs_sub .., binary_bufs_sub .., nullary_bufs_sub .., binary_bufs_sub .., nullary_bufs_sub .., unary_bufs_sub .., binary_bufs_sub .., unary_bufs_sub .., binary_bufs_sub ..⟩

theorem opsE_fresh : ∀ op ∈ (opsE : List (HloOp τ sig (Elt F))), op.fresh = ∅ := by
  intro _ h; (repeat (cases h with | head => rfl | tail _ h => ?_)); exact nomatch h

/-- Operations 129 … 150 of @main, in order. -/
abbrev opsF : List (HloOp τ sig (Elt F)) :=
  [ binary main_v56 main_v98 main_v99 ((fun a b => concatenate S1x12000x128 2 [⟨S1x12000x64, a⟩, ⟨S1x12000x64, b⟩] concatenates_S1x12000x64_S1x12000x64_S1x12000x128_d2) : (⟨S1x12000x64, .f32⟩ : BufTy).Contents (Elt F) → (⟨S1x12000x64, .f32⟩ : BufTy).Contents (Elt F) → (⟨S1x12000x128, .f32⟩ : BufTy).Contents (Elt F)),
    binary main_v99 main_arg9 main_v100 ((fun l r => Host.dotGeneral dot_S1x12000x128_S128x64_S1x12000x64_2_0_01_1_n_n none l r) : (⟨S1x12000x128, .f32⟩ : BufTy).Contents (Elt F) → (⟨S128x64, .f32⟩ : BufTy).Contents (Elt F) → (⟨S1x12000x64, .f32⟩ : BufTy).Contents (Elt F)),
    unary main_arg10 main_v101 (broadcastInDim S1x1x64 ![2] bcast_S64_S1x1x64_2 : (⟨S64, .f32⟩ : BufTy).Contents (Elt F) → (⟨S1x1x64, .f32⟩ : BufTy).Contents (Elt F)),
    unary main_v101 main_v102 (broadcastInDim S1x12000x64 ![0, 1, 2] bcast_S1x1x64_S1x12000x64_0_1_2 : (⟨S1x1x64, .f32⟩ : BufTy).Contents (Elt F) → (⟨S1x12000x64, .f32⟩ : BufTy).Contents (Elt F)),
    binary main_v100 main_v102 main_v103 (addf : (⟨S1x12000x64, .f32⟩ : BufTy).Contents (Elt F) → (⟨S1x12000x64, .f32⟩ : BufTy).Contents (Elt F) → (⟨S1x12000x64, .f32⟩ : BufTy).Contents (Elt F)),
    nullary main_cst_23 (constant S_ .f32 0x00000000#32),
    unary main_cst_23 main_v104 (broadcastInDim S1x12000x64 ![] bcast_S_S1x12000x64 : (⟨S_, .f32⟩ : BufTy).Contents (Elt F) → (⟨S1x12000x64, .f32⟩ : BufTy).Contents (Elt F)),
    binary main_v103 main_v104 main_v105 (cmpf .oge : (⟨S1x12000x64, .f32⟩ : BufTy).Contents (Elt F) → (⟨S1x12000x64, .f32⟩ : BufTy).Contents (Elt F) → (⟨S1x12000x64, .i1⟩ : BufTy).Contents (Elt F)),
    nullary main_cst_24 (constant S_ .f32 0x3E99999A#32),
    unary main_cst_24 main_v106 (broadcastInDim S1x12000x64 ![] bcast_S_S1x12000x64 : (⟨S_, .f32⟩ : BufTy).Contents (Elt F) → (⟨S1x12000x64, .f32⟩ : BufTy).Contents (Elt F)),
    binary main_v106 main_v103 main_v107 (mulf : (⟨S1x12000x64, .f32⟩ : BufTy).Contents (Elt F) → (⟨S1x12000x64, .f32⟩ : BufTy).Contents (Elt F) → (⟨S1x12000x64, .f32⟩ : BufTy).Contents (Elt F)),
    TRef.ternary (TRef.of (T := ⟨S1x12000x64, .i1⟩) main_v105) (TRef.of (T := ⟨S1x12000x64, .f32⟩) main_v103) (TRef.of (T := ⟨S1x12000x64, .f32⟩) main_v107) (TRef.of (T := ⟨S1x12000x64, .f32⟩) main_v108) select,
    TRef.binary (TRef.of (T := ⟨S1x12000x64, .f32⟩) main_v108) (TRef.of (T := ⟨S1x12000x64, .f32⟩) main_v108) (TRef.of (T := ⟨S1x12000x64, .f32⟩) main_call5_v0) mulf,
    TRef.nullary (TRef.of (T := ⟨S_, .f32⟩) main_call5_cst) (constant S_ .f32 0x00000000#32),
    TRef.binary (TRef.of (T := ⟨S1x12000x64, .f32⟩) main_call5_v0) (TRef.of (T := ⟨S_, .f32⟩) main_call5_cst) (TRef.of (T := ⟨S1x12000, .f32⟩) main_call5_v1) (fun x v => Host.reduceAdd x v reducesTo_S1x12000x64_S1x12000_d2 h_S_),
    TRef.unary (TRef.of (T := ⟨S1x12000, .f32⟩) main_call5_v1) (TRef.of (T := ⟨S1x12000x1, .f32⟩) main_call5_v2) (broadcastInDim S1x12000x1 ![0, 1] bcast_S1x12000_S1x12000x1_0_1),
    TRef.unary (TRef.of (T := ⟨S1x12000x1, .f32⟩) main_call5_v2) (TRef.of (T := ⟨S1x12000x1, .f32⟩) main_v109) Host.sqrt,
    nullary main_cst_25 (constant S_ .f32 0x358637BD#32),
    unary main_cst_25 main_v110 (broadcastInDim S1x12000x1 ![] bcast_S_S1x12000x1 : (⟨S_, .f32⟩ : BufTy).Contents (Elt F) → (⟨S1x12000x1, .f32⟩ : BufTy).Contents (Elt F)),
    binary main_v109 main_v110 main_v111 (addf : (⟨S1x12000x1, .f32⟩ : BufTy).Contents (Elt F) → (⟨S1x12000x1, .f32⟩ : BufTy).Contents (Elt F) → (⟨S1x12000x1, .f32⟩ : BufTy).Contents (Elt F)),
    unary main_v111 main_v112 (broadcastInDim S1x12000x64 ![0, 1, 2] bcast_S1x12000x1_S1x12000x64_0_1_2 : (⟨S1x12000x1, .f32⟩ : BufTy).Contents (Elt F) → (⟨S1x12000x64, .f32⟩ : BufTy).Contents (Elt F)),
    binary main_v108 main_v112 main_v113 (Host.divf : (⟨S1x12000x64, .f32⟩ : BufTy).Contents (Elt F) → (⟨S1x12000x64, .f32⟩ : BufTy).Contents (Elt F) → (⟨S1x12000x64, .f32⟩ : BufTy).Contents (Elt F)) ]

theorem opsF_sub : (opsF : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem opsF_fresh : ∀ op ∈ (opsF : List (HloOp τ sig (Elt F))), op.fresh = ∅ := by
  intro _ h; (repeat (cases h with | head => rfl | tail _ h => ?_)); exact nomatch h

/-- All of @main's operations: the chunks in order. -/
abbrev opsAll : List (HloOp τ sig (Elt F)) := opsA ++ (opsB ++ (opsC ++ (opsD ++ (opsE ++ (opsF)))))

set_option maxRecDepth 8192 in
set_option maxHeartbeats 4000000 in
theorem main_eq (c : Dev nD) : main (F := F) c = seq (opsAll (F := F)) := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_append.mpr ⟨opsA_sub, List.forall_append.mpr ⟨opsB_sub, List.forall_append.mpr ⟨opsC_sub, List.forall_append.mpr ⟨opsD_sub, List.forall_append.mpr ⟨opsE_sub, opsF_sub⟩⟩⟩⟩⟩

theorem opsAll_fresh : ∀ op ∈ (opsAll : List (HloOp τ sig (Elt F))), op.fresh = ∅ := by
  intro op h
  simp only [List.mem_append] at h
  rcases h with h | h | h | h | h | h
  · exact opsA_fresh op h
  · exact opsB_fresh op h
  · exact opsC_fresh op h
  · exact opsD_fresh op h
  · exact opsE_fresh op h
  · exact opsF_fresh op h

/-- Every weakly fair execution of @main terminates with each buffer at the fold of the operations over the launch memory. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (opsAll (F := F)) (launchContents m d) (Proc.devRef .tc b) :=
  run_seq scopedRefs_eq scopedSems_eq defs main (fun _ => opsAll) main_eq (fun _ => opsAll_sub) m ρ (fun _ => opsAll_fresh)

/-! ## The chunks, one at a time, from an arbitrary valuation

Each chunk is run from a valuation `W` whose argument buffers hold the arrays `x0 … x10` and whose buffers written by earlier
chunks and still read hold their stages; it leaves the arguments as they were and the buffers later chunks read at their stages. -/

/-- The eleven argument buffers of a valuation hold the given arrays. -/
structure Args (W : Valuation τ sig (Elt F)) (x0 : (⟨S1x12000x64, .f32⟩ : BufTy).Contents (Elt F)) (x1 : (⟨S12000x12000, .f32⟩ : BufTy).Contents (Elt F)) (x2 : (⟨S12000x32, .i32⟩ : BufTy).Contents (Elt F)) (x3 : (⟨S64x64, .f32⟩ : BufTy).Contents (Elt F)) (x4 : (⟨S64, .f32⟩ : BufTy).Contents (Elt F)) (x5 : (⟨S128x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S128x64, .f32⟩ : BufTy).Contents (Elt F)) (x10 : (⟨S64, .f32⟩ : BufTy).Contents (Elt F)) : Prop where
  a0 : W (Proc.devRef .tc main_arg0) = x0
  a1 : W (Proc.devRef .tc main_arg1) = x1
  a2 : W (Proc.devRef .tc main_arg2) = x2
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10

section Chunks

variable {x0 : (⟨S1x12000x64, .f32⟩ : BufTy).Contents (Elt F)} {x1 : (⟨S12000x12000, .f32⟩ : BufTy).Contents (Elt F)} {x2 : (⟨S12000x32, .i32⟩ : BufTy).Contents (Elt F)} {x3 : (⟨S64x64, .f32⟩ : BufTy).Contents (Elt F)} {x4 : (⟨S64, .f32⟩ : BufTy).Contents (Elt F)} {x5 : (⟨S128x64, .f32⟩ : BufTy).Contents (Elt F)} {x6 : (⟨S64, .f32⟩ : BufTy).Contents (Elt F)} {x7 : (⟨S64x64, .f32⟩ : BufTy).Contents (Elt F)} {x8 : (⟨S64, .f32⟩ : BufTy).Contents (Elt F)} {x9 : (⟨S128x64, .f32⟩ : BufTy).Contents (Elt F)} {x10 : (⟨S64, .f32⟩ : BufTy).Contents (Elt F)}

theorem A_keep_main_arg0 (W : Valuation τ sig (Elt F)) : after opsA W (Proc.devRef .tc main_arg0) = W (Proc.devRef .tc main_arg0) := by
  after_results_simp <;> rfl
theorem A_keep_main_arg1 (W : Valuation τ sig (Elt F)) : after opsA W (Proc.devRef .tc main_arg1) = W (Proc.devRef .tc main_arg1) := by
  after_results_simp <;> rfl
theorem A_keep_main_arg2 (W : Valuation τ sig (Elt F)) : after opsA W (Proc.devRef .tc main_arg2) = W (Proc.devRef .tc main_arg2) := by
  after_results_simp <;> rfl
theorem A_keep_main_arg3 (W : Valuation τ sig (Elt F)) : after opsA W (Proc.devRef .tc main_arg3) = W (Proc.devRef .tc main_arg3) := by
  after_results_simp <;> rfl
theorem A_keep_main_arg4 (W : Valuation τ sig (Elt F)) : after opsA W (Proc.devRef .tc main_arg4) = W (Proc.devRef .tc main_arg4) := by
  after_results_simp <;> rfl
theorem A_keep_main_arg5 (W : Valuation τ sig (Elt F)) : after opsA W (Proc.devRef .tc main_arg5) = W (Proc.devRef .tc main_arg5) := by
  after_results_simp <;> rfl
theorem A_keep_main_arg6 (W : Valuation τ sig (Elt F)) : after opsA W (Proc.devRef .tc main_arg6) = W (Proc.devRef .tc main_arg6) := by
  after_results_simp <;> rfl
theorem A_keep_main_arg7 (W : Valuation τ sig (Elt F)) : after opsA W (Proc.devRef .tc main_arg7) = W (Proc.devRef .tc main_arg7) := by
  after_results_simp <;> rfl
theorem A_keep_main_arg8 (W : Valuation τ sig (Elt F)) : after opsA W (Proc.devRef .tc main_arg8) = W (Proc.devRef .tc main_arg8) := by
  after_results_simp <;> rfl
theorem A_keep_main_arg9 (W : Valuation τ sig (Elt F)) : after opsA W (Proc.devRef .tc main_arg9) = W (Proc.devRef .tc main_arg9) := by
  after_results_simp <;> rfl
theorem A_keep_main_arg10 (W : Valuation τ sig (Elt F)) : after opsA W (Proc.devRef .tc main_arg10) = W (Proc.devRef .tc main_arg10) := by
  after_results_simp <;> rfl

/-- No operation of chunk A writes an argument. -/
theorem A_args (W : Valuation τ sig (Elt F)) (ha : Args W x0 x1 x2 x3 x4 x5 x6 x7 x8 x9 x10) : Args (after opsA W) x0 x1 x2 x3 x4 x5 x6 x7 x8 x9 x10 :=
  ⟨(A_keep_main_arg0 W).trans ha.a0, (A_keep_main_arg1 W).trans ha.a1, (A_keep_main_arg2 W).trans ha.a2, (A_keep_main_arg3 W).trans ha.a3, (A_keep_main_arg4 W).trans ha.a4, (A_keep_main_arg5 W).trans ha.a5, (A_keep_main_arg6 W).trans ha.a6, (A_keep_main_arg7 W).trans ha.a7, (A_keep_main_arg8 W).trans ha.a8, (A_keep_main_arg9 W).trans ha.a9, (A_keep_main_arg10 W).trans ha.a10⟩

/-- Chunk A leaves main_v29 at its stage. -/
theorem A_main_v29 (W : Valuation τ sig (Elt F)) (ha : Args W x0 x1 x2 x3 x4 x5 x6 x7 x8 x9 x10) :
    after opsA W (Proc.devRef .tc main_v29) = val_main_v29 (F := F) := by
  after_results_simp
  rfl

/-- Chunk A leaves main_v30 at its stage. -/
theorem A_main_v30 (W : Valuation τ sig (Elt F)) (ha : Args W x0 x1 x2 x3 x4 x5 x6 x7 x8 x9 x10) :
    after opsA W (Proc.devRef .tc main_v30) = val_main_v30 (F := F) x2 := by
  after_results_simp
  rw [ha.a2]
  rfl

/-- Chunk A leaves main_v15 at its stage. -/
theorem A_main_v15 (W : Valuation τ sig (Elt F)) (ha : Args W x0 x1 x2 x3 x4 x5 x6 x7 x8 x9 x10) :
    after opsA W (Proc.devRef .tc main_v15) = val_main_v15 (F := F) x0 x2 x3 x4 := by
  after_results_simp
  rw [ha.a0, ha.a2, ha.a3, ha.a4]
  rfl

theorem B_keep_main_arg0 (W : Valuation τ sig (Elt F)) : after opsB W (Proc.devRef .tc main_arg0) = W (Proc.devRef .tc main_arg0) := by
  after_results_simp <;> rfl
theorem B_keep_main_arg1 (W : Valuation τ sig (Elt F)) : after opsB W (Proc.devRef .tc main_arg1) = W (Proc.devRef .tc main_arg1) := by
  after_results_simp <;> rfl
theorem B_keep_main_arg2 (W : Valuation τ sig (Elt F)) : after opsB W (Proc.devRef .tc main_arg2) = W (Proc.devRef .tc main_arg2) := by
  after_results_simp <;> rfl
theorem B_keep_main_arg3 (W : Valuation τ sig (Elt F)) : after opsB W (Proc.devRef .tc main_arg3) = W (Proc.devRef .tc main_arg3) := by
  after_results_simp <;> rfl
theorem B_keep_main_arg4 (W : Valuation τ sig (Elt F)) : after opsB W (Proc.devRef .tc main_arg4) = W (Proc.devRef .tc main_arg4) := by
  after_results_simp <;> rfl
theorem B_keep_main_arg5 (W : Valuation τ sig (Elt F)) : after opsB W (Proc.devRef .tc main_arg5) = W (Proc.devRef .tc main_arg5) := by
  after_results_simp <;> rfl
theorem B_keep_main_arg6 (W : Valuation τ sig (Elt F)) : after opsB W (Proc.devRef .tc main_arg6) = W (Proc.devRef .tc main_arg6) := by
  after_results_simp <;> rfl
theorem B_keep_main_arg7 (W : Valuation τ sig (Elt F)) : after opsB W (Proc.devRef .tc main_arg7) = W (Proc.devRef .tc main_arg7) := by
  after_results_simp <;> rfl
theorem B_keep_main_arg8 (W : Valuation τ sig (Elt F)) : after opsB W (Proc.devRef .tc main_arg8) = W (Proc.devRef .tc main_arg8) := by
  after_results_simp <;> rfl
theorem B_keep_main_arg9 (W : Valuation τ sig (Elt F)) : after opsB W (Proc.devRef .tc main_arg9) = W (Proc.devRef .tc main_arg9) := by
  after_results_simp <;> rfl
theorem B_keep_main_arg10 (W : Valuation τ sig (Elt F)) : after opsB W (Proc.devRef .tc main_arg10) = W (Proc.devRef .tc main_arg10) := by
  after_results_simp <;> rfl

/-- No operation of chunk B writes an argument. -/
theorem B_args (W : Valuation τ sig (Elt F)) (ha : Args W x0 x1 x2 x3 x4 x5 x6 x7 x8 x9 x10) : Args (after opsB W) x0 x1 x2 x3 x4 x5 x6 x7 x8 x9 x10 :=
  ⟨(B_keep_main_arg0 W).trans ha.a0, (B_keep_main_arg1 W).trans ha.a1, (B_keep_main_arg2 W).trans ha.a2, (B_keep_main_arg3 W).trans ha.a3, (B_keep_main_arg4 W).trans ha.a4, (B_keep_main_arg5 W).trans ha.a5, (B_keep_main_arg6 W).trans ha.a6, (B_keep_main_arg7 W).trans ha.a7, (B_keep_main_arg8 W).trans ha.a8, (B_keep_main_arg9 W).trans ha.a9, (B_keep_main_arg10 W).trans ha.a10⟩

/-- Chunk B leaves main_v41 at its stage. -/
theorem B_main_v41 (W : Valuation τ sig (Elt F)) (ha : Args W x0 x1 x2 x3 x4 x5 x6 x7 x8 x9 x10) (h_main_v15 : W (Proc.devRef .tc main_v15) = val_main_v15 (F := F) x0 x2 x3 x4) (h_main_v29 : W (Proc.devRef .tc main_v29) = val_main_v29 (F := F)) (h_main_v30 : W (Proc.devRef .tc main_v30) = val_main_v30 (F := F) x2) :
    after opsB W (Proc.devRef .tc main_v41) = val_main_v41 (F := F) x0 x1 x2 x3 x4 := by
  after_results_simp
  rw [h_main_v15, h_main_v29, h_main_v30, ha.a1]
  rfl

theorem C_keep_main_arg0 (W : Valuation τ sig (Elt F)) : after opsC W (Proc.devRef .tc main_arg0) = W (Proc.devRef .tc main_arg0) := by
  after_results_simp <;> rfl
theorem C_keep_main_arg1 (W : Valuation τ sig (Elt F)) : after opsC W (Proc.devRef .tc main_arg1) = W (Proc.devRef .tc main_arg1) := by
  after_results_simp <;> rfl
theorem C_keep_main_arg2 (W : Valuation τ sig (Elt F)) : after opsC W (Proc.devRef .tc main_arg2) = W (Proc.devRef .tc main_arg2) := by
  after_results_simp <;> rfl
theorem C_keep_main_arg3 (W : Valuation τ sig (Elt F)) : after opsC W (Proc.devRef .tc main_arg3) = W (Proc.devRef .tc main_arg3) := by
  after_results_simp <;> rfl
theorem C_keep_main_arg4 (W : Valuation τ sig (Elt F)) : after opsC W (Proc.devRef .tc main_arg4) = W (Proc.devRef .tc main_arg4) := by
  after_results_simp <;> rfl
theorem C_keep_main_arg5 (W : Valuation τ sig (Elt F)) : after opsC W (Proc.devRef .tc main_arg5) = W (Proc.devRef .tc main_arg5) := by
  after_results_simp <;> rfl
theorem C_keep_main_arg6 (W : Valuation τ sig (Elt F)) : after opsC W (Proc.devRef .tc main_arg6) = W (Proc.devRef .tc main_arg6) := by
  after_results_simp <;> rfl
theorem C_keep_main_arg7 (W : Valuation τ sig (Elt F)) : after opsC W (Proc.devRef .tc main_arg7) = W (Proc.devRef .tc main_arg7) := by
  after_results_simp <;> rfl
theorem C_keep_main_arg8 (W : Valuation τ sig (Elt F)) : after opsC W (Proc.devRef .tc main_arg8) = W (Proc.devRef .tc main_arg8) := by
  after_results_simp <;> rfl
theorem C_keep_main_arg9 (W : Valuation τ sig (Elt F)) : after opsC W (Proc.devRef .tc main_arg9) = W (Proc.devRef .tc main_arg9) := by
  after_results_simp <;> rfl
theorem C_keep_main_arg10 (W : Valuation τ sig (Elt F)) : after opsC W (Proc.devRef .tc main_arg10) = W (Proc.devRef .tc main_arg10) := by
  after_results_simp <;> rfl

/-- No operation of chunk C writes an argument. -/
theorem C_args (W : Valuation τ sig (Elt F)) (ha : Args W x0 x1 x2 x3 x4 x5 x6 x7 x8 x9 x10) : Args (after opsC W) x0 x1 x2 x3 x4 x5 x6 x7 x8 x9 x10 :=
  ⟨(C_keep_main_arg0 W).trans ha.a0, (C_keep_main_arg1 W).trans ha.a1, (C_keep_main_arg2 W).trans ha.a2, (C_keep_main_arg3 W).trans ha.a3, (C_keep_main_arg4 W).trans ha.a4, (C_keep_main_arg5 W).trans ha.a5, (C_keep_main_arg6 W).trans ha.a6, (C_keep_main_arg7 W).trans ha.a7, (C_keep_main_arg8 W).trans ha.a8, (C_keep_main_arg9 W).trans ha.a9, (C_keep_main_arg10 W).trans ha.a10⟩

/-- Chunk C leaves main_v56 at its stage. -/
theorem C_main_v56 (W : Valuation τ sig (Elt F)) (ha : Args W x0 x1 x2 x3 x4 x5 x6 x7 x8 x9 x10) (h_main_v41 : W (Proc.devRef .tc main_v41) = val_main_v41 (F := F) x0 x1 x2 x3 x4) :
    after opsC W (Proc.devRef .tc main_v56) = val_main_v56 (F := F) x0 x1 x2 x3 x4 x5 x6 := by
  after_results_simp
  rw [h_main_v41, ha.a0, ha.a5, ha.a6]
  rfl

theorem D_keep_main_arg0 (W : Valuation τ sig (Elt F)) : after opsD W (Proc.devRef .tc main_arg0) = W (Proc.devRef .tc main_arg0) := by
  after_results_simp <;> rfl
theorem D_keep_main_arg1 (W : Valuation τ sig (Elt F)) : after opsD W (Proc.devRef .tc main_arg1) = W (Proc.devRef .tc main_arg1) := by
  after_results_simp <;> rfl
theorem D_keep_main_arg2 (W : Valuation τ sig (Elt F)) : after opsD W (Proc.devRef .tc main_arg2) = W (Proc.devRef .tc main_arg2) := by
  after_results_simp <;> rfl
theorem D_keep_main_arg3 (W : Valuation τ sig (Elt F)) : after opsD W (Proc.devRef .tc main_arg3) = W (Proc.devRef .tc main_arg3) := by
  after_results_simp <;> rfl
theorem D_keep_main_arg4 (W : Valuation τ sig (Elt F)) : after opsD W (Proc.devRef .tc main_arg4) = W (Proc.devRef .tc main_arg4) := by
  after_results_simp <;> rfl
theorem D_keep_main_arg5 (W : Valuation τ sig (Elt F)) : after opsD W (Proc.devRef .tc main_arg5) = W (Proc.devRef .tc main_arg5) := by
  after_results_simp <;> rfl
theorem D_keep_main_arg6 (W : Valuation τ sig (Elt F)) : after opsD W (Proc.devRef .tc main_arg6) = W (Proc.devRef .tc main_arg6) := by
  after_results_simp <;> rfl
theorem D_keep_main_arg7 (W : Valuation τ sig (Elt F)) : after opsD W (Proc.devRef .tc main_arg7) = W (Proc.devRef .tc main_arg7) := by
  after_results_simp <;> rfl
theorem D_keep_main_arg8 (W : Valuation τ sig (Elt F)) : after opsD W (Proc.devRef .tc main_arg8) = W (Proc.devRef .tc main_arg8) := by
  after_results_simp <;> rfl
theorem D_keep_main_arg9 (W : Valuation τ sig (Elt F)) : after opsD W (Proc.devRef .tc main_arg9) = W (Proc.devRef .tc main_arg9) := by
  after_results_simp <;> rfl
theorem D_keep_main_arg10 (W : Valuation τ sig (Elt F)) : after opsD W (Proc.devRef .tc main_arg10) = W (Proc.devRef .tc main_arg10) := by
  after_results_simp <;> rfl

/-- No operation of chunk D writes an argument. -/
theorem D_args (W : Valuation τ sig (Elt F)) (ha : Args W x0 x1 x2 x3 x4 x5 x6 x7 x8 x9 x10) : Args (after opsD W) x0 x1 x2 x3 x4 x5 x6 x7 x8 x9 x10 :=
  ⟨(D_keep_main_arg0 W).trans ha.a0, (D_keep_main_arg1 W).trans ha.a1, (D_keep_main_arg2 W).trans ha.a2, (D_keep_main_arg3 W).trans ha.a3, (D_keep_main_arg4 W).trans ha.a4, (D_keep_main_arg5 W).trans ha.a5, (D_keep_main_arg6 W).trans ha.a6, (D_keep_main_arg7 W).trans ha.a7, (D_keep_main_arg8 W).trans ha.a8, (D_keep_main_arg9 W).trans ha.a9, (D_keep_main_arg10 W).trans ha.a10⟩

/-- Chunk D leaves main_v86 at its stage. -/
theorem D_main_v86 (W : Valuation τ sig (Elt F)) (ha : Args W x0 x1 x2 x3 x4 x5 x6 x7 x8 x9 x10) :
    after opsD W (Proc.devRef .tc main_v86) = val_main_v86 (F := F) := by
  after_results_simp
  rfl

/-- Chunk D leaves main_v87 at its stage. -/
theorem D_main_v87 (W : Valuation τ sig (Elt F)) (ha : Args W x0 x1 x2 x3 x4 x5 x6 x7 x8 x9 x10) :
    after opsD W (Proc.devRef .tc main_v87) = val_main_v87 (F := F) x2 := by
  after_results_simp
  rw [ha.a2]
  rfl

/-- Chunk D leaves main_v72 at its stage. -/
theorem D_main_v72 (W : Valuation τ sig (Elt F)) (ha : Args W x0 x1 x2 x3 x4 x5 x6 x7 x8 x9 x10) (h_main_v56 : W (Proc.devRef .tc main_v56) = val_main_v56 (F := F) x0 x1 x2 x3 x4 x5 x6) :
    after opsD W (Proc.devRef .tc main_v72) = val_main_v72 (F := F) x0 x1 x2 x3 x4 x5 x6 x7 x8 := by
  after_results_simp
  rw [h_main_v56, ha.a2, ha.a7, ha.a8]
  rfl

/-- Chunk D does not write main_v56. -/
theorem D_keep_main_v56 (W : Valuation τ sig (Elt F)) : after opsD W (Proc.devRef .tc main_v56) = W (Proc.devRef .tc main_v56) := by
  after_results_simp <;> rfl

theorem E_keep_main_arg0 (W : Valuation τ sig (Elt F)) : after opsE W (Proc.devRef .tc main_arg0) = W (Proc.devRef .tc main_arg0) := by
  after_results_simp <;> rfl
theorem E_keep_main_arg1 (W : Valuation τ sig (Elt F)) : after opsE W (Proc.devRef .tc main_arg1) = W (Proc.devRef .tc main_arg1) := by
  after_results_simp <;> rfl
theorem E_keep_main_arg2 (W : Valuation τ sig (Elt F)) : after opsE W (Proc.devRef .tc main_arg2) = W (Proc.devRef .tc main_arg2) := by
  after_results_simp <;> rfl
theorem E_keep_main_arg3 (W : Valuation τ sig (Elt F)) : after opsE W (Proc.devRef .tc main_arg3) = W (Proc.devRef .tc main_arg3) := by
  after_results_simp <;> rfl
theorem E_keep_main_arg4 (W : Valuation τ sig (Elt F)) : after opsE W (Proc.devRef .tc main_arg4) = W (Proc.devRef .tc main_arg4) := by
  after_results_simp <;> rfl
theorem E_keep_main_arg5 (W : Valuation τ sig (Elt F)) : after opsE W (Proc.devRef .tc main_arg5) = W (Proc.devRef .tc main_arg5) := by
  after_results_simp <;> rfl
theorem E_keep_main_arg6 (W : Valuation τ sig (Elt F)) : after opsE W (Proc.devRef .tc main_arg6) = W (Proc.devRef .tc main_arg6) := by
  after_results_simp <;> rfl
theorem E_keep_main_arg7 (W : Valuation τ sig (Elt F)) : after opsE W (Proc.devRef .tc main_arg7) = W (Proc.devRef .tc main_arg7) := by
  after_results_simp <;> rfl
theorem E_keep_main_arg8 (W : Valuation τ sig (Elt F)) : after opsE W (Proc.devRef .tc main_arg8) = W (Proc.devRef .tc main_arg8) := by
  after_results_simp <;> rfl
theorem E_keep_main_arg9 (W : Valuation τ sig (Elt F)) : after opsE W (Proc.devRef .tc main_arg9) = W (Proc.devRef .tc main_arg9) := by
  after_results_simp <;> rfl
theorem E_keep_main_arg10 (W : Valuation τ sig (Elt F)) : after opsE W (Proc.devRef .tc main_arg10) = W (Proc.devRef .tc main_arg10) := by
  after_results_simp <;> rfl

/-- No operation of chunk E writes an argument. -/
theorem E_args (W : Valuation τ sig (Elt F)) (ha : Args W x0 x1 x2 x3 x4 x5 x6 x7 x8 x9 x10) : Args (after opsE W) x0 x1 x2 x3 x4 x5 x6 x7 x8 x9 x10 :=
  ⟨(E_keep_main_arg0 W).trans ha.a0, (E_keep_main_arg1 W).trans ha.a1, (E_keep_main_arg2 W).trans ha.a2, (E_keep_main_arg3 W).trans ha.a3, (E_keep_main_arg4 W).trans ha.a4, (E_keep_main_arg5 W).trans ha.a5, (E_keep_main_arg6 W).trans ha.a6, (E_keep_main_arg7 W).trans ha.a7, (E_keep_main_arg8 W).trans ha.a8, (E_keep_main_arg9 W).trans ha.a9, (E_keep_main_arg10 W).trans ha.a10⟩

/-- Chunk E does not write main_v56. -/
theorem E_keep_main_v56 (W : Valuation τ sig (Elt F)) : after opsE W (Proc.devRef .tc main_v56) = W (Proc.devRef .tc main_v56) := by
  after_results_simp <;> rfl

/-- Chunk E leaves main_v98 at its stage. -/
theorem E_main_v98 (W : Valuation τ sig (Elt F)) (ha : Args W x0 x1 x2 x3 x4 x5 x6 x7 x8 x9 x10) (h_main_v72 : W (Proc.devRef .tc main_v72) = val_main_v72 (F := F) x0 x1 x2 x3 x4 x5 x6 x7 x8) (h_main_v86 : W (Proc.devRef .tc main_v86) = val_main_v86 (F := F)) (h_main_v87 : W (Proc.devRef .tc main_v87) = val_main_v87 (F := F) x2) :
    after opsE W (Proc.devRef .tc main_v98) = val_main_v98 (F := F) x0 x1 x2 x3 x4 x5 x6 x7 x8 := by
  after_results_simp
  rw [h_main_v72, h_main_v86, h_main_v87, ha.a1]
  rfl

theorem F_keep_main_arg0 (W : Valuation τ sig (Elt F)) : after opsF W (Proc.devRef .tc main_arg0) = W (Proc.devRef .tc main_arg0) := by
  after_results_simp <;> rfl
theorem F_keep_main_arg1 (W : Valuation τ sig (Elt F)) : after opsF W (Proc.devRef .tc main_arg1) = W (Proc.devRef .tc main_arg1) := by
  after_results_simp <;> rfl
theorem F_keep_main_arg2 (W : Valuation τ sig (Elt F)) : after opsF W (Proc.devRef .tc main_arg2) = W (Proc.devRef .tc main_arg2) := by
  after_results_simp <;> rfl
theorem F_keep_main_arg3 (W : Valuation τ sig (Elt F)) : after opsF W (Proc.devRef .tc main_arg3) = W (Proc.devRef .tc main_arg3) := by
  after_results_simp <;> rfl
theorem F_keep_main_arg4 (W : Valuation τ sig (Elt F)) : after opsF W (Proc.devRef .tc main_arg4) = W (Proc.devRef .tc main_arg4) := by
  after_results_simp <;> rfl
theorem F_keep_main_arg5 (W : Valuation τ sig (Elt F)) : after opsF W (Proc.devRef .tc main_arg5) = W (Proc.devRef .tc main_arg5) := by
  after_results_simp <;> rfl
theorem F_keep_main_arg6 (W : Valuation τ sig (Elt F)) : after opsF W (Proc.devRef .tc main_arg6) = W (Proc.devRef .tc main_arg6) := by
  after_results_simp <;> rfl
theorem F_keep_main_arg7 (W : Valuation τ sig (Elt F)) : after opsF W (Proc.devRef .tc main_arg7) = W (Proc.devRef .tc main_arg7) := by
  after_results_simp <;> rfl
theorem F_keep_main_arg8 (W : Valuation τ sig (Elt F)) : after opsF W (Proc.devRef .tc main_arg8) = W (Proc.devRef .tc main_arg8) := by
  after_results_simp <;> rfl
theorem F_keep_main_arg9 (W : Valuation τ sig (Elt F)) : after opsF W (Proc.devRef .tc main_arg9) = W (Proc.devRef .tc main_arg9) := by
  after_results_simp <;> rfl
theorem F_keep_main_arg10 (W : Valuation τ sig (Elt F)) : after opsF W (Proc.devRef .tc main_arg10) = W (Proc.devRef .tc main_arg10) := by
  after_results_simp <;> rfl

/-- No operation of chunk F writes an argument. -/
theorem F_args (W : Valuation τ sig (Elt F)) (ha : Args W x0 x1 x2 x3 x4 x5 x6 x7 x8 x9 x10) : Args (after opsF W) x0 x1 x2 x3 x4 x5 x6 x7 x8 x9 x10 :=
  ⟨(F_keep_main_arg0 W).trans ha.a0, (F_keep_main_arg1 W).trans ha.a1, (F_keep_main_arg2 W).trans ha.a2, (F_keep_main_arg3 W).trans ha.a3, (F_keep_main_arg4 W).trans ha.a4, (F_keep_main_arg5 W).trans ha.a5, (F_keep_main_arg6 W).trans ha.a6, (F_keep_main_arg7 W).trans ha.a7, (F_keep_main_arg8 W).trans ha.a8, (F_keep_main_arg9 W).trans ha.a9, (F_keep_main_arg10 W).trans ha.a10⟩

/-- Chunk F leaves main_v113 at its stage. -/
theorem F_main_v113 (W : Valuation τ sig (Elt F)) (ha : Args W x0 x1 x2 x3 x4 x5 x6 x7 x8 x9 x10) (h_main_v56 : W (Proc.devRef .tc main_v56) = val_main_v56 (F := F) x0 x1 x2 x3 x4 x5 x6) (h_main_v98 : W (Proc.devRef .tc main_v98) = val_main_v98 (F := F) x0 x1 x2 x3 x4 x5 x6 x7 x8) :
    after opsF W (Proc.devRef .tc main_v113) = val_main_v113 (F := F) x0 x1 x2 x3 x4 x5 x6 x7 x8 x9 x10 := by
  after_results_simp
  rw [h_main_v56, h_main_v98, ha.a9, ha.a10]
  rfl

/-- The whole line is the chunks run in order. -/
theorem after_opsAll (W : Valuation τ sig (Elt F)) :
    after opsAll W = after opsF (after opsE (after opsD (after opsC (after opsB (after opsA W))))) := by
  unfold opsAll
  simp only [StableHlo.after_append]

/-- From a valuation with the arguments at `x0 … x10`, the whole line leaves the result buffer at its stage of them and the
    arguments as they were. -/
theorem after_all (W : Valuation τ sig (Elt F)) (ha : Args W x0 x1 x2 x3 x4 x5 x6 x7 x8 x9 x10) :
    after opsAll W (Proc.devRef .tc main_v113) = val_main_v113 (F := F) x0 x1 x2 x3 x4 x5 x6 x7 x8 x9 x10 ∧ Args (after opsAll W) x0 x1 x2 x3 x4 x5 x6 x7 x8 x9 x10 := by
  rw [after_opsAll]
  have hA_main_v29 := A_main_v29 W ha
  have hA_main_v30 := A_main_v30 W ha
  have hA_main_v15 := A_main_v15 W ha
  have aA := A_args W ha
  have hB_main_v41 := B_main_v41 (after opsA W) aA hA_main_v15 hA_main_v29 hA_main_v30
  have aB := B_args (after opsA W) aA
  have hC_main_v56 := C_main_v56 (after opsB (after opsA W)) aB hB_main_v41
  have aC := C_args (after opsB (after opsA W)) aB
  have hD_main_v86 := D_main_v86 (after opsC (after opsB (after opsA W))) aC
  have hD_main_v87 := D_main_v87 (after opsC (after opsB (after opsA W))) aC
  have hD_main_v72 := D_main_v72 (after opsC (after opsB (after opsA W))) aC hC_main_v56
  have hD_main_v56 := (D_keep_main_v56 (after opsC (after opsB (after opsA W)))).trans hC_main_v56
  have aD := D_args (after opsC (after opsB (after opsA W))) aC
  have hE_main_v56 := (E_keep_main_v56 (after opsD (after opsC (after opsB (after opsA W))))).trans hD_main_v56
  have hE_main_v98 := E_main_v98 (after opsD (after opsC (after opsB (after opsA W)))) aD hD_main_v72 hD_main_v86 hD_main_v87
  have aE := E_args (after opsD (after opsC (after opsB (after opsA W)))) aD
  have hF_main_v113 := F_main_v113 (after opsE (after opsD (after opsC (after opsB (after opsA W))))) aE hE_main_v56 hE_main_v98
  have aF := F_args (after opsE (after opsD (after opsC (after opsB (after opsA W))))) aE
  exact ⟨hF_main_v113, aF⟩

end Chunks

/-- The reference's run: the result at its stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v113) = val_main_v113 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  exact (θ_run defs _ _).mono (fun _ h c => by
      obtain ⟨hv, ha⟩ := after_all (launchContents m c) (x0 := m ((c.tc : Thread nD τ).loc main_arg0))
        ⟨rfl, rfl, rfl, rfl, rfl, rfl, rfl, rfl, rfl, rfl, rfl⟩
      exact ⟨(h c main_v113).trans hv, (h c main_arg0).trans ha.a0, (h c main_arg1).trans ha.a1, (h c main_arg2).trans ha.a2, (h c main_arg3).trans ha.a3, (h c main_arg4).trans ha.a4, (h c main_arg5).trans ha.a5, (h c main_arg6).trans ha.a6, (h c main_arg7).trans ha.a7, (h c main_arg8).trans ha.a8, (h c main_arg9).trans ha.a9, (h c main_arg10).trans ha.a10⟩)
    (run_after m ρ)

end Cert.RefRun

end
-- ==== Proof.RefTwo.lean ====
/-
  The idealized reference's second layer is its first layer's text again: the stage of its last value, `val_main_v113`,
  is the stage `val_main_v56` applied to the first layer's result with the second layer's matrices and biases, the weight
  matrix and the neighbour table the same.
-/
import proofs.«120848_j4509715661236_1_alg».proof.Proof.PatchedRefRead

noncomputable section

namespace Cert.RefTwo

open Idealize.ShloMosaic
open Cert.ReferenceIdeal Cert.ReferenceIdeal.Gen Cert.ReferenceIdeal.ReadP

variable {F : FTy → Type} [FloatOps F]

/-- Two layers. -/
theorem two_layers (x0 : (⟨S1x12000x64, .f32⟩ : BufTy).Contents (Elt F)) (x1 : (⟨S12000x12000, .f32⟩ : BufTy).Contents (Elt F)) (x2 : (⟨S12000x32, .i32⟩ : BufTy).Contents (Elt F)) (x3 : (⟨S64x64, .f32⟩ : BufTy).Contents (Elt F)) (x4 : (⟨S64, .f32⟩ : BufTy).Contents (Elt F)) (x5 : (⟨S128x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S128x64, .f32⟩ : BufTy).Contents (Elt F)) (x10 : (⟨S64, .f32⟩ : BufTy).Contents (Elt F)) :
    val_main_v113 (F := F) x0 x1 x2 x3 x4 x5 x6 x7 x8 x9 x10
      = val_main_v56 (F := F) (val_main_v56 (F := F) x0 x1 x2 x3 x4 x5 x6) x1 x2 x7 x8 x9 x10 := by
  rfl

end Cert.RefTwo

end
-- ==== Proof.RefLayer.lean ====
/-
  One layer of the idealized reference, read on the extended reals: the stage `val_main_v56` of the reference's first
  56 values, as a function of ANY seven arrays (features `[1, 12000, 64]`, weight matrix, neighbour table, the two
  matrices and biases), is `LayerSpec.layer` of the features read as `[12000, 64]`, with the neighbours' rows named by
  the stage of start indices `val_main_v5` and the edge weights the stage `val_main_v32`, put back as `[1, 12000, 64]`.
  The reference gathers the neighbours' feature rows first and applies the dense map to each gathered row; the
  specification applies it to the table and gathers rows of the result: entry by entry the same sum.
-/
import proofs.«120848_j4509715661236_1_alg».proof.Proof.PatchedRefRead
import proofs.«120848_j4509715661236_1_alg».proof.Proof.GatherRows
import proofs.«120848_j4509715661236_1_alg».proof.Proof.LayerSpec
import Idealize.ShloMosaic.Lib.Pipeline.Value
import Idealize.ShloMosaic.Lib.ValueIdx
import Idealize.ShloMosaic.Lib.ValueLayout
import Idealize.ShloMosaic.PureOps.Ideal.Laws

noncomputable section

namespace Cert.RefLayer

open Idealize.ShloMosaic Idealize.ShloMosaic.ValueIdx
open Cert.LayerSpec Cert.ReferenceIdeal Cert.ReferenceIdeal.Gen Cert.ReferenceIdeal.ReadP

/-! The stages of the reference's first layer read at explicit coordinates, outermost last: each is the previous one
    pushed through one operation, with the composed index functions identified with the coordinates. -/

section Stages

variable (X : (⟨S1x12000x64, .f32⟩ : BufTy).Contents (Elt Ideal)) (Wt : (⟨S12000x12000, .f32⟩ : BufTy).Contents (Elt Ideal))
  (nbr : (⟨S12000x32, .i32⟩ : BufTy).Contents (Elt Ideal)) (Qw : (⟨S64x64, .f32⟩ : BufTy).Contents (Elt Ideal))
  (Qb : (⟨S64, .f32⟩ : BufTy).Contents (Elt Ideal)) (Ww : (⟨S128x64, .f32⟩ : BufTy).Contents (Elt Ideal))
  (Wb : (⟨S64, .f32⟩ : BufTy).Contents (Elt Ideal))

/-- The gathered feature rows: entry `(b, n, k, c)` is the features at the row the start index names. -/
theorem v6_at (b : Fin 1) (n : Fin 12000) (k : Fin 32) (c : Fin 64) :
    val_main_v6 (F := Ideal) X nbr (ix4 b n k c) = X (ix3 b (rowOf (val_main_v5 (F := Ideal) nbr) n k) c) := by
  unfold val_main_v6
  exact Cert.GatherRows.reference_rows X (val_main_v5 (F := Ideal) nbr) b n k c

/-- The first dense map on a gathered row: the sum over the 64 features of the row times the matrix. -/
theorem v7_at (b : Fin 1) (n : Fin 12000) (k : Fin 32) (h : Fin 64) :
    val_main_v7 (F := Ideal) X nbr Qw (ix4 b n k h)
      = ∑ c : Fin 64, X (ix3 b (rowOf (val_main_v5 (F := Ideal) nbr) n k) c) * Qw (ix2 c h) := by
  rw [val_main_v7_apply]
  refine Finset.sum_congr rfl fun c _ => ?_
  have e1 : lidx_main_v7 (ix4 b n k h) c = ix4 b n k c :=
    funext fun a => Fin.ext (by match a with | ⟨0, _⟩ => rfl | ⟨1, _⟩ => rfl | ⟨2, _⟩ => rfl | ⟨3, _⟩ => rfl)
  have e2 : ridx_main_v7 (ix4 b n k h) c = ix2 c h :=
    funext fun a => Fin.ext (by match a with | ⟨0, _⟩ => rfl | ⟨1, _⟩ => rfl)
  rw [e1, e2, v6_at]

/-- The same with the bias of the feature added. -/
theorem v10_at (b : Fin 1) (n : Fin 12000) (k : Fin 32) (h : Fin 64) :
    val_main_v10 (F := Ideal) X nbr Qw Qb (ix4 b n k h)
      = (∑ c : Fin 64, X (ix3 b (rowOf (val_main_v5 (F := Ideal) nbr) n k) c) * Qw (ix2 c h)) + Qb (ix1 h) := by
  have e : idx_main_v8 (idx_main_v9 (ix4 b n k h)) = ix1 h :=
    funext fun a => Fin.ext (by match a with | ⟨0, _⟩ => rfl)
  rw [val_main_v10_apply, val_main_v9_apply, val_main_v8_apply, e, v7_at]
  rfl

/-- The compare, the scaled copy and the select are the leaky rectifier, at any index. -/
theorem v15_leaky (i : S1x12000x32x64.Idx) :
    val_main_v15 (F := Ideal) X nbr Qw Qb i = leaky (val_main_v10 (F := Ideal) X nbr Qw Qb i) := by
  rw [val_main_v15_apply, val_main_v12_apply, val_main_v14_apply, val_main_v11_apply, val_main_v13_apply]
  rfl

/-- Dense map and rectifier of a gathered row is the gathered row of the table's dense map and rectifier. -/
theorem v15_at (b : Fin 1) (n : Fin 12000) (k : Fin 32) (h : Fin 64) :
    val_main_v15 (F := Ideal) X nbr Qw Qb (ix4 b n k h)
      = (rowsOf (hid (drop1 X) Qw Qb) (rowOf (val_main_v5 (F := Ideal) nbr))) (ix3 n k h) := by
  obtain rfl : b = 0 := Subsingleton.elim _ _
  rw [v15_leaky, v10_at]
  rfl

/-- The edge weight of `(n, k)`, repeated along the features. -/
theorem v34_at (b : Fin 1) (n : Fin 12000) (k : Fin 32) (h : Fin 64) :
    val_main_v34 (F := Ideal) Wt nbr (ix4 b n k h) = (val_main_v32 (F := Ideal) Wt nbr) (ix2 n k) := by
  have e : idx_main_v33 (idx_main_v34 (ix4 b n k h)) = ix2 n k :=
    funext fun a => Fin.ext (by match a with | ⟨0, _⟩ => rfl | ⟨1, _⟩ => rfl)
  rw [val_main_v34_apply, val_main_v33_apply, e]

/-- A gathered hidden row times its edge weight. -/
theorem v35_at (b : Fin 1) (n : Fin 12000) (k : Fin 32) (h : Fin 64) :
    val_main_v35 (F := Ideal) X Wt nbr Qw Qb (ix4 b n k h)
      = (rowsOf (hid (drop1 X) Qw Qb) (rowOf (val_main_v5 (F := Ideal) nbr))) (ix3 n k h) * (val_main_v32 (F := Ideal) Wt nbr) (ix2 n k) := by
  rw [val_main_v35_apply, v15_at, v34_at]
  rfl

/-- The weighted sum over the 32 neighbours (the sum starts from the zero word). -/
theorem v36_at (b : Fin 1) (n : Fin 12000) (h : Fin 64) :
    val_main_v36 (F := Ideal) X Wt nbr Qw Qb (ix3 b n h)
      = ∑ k : Fin 32, (rowsOf (hid (drop1 X) Qw Qb) (rowOf (val_main_v5 (F := Ideal) nbr))) (ix3 n k h) * (val_main_v32 (F := Ideal) Wt nbr) (ix2 n k) := by
  rw [val_main_v36_apply]
  show Ideal.ofBits .f32 0x00000000#32 + _ = _
  rw [Ideal.ofBits_zero_f32, zero_add]
  refine Finset.sum_congr rfl fun k _ => ?_
  have e : idx_main_v36 (ix3 b n h) k = ix4 b n k h :=
    funext fun a => Fin.ext (by match a with | ⟨0, _⟩ => rfl | ⟨1, _⟩ => rfl | ⟨2, _⟩ => rfl | ⟨3, _⟩ => rfl)
  rw [e, v35_at]

/-- The sum of a node's 32 edge weights. -/
theorem v37_at (b : Fin 1) (n : Fin 12000) (z : Fin 1) :
    val_main_v37 (F := Ideal) Wt nbr (ix3 b n z) = ∑ k : Fin 32, (val_main_v32 (F := Ideal) Wt nbr) (ix2 n k) := by
  rw [val_main_v37_apply]
  show Ideal.ofBits .f32 0x00000000#32 + _ = _
  rw [Ideal.ofBits_zero_f32, zero_add]
  refine Finset.sum_congr rfl fun k _ => ?_
  have e : idx_main_v33 (idx_main_v37 (ix3 b n z) k) = ix2 n k :=
    funext fun a => Fin.ext (by match a with | ⟨0, _⟩ => rfl | ⟨1, _⟩ => rfl)
  rw [val_main_v33_apply, e]

/-- The divisor: that sum plus the small constant, repeated along the features. -/
theorem v40_at (b : Fin 1) (n : Fin 12000) (h : Fin 64) :
    val_main_v40 (F := Ideal) Wt nbr (ix3 b n h) = (∑ k : Fin 32, (val_main_v32 (F := Ideal) Wt nbr) (ix2 n k)) + eps := by
  have e : idx_main_v40 (ix3 b n h) = ix3 (0 : Fin 1) n (0 : Fin 1) :=
    funext fun a => Fin.ext (by match a with | ⟨0, _⟩ => rfl | ⟨1, _⟩ => rfl | ⟨2, _⟩ => rfl)
  rw [val_main_v40_apply, e, val_main_v39_apply, v37_at, val_main_v38_apply]
  rfl

/-- The weighted neighbour average. -/
theorem v41_at (b : Fin 1) (n : Fin 12000) (h : Fin 64) :
    val_main_v41 (F := Ideal) X Wt nbr Qw Qb (ix3 b n h) = (aggG (rowsOf (hid (drop1 X) Qw Qb) (rowOf (val_main_v5 (F := Ideal) nbr))) (val_main_v32 (F := Ideal) Wt nbr)) (ix2 n h) := by
  rw [val_main_v41_apply, v36_at, v40_at]
  rfl

/-- The join of a node's own features and its averaged ones, by the column's side of 64. -/
theorem v42_at (b : Fin 1) (n : Fin 12000) (d : Fin 128) :
    val_main_v42 (F := Ideal) X Wt nbr Qw Qb (ix3 b n d) = (cat (drop1 X) (aggG (rowsOf (hid (drop1 X) Qw Qb) (rowOf (val_main_v5 (F := Ideal) nbr))) (val_main_v32 (F := Ideal) Wt nbr))) (ix2 n d) := by
  obtain rfl : b = 0 := Subsingleton.elim _ _
  unfold val_main_v42
  by_cases hd : d.val < 64
  · rw [concatenate_pair_apply_left (2 : Fin 3) X (val_main_v41 (F := Ideal) X Wt nbr Qw Qb) concatenates_S1x12000x64_S1x12000x64_S1x12000x128_d2 (ix3 (0 : Fin 1) n d) rfl
      (ix3 (0 : Fin 1) n ⟨d.val, hd⟩) (fun a => by match a with | ⟨0, _⟩ => rfl | ⟨1, _⟩ => rfl | ⟨2, _⟩ => rfl)]
    exact (dif_pos hd : (cat (drop1 X) (aggG (rowsOf (hid (drop1 X) Qw Qb) (rowOf (val_main_v5 (F := Ideal) nbr))) (val_main_v32 (F := Ideal) Wt nbr))) (ix2 n d) = _).symm
  · have hd' : d.val - 64 < 64 := by have := d.isLt; omega
    rw [concatenate_pair_apply_right (2 : Fin 3) X (val_main_v41 (F := Ideal) X Wt nbr Qw Qb) concatenates_S1x12000x64_S1x12000x64_S1x12000x128_d2 (ix3 (0 : Fin 1) n d) rfl rfl
      (ix3 (0 : Fin 1) n ⟨d.val - 64, hd'⟩)
      (fun a ha => by match a with | ⟨0, _⟩ => rfl | ⟨1, _⟩ => rfl | ⟨2, _⟩ => exact absurd rfl ha)
      (by show d.val - 64 + 64 = d.val; omega), v41_at]
    exact (dif_neg hd : (cat (drop1 X) (aggG (rowsOf (hid (drop1 X) Qw Qb) (rowOf (val_main_v5 (F := Ideal) nbr))) (val_main_v32 (F := Ideal) Wt nbr))) (ix2 n d) = _).symm

/-- The second dense map: the sum over the 128 joined columns. -/
theorem v43_at (b : Fin 1) (n : Fin 12000) (h : Fin 64) :
    val_main_v43 (F := Ideal) X Wt nbr Qw Qb Ww (ix3 b n h)
      = ∑ d : Fin 128, (cat (drop1 X) (aggG (rowsOf (hid (drop1 X) Qw Qb) (rowOf (val_main_v5 (F := Ideal) nbr))) (val_main_v32 (F := Ideal) Wt nbr))) (ix2 n d) * Ww (ix2 d h) := by
  rw [val_main_v43_apply]
  refine Finset.sum_congr rfl fun d _ => ?_
  have e1 : lidx_main_v43 (ix3 b n h) d = ix3 b n d :=
    funext fun a => Fin.ext (by match a with | ⟨0, _⟩ => rfl | ⟨1, _⟩ => rfl | ⟨2, _⟩ => rfl)
  have e2 : ridx_main_v43 (ix3 b n h) d = ix2 d h :=
    funext fun a => Fin.ext (by match a with | ⟨0, _⟩ => rfl | ⟨1, _⟩ => rfl)
  rw [e1, e2, v42_at]

/-- The same with the bias of the feature added. -/
theorem v46_at (b : Fin 1) (n : Fin 12000) (h : Fin 64) :
    val_main_v46 (F := Ideal) X Wt nbr Qw Qb Ww Wb (ix3 b n h)
      = (∑ d : Fin 128, (cat (drop1 X) (aggG (rowsOf (hid (drop1 X) Qw Qb) (rowOf (val_main_v5 (F := Ideal) nbr))) (val_main_v32 (F := Ideal) Wt nbr))) (ix2 n d) * Ww (ix2 d h)) + Wb (ix1 h) := by
  have e : idx_main_v44 (idx_main_v45 (ix3 b n h)) = ix1 h :=
    funext fun a => Fin.ext (by match a with | ⟨0, _⟩ => rfl)
  rw [val_main_v46_apply, val_main_v45_apply, val_main_v44_apply, e, v43_at]
  rfl

/-- The second compare, scaled copy and select are the leaky rectifier, at any index. -/
theorem v51_leaky (i : S1x12000x64.Idx) :
    val_main_v51 (F := Ideal) X Wt nbr Qw Qb Ww Wb i = leaky (val_main_v46 (F := Ideal) X Wt nbr Qw Qb Ww Wb i) := by
  rw [val_main_v51_apply, val_main_v48_apply, val_main_v50_apply, val_main_v47_apply, val_main_v49_apply]
  rfl

/-- The second dense map and rectifier of the joined table. -/
theorem v51_at (b : Fin 1) (n : Fin 12000) (h : Fin 64) :
    val_main_v51 (F := Ideal) X Wt nbr Qw Qb Ww Wb (ix3 b n h) = (dense2 (cat (drop1 X) (aggG (rowsOf (hid (drop1 X) Qw Qb) (rowOf (val_main_v5 (F := Ideal) nbr))) (val_main_v32 (F := Ideal) Wt nbr))) Ww Wb) (ix2 n h) := by
  rw [v51_leaky, v46_at]
  rfl

/-- A row's Euclidean norm: the square root of the sum of its 64 squares (the sum starts from the zero word). -/
theorem v52_at (b : Fin 1) (n : Fin 12000) (z : Fin 1) :
    val_main_v52 (F := Ideal) X Wt nbr Qw Qb Ww Wb (ix3 b n z)
      = Ideal.sqrt (∑ h : Fin 64, (dense2 (cat (drop1 X) (aggG (rowsOf (hid (drop1 X) Qw Qb) (rowOf (val_main_v5 (F := Ideal) nbr))) (val_main_v32 (F := Ideal) Wt nbr))) Ww Wb) (ix2 n h) * (dense2 (cat (drop1 X) (aggG (rowsOf (hid (drop1 X) Qw Qb) (rowOf (val_main_v5 (F := Ideal) nbr))) (val_main_v32 (F := Ideal) Wt nbr))) Ww Wb) (ix2 n h)) := by
  obtain rfl : b = 0 := Subsingleton.elim _ _
  rw [val_main_v52_apply, val_main_call2_v2_apply, val_main_call2_v1_apply]
  show Ideal.sqrt (Ideal.ofBits .f32 0x00000000#32 + _) = _
  rw [Ideal.ofBits_zero_f32, zero_add]
  refine congrArg Ideal.sqrt (Finset.sum_congr rfl fun h _ => ?_)
  have e : idx_main_call2_v1 (idx_main_call2_v2 (ix3 (0 : Fin 1) n z)) h = ix3 (0 : Fin 1) n h :=
    funext fun a => Fin.ext (by match a with | ⟨0, _⟩ => rfl | ⟨1, _⟩ => rfl | ⟨2, _⟩ => rfl)
  rw [e, val_main_call2_v0_apply, v51_at]
  rfl

/-- The norm plus the small constant, repeated along the features. -/
theorem v55_at (b : Fin 1) (n : Fin 12000) (h : Fin 64) :
    val_main_v55 (F := Ideal) X Wt nbr Qw Qb Ww Wb (ix3 b n h)
      = Ideal.sqrt (∑ h : Fin 64, (dense2 (cat (drop1 X) (aggG (rowsOf (hid (drop1 X) Qw Qb) (rowOf (val_main_v5 (F := Ideal) nbr))) (val_main_v32 (F := Ideal) Wt nbr))) Ww Wb) (ix2 n h) * (dense2 (cat (drop1 X) (aggG (rowsOf (hid (drop1 X) Qw Qb) (rowOf (val_main_v5 (F := Ideal) nbr))) (val_main_v32 (F := Ideal) Wt nbr))) Ww Wb) (ix2 n h)) + eps := by
  have e : idx_main_v55 (ix3 b n h) = ix3 (0 : Fin 1) n (0 : Fin 1) :=
    funext fun a => Fin.ext (by match a with | ⟨0, _⟩ => rfl | ⟨1, _⟩ => rfl | ⟨2, _⟩ => rfl)
  rw [val_main_v55_apply, e, val_main_v54_apply, v52_at, val_main_v53_apply]
  rfl

/-- The layer's result at `(b, n, h)`: the row divided by its norm plus the constant. -/
theorem v56_at (b : Fin 1) (n : Fin 12000) (h : Fin 64) :
    val_main_v56 (F := Ideal) X Wt nbr Qw Qb Ww Wb (ix3 b n h) = normalize (dense2 (cat (drop1 X) (aggG (rowsOf (hid (drop1 X) Qw Qb) (rowOf (val_main_v5 (F := Ideal) nbr))) (val_main_v32 (F := Ideal) Wt nbr))) Ww Wb) (ix2 n h) := by
  rw [val_main_v56_apply, v51_at, v55_at]
  rfl

end Stages

/-- The reference's layer is the specification's. -/
theorem layer_eq (X : (⟨S1x12000x64, .f32⟩ : BufTy).Contents (Elt Ideal)) (Wt : (⟨S12000x12000, .f32⟩ : BufTy).Contents (Elt Ideal))
    (nbr : (⟨S12000x32, .i32⟩ : BufTy).Contents (Elt Ideal)) (Qw : (⟨S64x64, .f32⟩ : BufTy).Contents (Elt Ideal)) (Qb : (⟨S64, .f32⟩ : BufTy).Contents (Elt Ideal))
    (Ww : (⟨S128x64, .f32⟩ : BufTy).Contents (Elt Ideal)) (Wb : (⟨S64, .f32⟩ : BufTy).Contents (Elt Ideal)) :
    val_main_v56 (F := Ideal) X Wt nbr Qw Qb Ww Wb
      = add1 (layer (drop1 X) Qw Qb Ww Wb (rowOf (val_main_v5 (F := Ideal) nbr)) (val_main_v32 (F := Ideal) Wt nbr)) := by
  funext j
  obtain ⟨b, n, h, rfl⟩ : ∃ (b : Fin 1) (n : Fin 12000) (h : Fin 64), j = ix3 b n h := ⟨j 0, j 1, j 2, eq_ix3 j⟩
  rw [v56_at]
  rfl

end Cert.RefLayer

end
-- ==== Proof.lean ====
/-
  The certificate of a two-layer PinSage-style message passing kernel against its jnp reference, over the extended
  reals. Both programs compute, twice, one layer (`LayerSpec.layer`): a dense map and a leaky rectifier on every
  node's features, the edge-weighted average of each node's 32 neighbours' rows, the join with the node's own features,
  a second dense map and rectifier, and a division of each row by its Euclidean norm plus a small constant. The kernel
  applies the first dense map to the table of 12000 nodes and then gathers the neighbours' rows of the result; the
  reference gathers the neighbours' feature rows and applies the dense map to each: the row of a product is the product
  of the row, so entry by entry the two are one sum — no law of the extended reals is needed beyond `0 + x = x` for the
  host's reductions, and the precondition is never opened. The start indices of the gathers and the gathered edge
  weights are the same operations of the same arguments in both programs.
  Kernel side: the frames of the word-level and the idealized kernel (four regions each), the idealized kernel's run
  with its result named, and that result as two layers (`KernelValue`). Reference side: its run at the stage of its
  last value (`RefRun`), that stage as its first layer's stage applied twice (`RefTwo`), and one layer's stage as the
  specification's layer (`RefLayer`).
-/
import proofs.«120848_j4509715661236_1_alg».proof.Defs
import proofs.«120848_j4509715661236_1_alg».proof.Proof.Gen.Kernel
import proofs.«120848_j4509715661236_1_alg».proof.Proof.Gen.KernelIdeal
import proofs.«120848_j4509715661236_1_alg».proof.Proof.Gen.ReferenceIdeal
import proofs.«120848_j4509715661236_1_alg».proof.Proof.Gen.Pre_finite_inputs
import proofs.«120848_j4509715661236_1_alg».proof.Proof.PatchedKernelFrame
import proofs.«120848_j4509715661236_1_alg».proof.Proof.PatchedKernelIdealFrame
import proofs.«120848_j4509715661236_1_alg».proof.Proof.KernelRun
import proofs.«120848_j4509715661236_1_alg».proof.Proof.KernelValue
import proofs.«120848_j4509715661236_1_alg».proof.Proof.RefRun
import proofs.«120848_j4509715661236_1_alg».proof.Proof.RefTwo
import proofs.«120848_j4509715661236_1_alg».proof.Proof.RefLayer
import proofs.«120848_j4509715661236_1_alg».proof.Proof.LayerSpec
import Idealize.ShloMosaic.Adequacy
import Idealize.ShloMosaic.Init

noncomputable section

namespace Cert.Proof

open Idealize.ShloMosaic Idealize.ShloMosaic.TcCoe Idealize.SL.Sem Cert.LayerSpec

/-! ## The two programs name the neighbours' rows and the edge weights by the same operations -/

/-- The reference's start indices are the kernel's: a negative neighbour number moved up by 12000, as `[12000, 32, 1]`. -/
theorem startIdx_eq (nbr : IVec ⟨2, ![12000, 32]⟩ 32) :
    Cert.ReferenceIdeal.ReadP.val_main_v5 (F := Ideal) nbr = Cert.HostStretches.startIdx nbr := by
  unfold Cert.ReferenceIdeal.ReadP.val_main_v5 Cert.ReferenceIdeal.ReadP.val_main_v4 Cert.ReferenceIdeal.ReadP.val_main_v3
    Cert.ReferenceIdeal.ReadP.val_main_v2 Cert.ReferenceIdeal.ReadP.val_main_c_0 Cert.ReferenceIdeal.ReadP.val_main_v1
    Cert.ReferenceIdeal.ReadP.val_main_v0 Cert.ReferenceIdeal.ReadP.val_main_c Cert.HostStretches.startIdx
  rfl

/-- The reference's gathered edge weights are the kernel's. -/
theorem edgeW_eq (Wt : T2 12000 12000) (nbr : IVec ⟨2, ![12000, 32]⟩ 32) :
    Cert.ReferenceIdeal.ReadP.val_main_v32 (F := Ideal) Wt nbr = Cert.HostStretches.edgeW Wt nbr := by
  rfl

/-! ## The claims -/

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.RefRun.run (F := Ideal) m ρ)

/-- The ideal pass rewrote nothing. -/
theorem preserves : Cert.preserves_Kernel_KernelIdeal := trivial

/-- Both programs end with two layers of the features, as `[1, 12000, 64]`. -/
theorem algebraic : Cert.algebraic_KernelIdeal_ReferenceIdeal := by
  intro m ρ m' ρ' _ hagree
  refine ⟨fun c => Cert.KernelIdeal.GenP.W9 m ρ c (Proc.devRef .tc Cert.KernelIdeal.main_v55), Cert.KernelIdeal.GenP.run_named m ρ, ?_⟩
  refine (θ_run Cert.ReferenceIdeal.defs _ _).mono (fun _ h c => ⟨(h c).1.trans ?_, (h c).2⟩)
    (Cert.RefRun.run (F := Ideal) m' ρ')
  obtain ⟨h0, h1, h2, h3, h4, h5, h6, h7, h8, h9, h10⟩ := hagree c
  rw [h0, h1, h2, h3, h4, h5, h6, h7, h8, h9, h10]
  show _ = Cert.KernelIdeal.GenP.W9 m ρ c (Proc.devRef .tc Cert.KernelIdeal.main_v55)
  rw [Cert.KernelValue.result, Cert.RefTwo.two_layers, Cert.RefLayer.layer_eq, Cert.RefLayer.layer_eq, drop1_add1,
    startIdx_eq, edgeW_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
